-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1536x64 : Shape := ⟨2, ![1536, 64]⟩
abbrev S1536x1536 : Shape := ⟨2, ![1536, 1536]⟩
abbrev S64x64 : Shape := ⟨2, ![64, 64]⟩
abbrev S64 : Shape := ⟨1, ![64]⟩
abbrev S_ : Shape := ⟨0, ![]⟩

class Facts : Prop where
  bcast_S_S1536x64 : S_.BroadcastsInDim S1536x64 (![] : Fin 0 → Fin S1536x64.rank)
  reducesTo_S1536x64_S_d0_1 : S1536x64.ReducesTo [0, 1] S_
  h_S_ : 0 < S_.numel
  bcast_S_S1536x1536 : S_.BroadcastsInDim S1536x1536 (![] : Fin 0 → Fin S1536x1536.rank)
  reducesTo_S1536x1536_S_d0_1 : S1536x1536.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg1 : FVec F S1536x1536 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_cst_20 : FVec F S_ .f32 := constant S_ .f32 0x00000000#32
  let main_v54 : FVec F S1536x1536 .f32 := broadcastInDim S1536x1536 ![] bcast_S_S1536x1536 main_cst_20
  let main_v55 : IVec S1536x1536 1 := cmpf .oeq main_arg1 main_v54
  let main_cst_21 : FVec F S_ .f32 := constant S_ .f32 0x3F800000#32
  let main_v56 : FVec F S1536x1536 .f32 := broadcastInDim S1536x1536 ![] bcast_S_S1536x1536 main_cst_21
  let main_v57 : IVec S1536x1536 1 := cmpf .oeq main_arg1 main_v56
  let main_v58 : IVec S1536x1536 1 := ori main_v55 main_v57
  let main_c_22 : IVec S_ 1 := constantI S_ 1 1#1
  let main_v59 : IVec S_ 1 := (fun x v => Host.reduce IntOp.andi x v reducesTo_S1536x1536_S_d0_1 h_S_) main_v58 main_c_22
  let main_v60 : IVec S_ 1 := andi main_v53 main_v59
  main_v60

def fn_part2 {F : FTy → Type} [FloatOps F] (main_arg1 : FVec F S1536x1536 .f32) (main_arg7 : FVec F S64x64 .f32) (main_arg8 : FVec F S64x64 .f32) (main_arg9 : FVec F S64 .f32) (main_arg10 : FVec F S64x64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg1 main_v48 main_v49 main_v50

def fn_part1 {F : FTy → Type} [FloatOps F] (main_arg1 : FVec F S1536x1536 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg7 main_arg8 main_arg9 main_arg10 main_v33

def fn {F : FTy → Type} [FloatOps F] (main_arg0 : FVec F S1536x64 .f32) (main_arg1 : FVec F S1536x1536 .f32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) : IVec S_ 1 :=
  let main_v0 : FVec F S1536x64 .f32 := Host.absf main_arg0
  let main_cst : FVec F S_ .f32 := constant S_ .f32 0x7F800000#32
  let main_v1 : FVec F S1536x64 .f32 := broadcastInDim S1536x64 ![] bcast_S_S1536x64 main_cst
  let main_v2 : IVec S1536x64 1 := cmpf .olt main_v0 main_v1
  let main_c : IVec S_ 1 := constantI S_ 1 1#1
  let main_v3 : IVec S_ 1 := (fun x v => Host.reduce IntOp.andi x v reducesTo_S1536x64_S_d0_1 h_S_) main_v2 main_c
  let main_v4 : FVec F S1536x1536 .f32 := Host.absf main_arg1
  let main_cst_0 : FVec F S_ .f32 := constant S_ .f32 0x7F800000#32
  let main_v5 : FVec F S1536x1536 .f32 := broadcastInDim S1536x1536 ![] bcast_S_S1536x1536 main_cst_0
  let main_v6 : IVec S1536x1536 1 := cmpf .olt main_v4 main_v5
  let main_c_1 : IVec S_ 1 := constantI S_ 1 1#1
  let main_v7 : IVec S_ 1 := (fun x v => Host.reduce IntOp.andi x v reducesTo_S1536x1536_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg4 main_arg5 main_arg6 main_arg7 main_arg8 main_arg9 main_arg10 main_v13 main_v16
-- ==== Kernel.lean ====
abbrev S1536x64 : Shape := ⟨2, ![1536, 64]⟩
abbrev S1536x1536 : Shape := ⟨2, ![1536, 1536]⟩
abbrev S64x64 : Shape := ⟨2, ![64, 64]⟩
abbrev S64 : Shape := ⟨1, ![64]⟩
abbrev S1x64 : Shape := ⟨2, ![1, 64]⟩
abbrev S64x1536 : Shape := ⟨2, ![64, 1536]⟩
abbrev S1536 : Shape := ⟨1, ![1536]⟩
abbrev S1x1536 : Shape := ⟨2, ![1, 1536]⟩
abbrev S64x1 : Shape := ⟨2, ![64, 1]⟩

abbrev nBuf : Space → Nat
  | .hbm => 16
  | .vmem => 12
  | .smem => 0
  | _ => 0

abbrev bufTy : (tb : Table) → Fin (tcTables nBuf tb) → BufTy
  | .hbm, ⟨0, _⟩ => ⟨S1536x64, .f32⟩
  | .hbm, ⟨1, _⟩ => ⟨S1536x1536, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S1536x1536, .bf16⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S1536x64, .f32⟩
  | .local _ .vmem, ⟨0, _⟩ => ⟨S1536x1536, .bf16⟩
  | .local _ .vmem, ⟨1, _⟩ => ⟨S1536x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S64x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1536x64, .f32⟩
  | _, _ => ⟨S1536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1536x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1536x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

class Facts₀ : Prop where
  bitsLt_bf16_f32 : FTy.bits .bf16 < FTy.bits .f32
  shapeCasts_S64_S1x64 : S64.ShapeCasts S1x64
  inb_S1536x1536_S1536x1536_0_0 : ∀ a, (![0, 0] : Fin 2 → Nat) a + S1536x1536.size a ≤ S1536x1536.size a
  h_S1536x1536 : 0 < S1536x1536.numel
  shapeCasts_S1536x1536_S1536x1536 : S1536x1536.ShapeCasts S1536x1536
  inb_S1536x64_S1536x64_0_0 : ∀ a, (![0, 0] : Fin 2 → Nat) a + S1536x64.size a ≤ S1536x64.size a
  h_S1536x64 : 0 < S1536x64.numel
  transposes_S1536x64_p1_0_S64x1536 : S1536x64.Transposes [1, 0] S64x1536
  reduces_S1536x1536_S1536 : S1536x1536.Reduces [0] S1536
  shapeCasts_S1536_S1x1536 : S1536.ShapeCasts S1x1536
  broadcasts_S1x1536_S64x1536 : S1x1536.Broadcasts S64x1536
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S1x64_p1_0_S64x1 : S1x64.Transposes [1, 0] S64x1
  broadcasts_S64x1_S64x1536 : S64x1.Broadcasts S64x1536
  transposes_S64x1536_p1_0_S1536x64 : S64x1536.Transposes [1, 0] S1536x64
  dot_S64x1536_S1536x1536_S64x1536_1_0_0_1_n_n_wf : DotDims.WF S64x1536 S1536x1536 S64x1536 [1] [0] [0] [1] [] []
  dot_S64x64_S64x1536_S64x1536_1_0_0_1_n_n_wf : DotDims.WF S64x64 S64x1536 S64x1536 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole

variable [Facts₀]

def dot_S64x1536_S1536x1536_S64x1536_1_0_0_1_n_n : DotDims S64x1536 S1536x1536 S64x1536 where
  lhsContracting := [1]
  rhsContracting := [0]
  lhsNonContracting := [0]
  rhsNonContracting := [1]
  lhsBatch := []
  rhsBatch := []
  wf := dot_S64x1536_S1536x1536_S64x1536_1_0_0_1_n_n_wf
def dot_S64x64_S64x1536_S64x1536_1_0_0_1_n_n : DotDims S64x64 S64x1536 S64x1536 where
  lhsContracting := [1]
  rhsContracting := [0]
  lhsNonContracting := [0]
  rhsNonContracting := [1]
  lhsBatch := []
  rhsBatch := []
  wf := dot_S64x64_S64x1536_S64x1536_1_0_0_1_n_n_wf

abbrev win0_0 : Pipeline.Window sig grid0 :=
  Pipeline.Window.whole (Memref.whole main_v0) false false (stage0_0 0) (sem0_0 0) (Memref.isWhole_whole _) (hstage0_0 0)

abbrev win0_1 : Pipeline.Window sig grid0 :=
  Pipeline.Window.whole (Memref.whole main_arg0) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_v2) false false (stage0_6 0) (sem0_6 0) (Memref.isWhole_whole _) (hstage0_6 0)

abbrev win0_7 : Pipeline.Window sig grid0 :=
  Pipeline.Window.whole (Memref.whole main_arg7) false false (stage0_7 0) (sem0_7 0) (Memref.isWhole_whole _) (hstage0_7 0)

abbrev win0_8 : Pipeline.Window sig grid0 :=
  Pipeline.Window.whole (Memref.whole main_arg8) false false (stage0_8 0) (sem0_8 0) (Memref.isWhole_whole _) (hstage0_8 0)

abbrev win0_9 : Pipeline.Window sig grid0 :=
  Pipeline.Window.whole (Memref.whole main_v3) false false (stage0_9 0) (sem0_9 0) (Memref.isWhole_whole _) (hstage0_9 0)

abbrev win0_10 : Pipeline.Window sig grid0 :=
  Pipeline.Window.whole (Memref.whole main_arg10) false false (stage0_10 0) (sem0_10 0) (Memref.isWhole_whole _) (hstage0_10 0)

abbrev win0_11 : Pipeline.Window sig grid0 :=
  Pipeline.Window.whole (Memref.whole main_v4) true false (stage0_11 0) (sem0_11 0) (Memref.isWhole_whole _) (hstage0_11 0)

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1536x64 : Shape := ⟨2, ![1536, 64]⟩
abbrev S1536x1536 : Shape := ⟨2, ![1536, 1536]⟩
abbrev S64x64 : Shape := ⟨2, ![64, 64]⟩
abbrev S64 : Shape := ⟨1, ![64]⟩
abbrev S_ : Shape := ⟨0, ![]⟩
abbrev S2359296 : Shape := ⟨1, ![2359296]⟩
abbrev S2359296x1 : Shape := ⟨2, ![2359296, 1]⟩
abbrev S1 : Shape := ⟨1, ![1]⟩
abbrev S1x1 : Shape := ⟨2, ![1, 1]⟩
abbrev S2359296x64 : Shape := ⟨2, ![2359296, 64]⟩
abbrev S1536 : Shape := ⟨1, ![1536]⟩
abbrev S1536x1 : Shape := ⟨2, ![1536, 1]⟩
abbrev S1x64 : Shape := ⟨2, ![1, 64]⟩

abbrev nBuf : Space → Nat
  | .hbm => 275
  | .vmem => 0
  | .smem => 0
  | _ => 0

abbrev hbmTy0_0 (i : Nat) : BufTy := match i % 128 with
  | 0 => ⟨S1536x64, .f32⟩
  | 1 => ⟨S1536x1536, .f32⟩
  | 2 => ⟨S64x64, .f32⟩
  | 3 => ⟨S64, .f32⟩
  | 4 => ⟨S64x64, .f32⟩
  | 5 => ⟨S64x64, .f32⟩
  | 6 => ⟨S64, .f32⟩
  | 7 => ⟨S64x64, .f32⟩
  | 8 => ⟨S64x64, .f32⟩
  | 9 => ⟨S64, .f32⟩
  | 10 => ⟨S64x64, .f32⟩
  | 11 => ⟨S_, .f32⟩
  | 12 => ⟨S1536x1536, .f32⟩
  | 13 => ⟨S1536x1536, .i1⟩
  | 14 => ⟨S2359296, .i1⟩
  | 15 => ⟨S2359296, .i32⟩
  | 16 => ⟨S_, .i32⟩
  | 17 => ⟨S_, .i32⟩
  | 18 => ⟨S2359296, .i32⟩
  | 19 => ⟨S_, .i32⟩
  | 20 => ⟨S2359296, .i32⟩
  | 21 => ⟨S_, .i32⟩
  | 22 => ⟨S_, .i32⟩
  | 23 => ⟨S2359296, .i32⟩
  | 24 => ⟨S2359296, .i32⟩
  | 25 => ⟨S_, .i32⟩
  | 26 => ⟨S2359296, .i32⟩
  | 27 => ⟨S2359296, .i1⟩
  | 28 => ⟨S_, .i32⟩
  | 29 => ⟨S2359296, .i32⟩
  | 30 => ⟨S2359296, .i32⟩
  | 31 => ⟨S2359296, .i32⟩
  | 32 => ⟨S2359296x1, .i32⟩
  | 33 => ⟨S_, .i32⟩
  | 34 => ⟨S2359296, .i32⟩
  | 35 => ⟨S2359296, .i32⟩
  | 36 => ⟨S_, .i32⟩
  | 37 => ⟨S_, .i32⟩
  | 38 => ⟨S2359296, .i32⟩
  | 39 => ⟨S_, .i32⟩
  | 40 => ⟨S2359296, .i32⟩
  | 41 => ⟨S2359296, .i32⟩
  | 42 => ⟨S2359296, .i32⟩
  | 43 => ⟨S_, .i32⟩
  | 44 => ⟨S2359296, .i32⟩
  | 45 => ⟨S2359296, .i1⟩
  | 46 => ⟨S2359296, .i32⟩
  | 47 => ⟨S2359296, .i32⟩
  | 48 => ⟨S_, .i32⟩
  | 49 => ⟨S2359296, .i32⟩
  | 50 => ⟨S2359296, .i1⟩
  | 51 => ⟨S2359296, .i1⟩
  | 52 => ⟨S_, .i32⟩
  | 53 => ⟨S2359296, .i32⟩
  | 54 => ⟨S2359296, .i32⟩
  | 55 => ⟨S2359296, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S2359296, .i32⟩
  | 63 => ⟨S2359296, .i32⟩
  | 64 => ⟨S_, .i32⟩
  | 65 => ⟨S2359296, .i32⟩
  | 66 => ⟨S2359296, .i1⟩
  | 67 => ⟨S_, .i32⟩
  | 68 => ⟨S2359296, .i32⟩
  | 69 => ⟨S2359296, .i1⟩
  | 70 => ⟨S_, .i32⟩
  | 71 => ⟨S_, .i1⟩
  | 72 => ⟨S2359296, .i1⟩
  | 73 => ⟨S2359296, .i1⟩
  | 74 => ⟨S2359296, .i1⟩
  | 75 => ⟨S2359296, .i32⟩
  | 76 => ⟨S2359296, .i32⟩
  | 77 => ⟨S2359296, .i32⟩
  | 78 => ⟨S_, .i32⟩
  | 79 => ⟨S2359296, .i32⟩
  | 80 => ⟨S2359296, .i32⟩
  | 81 => ⟨S2359296, .i32⟩
  | 82 => ⟨S_, .i32⟩
  | 83 => ⟨S2359296, .i32⟩
  | 84 => ⟨S2359296, .i1⟩
  | 85 => ⟨S2359296, .i32⟩
  | 86 => ⟨S2359296, .i32⟩
  | 87 => ⟨S_, .i32⟩
  | 88 => ⟨S2359296, .i32⟩
  | 89 => ⟨S2359296, .i1⟩
  | 90 => ⟨S2359296, .i1⟩
  | 91 => ⟨S_, .i32⟩
  | 92 => ⟨S2359296, .i32⟩
  | 93 => ⟨S2359296, .i32⟩
  | 94 => ⟨S2359296, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S2359296, .i32⟩
  | 102 => ⟨S2359296, .i32⟩
  | 103 => ⟨S_, .i32⟩
  | 104 => ⟨S2359296, .i32⟩
  | 105 => ⟨S2359296, .i1⟩
  | 106 => ⟨S_, .i32⟩
  | 107 => ⟨S2359296, .i32⟩
  | 108 => ⟨S2359296, .i1⟩
  | 109 => ⟨S_, .i32⟩
  | 110 => ⟨S_, .i1⟩
  | 111 => ⟨S2359296, .i1⟩
  | 112 => ⟨S2359296, .i1⟩
  | 113 => ⟨S2359296, .i1⟩
  | 114 => ⟨S2359296, .i32⟩
  | 115 => ⟨S2359296, .i32⟩
  | 116 => ⟨S2359296, .i32⟩
  | 117 => ⟨S2359296, .i32⟩
  | 118 => ⟨S1536x1536, .i32⟩
  | 119 => ⟨S_, .i32⟩
  | 120 => ⟨S_, .i32⟩
  | 121 => ⟨S2359296, .i32⟩
  | 122 => ⟨S2359296, .i1⟩
  | 123 => ⟨S_, .i32⟩
  | 124 => ⟨S_, .i32⟩
  | 125 => ⟨S2359296, .i32⟩
  | 126 => ⟨S2359296, .i32⟩
  | 127 => ⟨S_, .i32⟩
  | _ => ⟨S1536x64, .f32⟩

abbrev hbmTy0_1 (i : Nat) : BufTy := match i % 128 with
  | 0 => ⟨S_, .i32⟩
  | 1 => ⟨S2359296, .i32⟩
  | 2 => ⟨S2359296, .i32⟩
  | 3 => ⟨S_, .i32⟩
  | 4 => ⟨S2359296, .i32⟩
  | 5 => ⟨S2359296, .i1⟩
  | 6 => ⟨S_, .i32⟩
  | 7 => ⟨S2359296, .i32⟩
  | 8 => ⟨S2359296, .i32⟩
  | 9 => ⟨S2359296, .i32⟩
  | 10 => ⟨S2359296x1, .i32⟩
  | 11 => ⟨S1, .i32⟩
  | 12 => ⟨S_, .i32⟩
  | 13 => ⟨S2359296x1, .i32⟩
  | 14 => ⟨S2359296x1, .i1⟩
  | 15 => ⟨S1x1, .i32⟩
  | 16 => ⟨S2359296x1, .i32⟩
  | 17 => ⟨S2359296x1, .i1⟩
  | 18 => ⟨S2359296x1, .i1⟩
  | 19 => ⟨S_, .i1⟩
  | 20 => ⟨S2359296, .i1⟩
  | 21 => ⟨S2359296x64, .f32⟩
  | 22 => ⟨S2359296x64, .i1⟩
  | 23 => ⟨S_, .f32⟩
  | 24 => ⟨S2359296x64, .f32⟩
  | 25 => ⟨S2359296x64, .f32⟩
  | 26 => ⟨S_, .f32⟩
  | 27 => ⟨S1536x64, .f32⟩
  | 28 => ⟨S2359296x1, .i32⟩
  | 29 => ⟨S1536x64, .f32⟩
  | 30 => ⟨S_, .f32⟩
  | 31 => ⟨S2359296, .f32⟩
  | 32 => ⟨S_, .f32⟩
  | 33 => ⟨S1536, .f32⟩
  | 34 => ⟨S2359296x1, .i32⟩
  | 35 => ⟨S1536, .f32⟩
  | 36 => ⟨S_, .f32⟩
  | 37 => ⟨S_, .f32⟩
  | 38 => ⟨S1536, .f32⟩
  | 39 => ⟨S1536, .f32⟩
  | 40 => ⟨S1536x1, .f32⟩
  | 41 => ⟨S1536x64, .f32⟩
  | 42 => ⟨S1536x64, .f32⟩
  | 43 => ⟨S1536x64, .f32⟩
  | 44 => ⟨S1x64, .f32⟩
  | 45 => ⟨S1536x64, .f32⟩
  | 46 => ⟨S1536x64, .f32⟩
  | 47 => ⟨S1536x64, .f32⟩
  | 48 => ⟨S1536x64, .f32⟩
  | 49 => ⟨S_, .f32⟩
  | 50 => ⟨S1536x64, .f32⟩
  | 51 => ⟨S1536x64, .f32⟩
  | 52 => ⟨S_, .i32⟩
  | 53 => ⟨S2359296, .i32⟩
  | 54 => ⟨S2359296, .i1⟩
  | 55 => ⟨S_, .i32⟩
  | 56 => ⟨S2359296, .i32⟩
  | 57 => ⟨S2359296, .i32⟩
  | 58 => ⟨S2359296, .i32⟩
  | 59 => ⟨S2359296x1, .i32⟩
  | 60 => ⟨S1, .i32⟩
  | 61 => ⟨S_, .i32⟩
  | 62 => ⟨S2359296x1, .i32⟩
  | 63 => ⟨S2359296x1, .i1⟩
  | 64 => ⟨S1x1, .i32⟩
  | 65 => ⟨S2359296x1, .i32⟩
  | 66 => ⟨S2359296x1, .i1⟩
  | 67 => ⟨S2359296x1, .i1⟩
  | 68 => ⟨S_, .i1⟩
  | 69 => ⟨S2359296, .i1⟩
  | 70 => ⟨S2359296x64, .f32⟩
  | 71 => ⟨S2359296x64, .i1⟩
  | 72 => ⟨S_, .f32⟩
  | 73 => ⟨S2359296x64, .f32⟩
  | 74 => ⟨S2359296x64, .f32⟩
  | 75 => ⟨S_, .f32⟩
  | 76 => ⟨S1536x64, .f32⟩
  | 77 => ⟨S2359296x1, .i32⟩
  | 78 => ⟨S1536x64, .f32⟩
  | 79 => ⟨S_, .f32⟩
  | 80 => ⟨S2359296, .f32⟩
  | 81 => ⟨S_, .f32⟩
  | 82 => ⟨S1536, .f32⟩
  | 83 => ⟨S2359296x1, .i32⟩
  | 84 => ⟨S1536, .f32⟩
  | 85 => ⟨S_, .f32⟩
  | 86 => ⟨S_, .f32⟩
  | 87 => ⟨S1536, .f32⟩
  | 88 => ⟨S1536, .f32⟩
  | 89 => ⟨S1536x1, .f32⟩
  | 90 => ⟨S1536x64, .f32⟩
  | 91 => ⟨S1536x64, .f32⟩
  | 92 => ⟨S1536x64, .f32⟩
  | 93 => ⟨S1x64, .f32⟩
  | 94 => ⟨S1536x64, .f32⟩
  | 95 => ⟨S1536x64, .f32⟩
  | 96 => ⟨S1536x64, .f32⟩
  | 97 => ⟨S1536x64, .f32⟩
  | 98 => ⟨S_, .f32⟩
  | 99 => ⟨S1536x64, .f32⟩
  | 100 => ⟨S1536x64, .f32⟩
  | 101 => ⟨S_, .i32⟩
  | 102 => ⟨S2359296, .i32⟩
  | 103 => ⟨S2359296, .i1⟩
  | 104 => ⟨S_, .i32⟩
  | 105 => ⟨S2359296, .i32⟩
  | 106 => ⟨S2359296, .i32⟩
  | 107 => ⟨S2359296, .i32⟩
  | 108 => ⟨S2359296x1, .i32⟩
  | 109 => ⟨S1, .i32⟩
  | 110 => ⟨S_, .i32⟩
  | 111 => ⟨S2359296x1, .i32⟩
  | 112 => ⟨S2359296x1, .i1⟩
  | 113 => ⟨S1x1, .i32⟩
  | 114 => ⟨S2359296x1, .i32⟩
  | 115 => ⟨S2359296x1, .i1⟩
  | 116 => ⟨S2359296x1, .i1⟩
  | 117 => ⟨S_, .i1⟩
  | 118 => ⟨S2359296, .i1⟩
  | 119 => ⟨S2359296x64, .f32⟩
  | 120 => ⟨S2359296x64, .i1⟩
  | 121 => ⟨S_, .f32⟩
  | 122 => ⟨S2359296x64, .f32⟩
  | 123 => ⟨S2359296x64, .f32⟩
  | 124 => ⟨S_, .f32⟩
  | 125 => ⟨S1536x64, .f32⟩
  | 126 => ⟨S2359296x1, .i32⟩
  | 127 => ⟨S1536x64, .f32⟩
  | _ => ⟨S1536x64, .f32⟩

abbrev hbmTy0_2 (i : Nat) : BufTy := match i % 128 with
  | 0 => ⟨S_, .f32⟩
  | 1 => ⟨S2359296, .f32⟩
  | 2 => ⟨S_, .f32⟩
  | 3 => ⟨S1536, .f32⟩
  | 4 => ⟨S2359296x1, .i32⟩
  | 5 => ⟨S1536, .f32⟩
  | 6 => ⟨S_, .f32⟩
  | 7 => ⟨S_, .f32⟩
  | 8 => ⟨S1536, .f32⟩
  | 9 => ⟨S1536, .f32⟩
  | 10 => ⟨S1536x1, .f32⟩
  | 11 => ⟨S1536x64, .f32⟩
  | 12 => ⟨S1536x64, .f32⟩
  | 13 => ⟨S1536x64, .f32⟩
  | 14 => ⟨S1x64, .f32⟩
  | 15 => ⟨S1536x64, .f32⟩
  | 16 => ⟨S1536x64, .f32⟩
  | 17 => ⟨S1536x64, .f32⟩
  | 18 => ⟨S1536x64, .f32⟩
  | _ => ⟨S1536x64, .f32⟩

abbrev hbmTy (i : Nat) : BufTy := match i / 128 with
  | 0 => hbmTy0_0 i
  | 1 => hbmTy0_1 i
  | 2 => hbmTy0_2 i
  | _ => ⟨S1536x64, .f32⟩

abbrev bufTy : (tb : Table) → Fin (tcTables nBuf tb) → BufTy
  | .hbm, ⟨i, _⟩ => hbmTy i
  | _, _ => ⟨S1536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_call0_v0 : Ref sig .tc := ⟨.hbm, 14, rfl⟩
abbrev main_call0_v1 : Ref sig .tc := ⟨.hbm, 15, rfl⟩
abbrev main_call0_call0_c : Ref sig .tc := ⟨.hbm, 16, rfl⟩
abbrev main_call0_call0_v0 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_c_0 : Ref sig .tc := ⟨.hbm, 21, rfl⟩
abbrev main_call1_v0 : Ref sig .tc := ⟨.hbm, 22, rfl⟩
abbrev main_call1_v1 : Ref sig .tc := ⟨.hbm, 23, rfl⟩
abbrev main_v4 : Ref sig .tc := ⟨.hbm, 24, rfl⟩
abbrev main_c_1 : Ref sig .tc := ⟨.hbm, 25, rfl⟩
abbrev main_v5 : Ref sig .tc := ⟨.hbm, 26, rfl⟩
abbrev main_v6 : Ref sig .tc := ⟨.hbm, 27, rfl⟩
abbrev main_c_2 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_3 : Ref sig .tc := ⟨.hbm, 33, rfl⟩
abbrev main_v11 : Ref sig .tc := ⟨.hbm, 34, rfl⟩
abbrev main_v12 : Ref sig .tc := ⟨.hbm, 35, rfl⟩
abbrev main_call2_call0_c : Ref sig .tc := ⟨.hbm, 36, rfl⟩
abbrev main_call2_call0_v0 : Ref sig .tc := ⟨.hbm, 37, rfl⟩
abbrev main_v13 : Ref sig .tc := ⟨.hbm, 38, rfl⟩
abbrev main_c_4 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_call3_v5 : Ref sig .tc := ⟨.hbm, 45, rfl⟩
abbrev main_call3_v6 : Ref sig .tc := ⟨.hbm, 46, rfl⟩
abbrev main_call3_v7 : Ref sig .tc := ⟨.hbm, 47, rfl⟩
abbrev main_call3_c : Ref sig .tc := ⟨.hbm, 48, rfl⟩
abbrev main_call3_v8 : Ref sig .tc := ⟨.hbm, 49, rfl⟩
abbrev main_call3_v9 : Ref sig .tc := ⟨.hbm, 50, rfl⟩
abbrev main_call3_v10 : Ref sig .tc := ⟨.hbm, 51, rfl⟩
abbrev main_call3_c_0 : Ref sig .tc := ⟨.hbm, 52, rfl⟩
abbrev main_call3_v11 : Ref sig .tc := ⟨.hbm, 53, rfl⟩
abbrev main_call3_v12 : Ref sig .tc := ⟨.hbm, 54, rfl⟩
abbrev main_v14 : Ref sig .tc := ⟨.hbm, 55, rfl⟩
abbrev main_c_5 : Ref sig .tc := ⟨.hbm, 56, rfl⟩
abbrev main_call4_v0 : Ref sig .tc := ⟨.hbm, 57, rfl⟩
abbrev main_call4_c : Ref sig .tc := ⟨.hbm, 58, rfl⟩
abbrev main_call4_v1 : Ref sig .tc := ⟨.hbm, 59, rfl⟩
abbrev main_call4_c_0 : Ref sig .tc := ⟨.hbm, 60, rfl⟩
abbrev main_call4_v2 : Ref sig .tc := ⟨.hbm, 61, rfl⟩
abbrev main_call4_v3 : Ref sig .tc := ⟨.hbm, 62, rfl⟩
abbrev main_call4_v4 : Ref sig .tc := ⟨.hbm, 63, rfl⟩
abbrev main_call4_c_1 : Ref sig .tc := ⟨.hbm, 64, rfl⟩
abbrev main_call4_v5 : Ref sig .tc := ⟨.hbm, 65, rfl⟩
abbrev main_call4_v6 : Ref sig .tc := ⟨.hbm, 66, rfl⟩
abbrev main_call4_c_2 : Ref sig .tc := ⟨.hbm, 67, rfl⟩
abbrev main_call4_v7 : Ref sig .tc := ⟨.hbm, 68, rfl⟩
abbrev main_call4_v8 : Ref sig .tc := ⟨.hbm, 69, rfl⟩
abbrev main_call4_c_3 : Ref sig .tc := ⟨.hbm, 70, rfl⟩
abbrev main_call4_v9 : Ref sig .tc := ⟨.hbm, 71, rfl⟩
abbrev main_call4_v10 : Ref sig .tc := ⟨.hbm, 72, rfl⟩
abbrev main_call4_v11 : Ref sig .tc := ⟨.hbm, 73, rfl⟩
abbrev main_call4_v12 : Ref sig .tc := ⟨.hbm, 74, rfl⟩
abbrev main_call4_v13 : Ref sig .tc := ⟨.hbm, 75, rfl⟩
abbrev main_call4_v14 : Ref sig .tc := ⟨.hbm, 76, rfl⟩
abbrev main_v15 : Ref sig .tc := ⟨.hbm, 77, rfl⟩
abbrev main_c_6 : Ref sig .tc := ⟨.hbm, 78, rfl⟩
abbrev main_call5_v0 : Ref sig .tc := ⟨.hbm, 79, rfl⟩
abbrev main_call5_v1 : Ref sig .tc := ⟨.hbm, 80, rfl⟩
abbrev main_call5_v2 : Ref sig .tc := ⟨.hbm, 81, rfl⟩
abbrev main_call5_v3 : Ref sig .tc := ⟨.hbm, 82, rfl⟩
abbrev main_call5_v4 : Ref sig .tc := ⟨.hbm, 83, rfl⟩
abbrev main_call5_v5 : Ref sig .tc := ⟨.hbm, 84, rfl⟩
abbrev main_call5_v6 : Ref sig .tc := ⟨.hbm, 85, rfl⟩
abbrev main_call5_v7 : Ref sig .tc := ⟨.hbm, 86, rfl⟩
abbrev main_call5_c : Ref sig .tc := ⟨.hbm, 87, rfl⟩
abbrev main_call5_v8 : Ref sig .tc := ⟨.hbm, 88, rfl⟩
abbrev main_call5_v9 : Ref sig .tc := ⟨.hbm, 89, rfl⟩
abbrev main_call5_v10 : Ref sig .tc := ⟨.hbm, 90, rfl⟩
abbrev main_call5_c_0 : Ref sig .tc := ⟨.hbm, 91, rfl⟩
abbrev main_call5_v11 : Ref sig .tc := ⟨.hbm, 92, rfl⟩
abbrev main_call5_v12 : Ref sig .tc := ⟨.hbm, 93, rfl⟩
abbrev main_v16 : Ref sig .tc := ⟨.hbm, 94, rfl⟩
abbrev main_c_7 : Ref sig .tc := ⟨.hbm, 95, rfl⟩
abbrev main_call6_v0 : Ref sig .tc := ⟨.hbm, 96, rfl⟩
abbrev main_call6_c : Ref sig .tc := ⟨.hbm, 97, rfl⟩
abbrev main_call6_v1 : Ref sig .tc := ⟨.hbm, 98, rfl⟩
abbrev main_call6_c_0 : Ref sig .tc := ⟨.hbm, 99, rfl⟩
abbrev main_call6_v2 : Ref sig .tc := ⟨.hbm, 100, rfl⟩
abbrev main_call6_v3 : Ref sig .tc := ⟨.hbm, 101, rfl⟩
abbrev main_call6_v4 : Ref sig .tc := ⟨.hbm, 102, rfl⟩
abbrev main_call6_c_1 : Ref sig .tc := ⟨.hbm, 103, rfl⟩
abbrev main_call6_v5 : Ref sig .tc := ⟨.hbm, 104, rfl⟩
abbrev main_call6_v6 : Ref sig .tc := ⟨.hbm, 105, rfl⟩
abbrev main_call6_c_2 : Ref sig .tc := ⟨.hbm, 106, rfl⟩
abbrev main_call6_v7 : Ref sig .tc := ⟨.hbm, 107, rfl⟩
abbrev main_call6_v8 : Ref sig .tc := ⟨.hbm, 108, rfl⟩
abbrev main_call6_c_3 : Ref sig .tc := ⟨.hbm, 109, rfl⟩
abbrev main_call6_v9 : Ref sig .tc := ⟨.hbm, 110, rfl⟩
abbrev main_call6_v10 : Ref sig .tc := ⟨.hbm, 111, rfl⟩
abbrev main_call6_v11 : Ref sig .tc := ⟨.hbm, 112, rfl⟩
abbrev main_call6_v12 : Ref sig .tc := ⟨.hbm, 113, rfl⟩
abbrev main_call6_v13 : Ref sig .tc := ⟨.hbm, 114, rfl⟩
abbrev main_call6_v14 : Ref sig .tc := ⟨.hbm, 115, rfl⟩
abbrev main_v17 : Ref sig .tc := ⟨.hbm, 116, rfl⟩
abbrev main_v18 : Ref sig .tc := ⟨.hbm, 117, rfl⟩
abbrev main_v19 : Ref sig .tc := ⟨.hbm, 118, rfl⟩
abbrev main_c_8 : Ref sig .tc := ⟨.hbm, 119, rfl⟩
abbrev main_v20 : Ref sig .tc := ⟨.hbm, 120, rfl⟩
abbrev main_v21 : Ref sig .tc := ⟨.hbm, 121, rfl⟩
abbrev main_v22 : Ref sig .tc := ⟨.hbm, 122, rfl⟩
abbrev main_c_9 : Ref sig .tc := ⟨.hbm, 123, rfl⟩
abbrev main_call7_v0 : Ref sig .tc := ⟨.hbm, 124, rfl⟩
abbrev main_call7_v1 : Ref sig .tc := ⟨.hbm, 125, rfl⟩
abbrev main_v23 : Ref sig .tc := ⟨.hbm, 126, rfl⟩
abbrev main_c_10 : Ref sig .tc := ⟨.hbm, 127, rfl⟩
abbrev main_call8_v0 : Ref sig .tc := ⟨.hbm, 128, rfl⟩
abbrev main_call8_v1 : Ref sig .tc := ⟨.hbm, 129, rfl⟩
abbrev main_v24 : Ref sig .tc := ⟨.hbm, 130, rfl⟩
abbrev main_call9_c : Ref sig .tc := ⟨.hbm, 131, rfl⟩
abbrev main_call9_v0 : Ref sig .tc := ⟨.hbm, 132, rfl⟩
abbrev main_call9_v1 : Ref sig .tc := ⟨.hbm, 133, rfl⟩
abbrev main_call9_c_0 : Ref sig .tc := ⟨.hbm, 134, rfl⟩
abbrev main_call9_v2 : Ref sig .tc := ⟨.hbm, 135, rfl⟩
abbrev main_call9_v3 : Ref sig .tc := ⟨.hbm, 136, rfl⟩
abbrev main_call9_v4 : Ref sig .tc := ⟨.hbm, 137, rfl⟩
abbrev main_call9_v5 : Ref sig .tc := ⟨.hbm, 138, rfl⟩
abbrev main_call9_c_1 : Ref sig .tc := ⟨.hbm, 139, rfl⟩
abbrev main_call9_c_2 : Ref sig .tc := ⟨.hbm, 140, rfl⟩
abbrev main_call9_v6 : Ref sig .tc := ⟨.hbm, 141, rfl⟩
abbrev main_call9_v7 : Ref sig .tc := ⟨.hbm, 142, rfl⟩
abbrev main_call9_v8 : Ref sig .tc := ⟨.hbm, 143, rfl⟩
abbrev main_call9_v9 : Ref sig .tc := ⟨.hbm, 144, rfl⟩
abbrev main_call9_v10 : Ref sig .tc := ⟨.hbm, 145, rfl⟩
abbrev main_call9_v11 : Ref sig .tc := ⟨.hbm, 146, rfl⟩
abbrev main_call9_c_3 : Ref sig .tc := ⟨.hbm, 147, rfl⟩
abbrev main_call9_v12 : Ref sig .tc := ⟨.hbm, 148, rfl⟩
abbrev main_call9_v13 : Ref sig .tc := ⟨.hbm, 149, rfl⟩
abbrev main_call9_v14 : Ref sig .tc := ⟨.hbm, 150, rfl⟩
abbrev main_call9_cst : Ref sig .tc := ⟨.hbm, 151, rfl⟩
abbrev main_call9_v15 : Ref sig .tc := ⟨.hbm, 152, rfl⟩
abbrev main_v25 : Ref sig .tc := ⟨.hbm, 153, rfl⟩
abbrev main_cst_11 : Ref sig .tc := ⟨.hbm, 154, rfl⟩
abbrev main_v26 : Ref sig .tc := ⟨.hbm, 155, rfl⟩
abbrev main_v27 : Ref sig .tc := ⟨.hbm, 156, rfl⟩
abbrev main_v28 : Ref sig .tc := ⟨.hbm, 157, rfl⟩
abbrev main_cst_12 : Ref sig .tc := ⟨.hbm, 158, rfl⟩
abbrev main_v29 : Ref sig .tc := ⟨.hbm, 159, rfl⟩
abbrev main_cst_13 : Ref sig .tc := ⟨.hbm, 160, rfl⟩
abbrev main_v30 : Ref sig .tc := ⟨.hbm, 161, rfl⟩
abbrev main_v31 : Ref sig .tc := ⟨.hbm, 162, rfl⟩
abbrev main_v32 : Ref sig .tc := ⟨.hbm, 163, rfl⟩
abbrev main_cst_14 : Ref sig .tc := ⟨.hbm, 164, rfl⟩
abbrev main_call10_v0 : Ref sig .tc := ⟨.hbm, 165, rfl⟩
abbrev main_call10_v1 : Ref sig .tc := ⟨.hbm, 166, rfl⟩
abbrev main_v33 : Ref sig .tc := ⟨.hbm, 167, rfl⟩
abbrev main_v34 : Ref sig .tc := ⟨.hbm, 168, rfl⟩
abbrev main_v35 : Ref sig .tc := ⟨.hbm, 169, rfl⟩
abbrev main_v36 : Ref sig .tc := ⟨.hbm, 170, rfl⟩
abbrev main_v37 : Ref sig .tc := ⟨.hbm, 171, rfl⟩
abbrev main_v38 : Ref sig .tc := ⟨.hbm, 172, rfl⟩
abbrev main_v39 : Ref sig .tc := ⟨.hbm, 173, rfl⟩
abbrev main_v40 : Ref sig .tc := ⟨.hbm, 174, rfl⟩
abbrev main_v41 : Ref sig .tc := ⟨.hbm, 175, rfl⟩
abbrev main_v42 : Ref sig .tc := ⟨.hbm, 176, rfl⟩
abbrev main_call11_cst : Ref sig .tc := ⟨.hbm, 177, rfl⟩
abbrev main_call11_v0 : Ref sig .tc := ⟨.hbm, 178, rfl⟩
abbrev main_v43 : Ref sig .tc := ⟨.hbm, 179, rfl⟩
abbrev main_call12_c : Ref sig .tc := ⟨.hbm, 180, rfl⟩
abbrev main_call12_v0 : Ref sig .tc := ⟨.hbm, 181, rfl⟩
abbrev main_call12_v1 : Ref sig .tc := ⟨.hbm, 182, rfl⟩
abbrev main_call12_c_0 : Ref sig .tc := ⟨.hbm, 183, rfl⟩
abbrev main_call12_v2 : Ref sig .tc := ⟨.hbm, 184, rfl⟩
abbrev main_call12_v3 : Ref sig .tc := ⟨.hbm, 185, rfl⟩
abbrev main_call12_v4 : Ref sig .tc := ⟨.hbm, 186, rfl⟩
abbrev main_call12_v5 : Ref sig .tc := ⟨.hbm, 187, rfl⟩
abbrev main_call12_c_1 : Ref sig .tc := ⟨.hbm, 188, rfl⟩
abbrev main_call12_c_2 : Ref sig .tc := ⟨.hbm, 189, rfl⟩
abbrev main_call12_v6 : Ref sig .tc := ⟨.hbm, 190, rfl⟩
abbrev main_call12_v7 : Ref sig .tc := ⟨.hbm, 191, rfl⟩
abbrev main_call12_v8 : Ref sig .tc := ⟨.hbm, 192, rfl⟩
abbrev main_call12_v9 : Ref sig .tc := ⟨.hbm, 193, rfl⟩
abbrev main_call12_v10 : Ref sig .tc := ⟨.hbm, 194, rfl⟩
abbrev main_call12_v11 : Ref sig .tc := ⟨.hbm, 195, rfl⟩
abbrev main_call12_c_3 : Ref sig .tc := ⟨.hbm, 196, rfl⟩
abbrev main_call12_v12 : Ref sig .tc := ⟨.hbm, 197, rfl⟩
abbrev main_call12_v13 : Ref sig .tc := ⟨.hbm, 198, rfl⟩
abbrev main_call12_v14 : Ref sig .tc := ⟨.hbm, 199, rfl⟩
abbrev main_call12_cst : Ref sig .tc := ⟨.hbm, 200, rfl⟩
abbrev main_call12_v15 : Ref sig .tc := ⟨.hbm, 201, rfl⟩
abbrev main_v44 : Ref sig .tc := ⟨.hbm, 202, rfl⟩
abbrev main_cst_15 : Ref sig .tc := ⟨.hbm, 203, rfl⟩
abbrev main_v45 : Ref sig .tc := ⟨.hbm, 204, rfl⟩
abbrev main_v46 : Ref sig .tc := ⟨.hbm, 205, rfl⟩
abbrev main_v47 : Ref sig .tc := ⟨.hbm, 206, rfl⟩
abbrev main_cst_16 : Ref sig .tc := ⟨.hbm, 207, rfl⟩
abbrev main_v48 : Ref sig .tc := ⟨.hbm, 208, rfl⟩
abbrev main_cst_17 : Ref sig .tc := ⟨.hbm, 209, rfl⟩
abbrev main_v49 : Ref sig .tc := ⟨.hbm, 210, rfl⟩
abbrev main_v50 : Ref sig .tc := ⟨.hbm, 211, rfl⟩
abbrev main_v51 : Ref sig .tc := ⟨.hbm, 212, rfl⟩
abbrev main_cst_18 : Ref sig .tc := ⟨.hbm, 213, rfl⟩
abbrev main_call13_v0 : Ref sig .tc := ⟨.hbm, 214, rfl⟩
abbrev main_call13_v1 : Ref sig .tc := ⟨.hbm, 215, rfl⟩
abbrev main_v52 : Ref sig .tc := ⟨.hbm, 216, rfl⟩
abbrev main_v53 : Ref sig .tc := ⟨.hbm, 217, rfl⟩
abbrev main_v54 : Ref sig .tc := ⟨.hbm, 218, rfl⟩
abbrev main_v55 : Ref sig .tc := ⟨.hbm, 219, rfl⟩
abbrev main_v56 : Ref sig .tc := ⟨.hbm, 220, rfl⟩
abbrev main_v57 : Ref sig .tc := ⟨.hbm, 221, rfl⟩
abbrev main_v58 : Ref sig .tc := ⟨.hbm, 222, rfl⟩
abbrev main_v59 : Ref sig .tc := ⟨.hbm, 223, rfl⟩
abbrev main_v60 : Ref sig .tc := ⟨.hbm, 224, rfl⟩
abbrev main_v61 : Ref sig .tc := ⟨.hbm, 225, rfl⟩
abbrev main_call14_cst : Ref sig .tc := ⟨.hbm, 226, rfl⟩
abbrev main_call14_v0 : Ref sig .tc := ⟨.hbm, 227, rfl⟩
abbrev main_v62 : Ref sig .tc := ⟨.hbm, 228, rfl⟩
abbrev main_call15_c : Ref sig .tc := ⟨.hbm, 229, rfl⟩
abbrev main_call15_v0 : Ref sig .tc := ⟨.hbm, 230, rfl⟩
abbrev main_call15_v1 : Ref sig .tc := ⟨.hbm, 231, rfl⟩
abbrev main_call15_c_0 : Ref sig .tc := ⟨.hbm, 232, rfl⟩
abbrev main_call15_v2 : Ref sig .tc := ⟨.hbm, 233, rfl⟩
abbrev main_call15_v3 : Ref sig .tc := ⟨.hbm, 234, rfl⟩
abbrev main_call15_v4 : Ref sig .tc := ⟨.hbm, 235, rfl⟩
abbrev main_call15_v5 : Ref sig .tc := ⟨.hbm, 236, rfl⟩
abbrev main_call15_c_1 : Ref sig .tc := ⟨.hbm, 237, rfl⟩
abbrev main_call15_c_2 : Ref sig .tc := ⟨.hbm, 238, rfl⟩
abbrev main_call15_v6 : Ref sig .tc := ⟨.hbm, 239, rfl⟩
abbrev main_call15_v7 : Ref sig .tc := ⟨.hbm, 240, rfl⟩
abbrev main_call15_v8 : Ref sig .tc := ⟨.hbm, 241, rfl⟩
abbrev main_call15_v9 : Ref sig .tc := ⟨.hbm, 242, rfl⟩
abbrev main_call15_v10 : Ref sig .tc := ⟨.hbm, 243, rfl⟩
abbrev main_call15_v11 : Ref sig .tc := ⟨.hbm, 244, rfl⟩
abbrev main_call15_c_3 : Ref sig .tc := ⟨.hbm, 245, rfl⟩
abbrev main_call15_v12 : Ref sig .tc := ⟨.hbm, 246, rfl⟩
abbrev main_call15_v13 : Ref sig .tc := ⟨.hbm, 247, rfl⟩
abbrev main_call15_v14 : Ref sig .tc := ⟨.hbm, 248, rfl⟩
abbrev main_call15_cst : Ref sig .tc := ⟨.hbm, 249, rfl⟩
abbrev main_call15_v15 : Ref sig .tc := ⟨.hbm, 250, rfl⟩
abbrev main_v63 : Ref sig .tc := ⟨.hbm, 251, rfl⟩
abbrev main_cst_19 : Ref sig .tc := ⟨.hbm, 252, rfl⟩
abbrev main_v64 : Ref sig .tc := ⟨.hbm, 253, rfl⟩
abbrev main_v65 : Ref sig .tc := ⟨.hbm, 254, rfl⟩
abbrev main_v66 : Ref sig .tc := ⟨.hbm, 255, rfl⟩
abbrev main_cst_20 : Ref sig .tc := ⟨.hbm, 256, rfl⟩
abbrev main_v67 : Ref sig .tc := ⟨.hbm, 257, rfl⟩
abbrev main_cst_21 : Ref sig .tc := ⟨.hbm, 258, rfl⟩
abbrev main_v68 : Ref sig .tc := ⟨.hbm, 259, rfl⟩
abbrev main_v69 : Ref sig .tc := ⟨.hbm, 260, rfl⟩
abbrev main_v70 : Ref sig .tc := ⟨.hbm, 261, rfl⟩
abbrev main_cst_22 : Ref sig .tc := ⟨.hbm, 262, rfl⟩
abbrev main_call16_v0 : Ref sig .tc := ⟨.hbm, 263, rfl⟩
abbrev main_call16_v1 : Ref sig .tc := ⟨.hbm, 264, rfl⟩
abbrev main_v71 : Ref sig .tc := ⟨.hbm, 265, rfl⟩
abbrev main_v72 : Ref sig .tc := ⟨.hbm, 266, rfl⟩
abbrev main_v73 : Ref sig .tc := ⟨.hbm, 267, rfl⟩
abbrev main_v74 : Ref sig .tc := ⟨.hbm, 268, rfl⟩
abbrev main_v75 : Ref sig .tc := ⟨.hbm, 269, rfl⟩
abbrev main_v76 : Ref sig .tc := ⟨.hbm, 270, rfl⟩
abbrev main_v77 : Ref sig .tc := ⟨.hbm, 271, rfl⟩
abbrev main_v78 : Ref sig .tc := ⟨.hbm, 272, rfl⟩
abbrev main_v79 : Ref sig .tc := ⟨.hbm, 273, rfl⟩
abbrev main_v80 : Ref sig .tc := ⟨.hbm, 274, rfl⟩

abbrev nD : Nat := 1
abbrev τ : Topo := Topo.v7x

variable {F : FTy → Type} [FloatOps F]

class Facts₀ : Prop where
  bcast_S_S1536x1536 : S_.BroadcastsInDim S1536x1536 (![] : Fin 0 → Fin S1536x1536.rank)
  shapeCasts_S1536x1536_S2359296 : S1536x1536.ShapeCasts S2359296
  natLt_1_32 : 1 < 32
  bcast_S_S_ : S_.BroadcastsInDim S_ (![] : Fin 0 → Fin S_.rank)
  reduceWindows_S2359296_S2359296_w2359296s1p2359295_0 : S2359296.ReduceWindows (![2359296] : Fin 1 → Nat) ![1] ![2359295] ![0] S2359296
  h_S_ : 0 < S_.numel
  bcast_S_S2359296 : S_.BroadcastsInDim S2359296 (![] : Fin 0 → Fin S2359296.rank)
  bcast_S2359296_S2359296x1_0 : S2359296.BroadcastsInDim S2359296x1 (![0] : Fin 1 → Fin S2359296x1.rank)
  reducesTo_S1536x1536_S_d0_1 : S1536x1536.ReducesTo [0, 1] S_
  bcast_S_S2359296x1 : S_.BroadcastsInDim S2359296x1 (![] : Fin 0 → Fin S2359296x1.rank)
  bcast_S1_S1x1_1 : S1.BroadcastsInDim S1x1 (![1] : Fin 1 → Fin S1x1.rank)
  bcast_S1x1_S2359296x1_0_1 : S1x1.BroadcastsInDim S2359296x1 (![0, 1] : Fin 2 → Fin S2359296x1.rank)
  reducesTo_S2359296x1_S2359296_d1 : S2359296x1.ReducesTo [1] S2359296
  bcast_S2359296_S2359296x64_0 : S2359296.BroadcastsInDim S2359296x64 (![0] : Fin 1 → Fin S2359296x64.rank)
  bcast_S_S2359296x64 : S_.BroadcastsInDim S2359296x64 (![] : Fin 0 → Fin S2359296x64.rank)
  bcast_S_S1536x64 : S_.BroadcastsInDim S1536x64 (![] : Fin 0 → Fin S1536x64.rank)
  bcast_S_S1536 : S_.BroadcastsInDim S1536 (![] : Fin 0 → Fin S1536.rank)
  bcast_S1536_S1536x1_0 : S1536.BroadcastsInDim S1536x1 (![0] : Fin 1 → Fin S1536x1.rank)
  bcast_S1536x1_S1536x64_0_1 : S1536x1.BroadcastsInDim S1536x64 (![0, 1] : Fin 2 → Fin S1536x64.rank)
  bcast_S64_S1x64_1 : S64.BroadcastsInDim S1x64 (![1] : Fin 1 → Fin S1x64.rank)
  bcast_S1x64_S1536x64_0_1 : S1x64.BroadcastsInDim S1536x64 (![0, 1] : Fin 2 → Fin S1536x64.rank)
  scatter_S2359296_S2359296x1_S2359296_n_0_0_1_wf : ScatterDims.WF S2359296 S2359296x1 S2359296 [] [0] [0] 1
  gather_S1536x64_S2359296x1_S2359296x64_1_0_n_n_0_1_164_wf : GatherDims.WF S1536x64 S2359296x1 S2359296x64 [1] [0] [] [0] [] 1 ![1, 64]
  scatter_S1536x64_S2359296x1_S2359296x64_1_0_0_1_wf : ScatterDims.WF S1536x64 S2359296x1 S2359296x64 [1] [0] [0] 1
  scatter_S1536_S2359296x1_S2359296_n_0_0_1_wf : ScatterDims.WF S1536 S2359296x1 S2359296 [] [0] [0] 1
  dot_S1536x64_S64x64_S1536x64_1_0_0_1_n_n_wf : DotDims.WF S1536x64 S64x64 S1536x64 [1] [0] [0] [1] [] []

variable [Facts₀]

def scatter_S2359296_S2359296x1_S2359296_n_0_0_1 : ScatterDims S2359296 S2359296x1 S2359296 where
  updateWindowDims := []
  insertedWindowDims := [0]
  scatterDimsToOperandDims := [0]
  indexVectorDim := 1
  wf := scatter_S2359296_S2359296x1_S2359296_n_0_0_1_wf
def gather_S1536x64_S2359296x1_S2359296x64_1_0_n_n_0_1_164 : GatherDims S1536x64 S2359296x1 S2359296x64 where
  offsetDims := [1]
  collapsedSliceDims := [0]
  operandBatchingDims := []
  startIndicesBatchingDims := []
  startIndexMap := [0]
  indexVectorDim := 1
  sliceSizes := ![1, 64]
  wf := gather_S1536x64_S2359296x1_S2359296x64_1_0_n_n_0_1_164_wf
def scatter_S1536x64_S2359296x1_S2359296x64_1_0_0_1 : ScatterDims S1536x64 S2359296x1 S2359296x64 where
  updateWindowDims := [1]
  insertedWindowDims := [0]
  scatterDimsToOperandDims := [0]
  indexVectorDim := 1
  wf := scatter_S1536x64_S2359296x1_S2359296x64_1_0_0_1_wf
def scatter_S1536_S2359296x1_S2359296_n_0_0_1 : ScatterDims S1536 S2359296x1 S2359296 where
  updateWindowDims := []
  insertedWindowDims := [0]
  scatterDimsToOperandDims := [0]
  indexVectorDim := 1
  wf := scatter_S1536_S2359296x1_S2359296_n_0_0_1_wf
def dot_S1536x64_S64x64_S1536x64_1_0_0_1_n_n : DotDims S1536x64 S64x64 S1536x64 where
  lhsContracting := [1]
  rhsContracting := [0]
  lhsNonContracting := [0]
  rhsNonContracting := [1]
  lhsBatch := []
  rhsBatch := []
  wf := dot_S1536x64_S64x64_S1536x64_1_0_0_1_n_n_wf

class Facts : Prop extends Facts₀ where

variable [Facts]
-- ==== Proof.Spec.lean ====
/-
  The mathematics of the claim, free of any program: three GraphSAGE layers (mean aggregation, root weight) over a
  graph of 1536 nodes with 64 features, written twice over the extended reals.

  * The DENSE form reads the adjacency matrix's VALUES: the aggregate of node `i` is `∑ j, h j · adj j i`, its
    in-degree `∑ j, adj j i`, and the mean is the aggregate TIMES the reciprocal `1 / max(deg, 1)`.
  * The EDGE form reads only WHERE the matrix is nonzero: the aggregate is the sum of `h j` over the `j` with
    `adj j i ≠ 0`, the in-degree the number of such `j`, and the mean is the aggregate DIVIDED by `max(1, deg)`.

  On a matrix of zeros and ones the two agree: `x · 1 = x`, `x · 0 = 0` for every extended real `x`, the count of
  nonzero entries of a 0/1 column is its sum, and a quotient by a nonzero real is the product with its reciprocal.
-/
import Idealize.ShloMosaic.PureOps.Ideal
import Idealize.ShloMosaic.Lib.ValueIdx

noncomputable section

namespace Cert.Sage

open Idealize.ShloMosaic Idealize.ShloMosaic.ValueIdx

/-- A matrix of extended reals by row and column. -/
abbrev Mat (r c : ℕ) : Type := Fin r → Fin c → EReal

/-- A rank-2 array read as a matrix. -/
def mat {r c : ℕ} (v : (⟨2, ![r, c]⟩ : Shape).Idx → EReal) : Mat r c := fun i j => v (ix2 i j)

/-- A rank-1 array read by its coordinate. -/
def vec {n : ℕ} (v : (⟨1, ![n]⟩ : Shape).Idx → EReal) : Fin n → EReal := fun i => v (ix1 i)

/-- The one row of a 1 × n array, by its column. -/
def row {n : ℕ} (v : (⟨2, ![1, n]⟩ : Shape).Idx → EReal) : Fin n → EReal := fun o => v (ix2 0 o)

/-- A matrix as a rank-2 array. -/
def ofMat {r c : ℕ} (M : Mat r c) : (⟨2, ![r, c]⟩ : Shape).Idx → EReal := fun j => M (j 0) (j 1)

theorem ofMat_ix2 {r c : ℕ} (M : Mat r c) (a : Fin r) (b : Fin c) : ofMat M (ix2 a b) = M a b := rfl

theorem mat_ofMat {r c : ℕ} (M : Mat r c) : mat (ofMat M) = M := rfl

/-- The rectified linear unit, entry by entry. -/
def relu (h : Mat 1536 64) : Mat 1536 64 := fun i o => max (h i o) 0

/-! ## The dense form -/

/-- In-degree of node `i` as the sum of column `i`. -/
def degK (adj : Mat 1536 1536) (i : Fin 1536) : EReal := ∑ j, adj j i

/-- Feature `k` of node `i`'s aggregate as a matrix product with the adjacency's values. -/
def aggK (adj : Mat 1536 1536) (h : Mat 1536 64) (i : Fin 1536) (k : Fin 64) : EReal := ∑ j, h j k * adj j i

/-- One layer, dense: `(W_lᵀ · (agg · 1/max(deg,1)) + W_rᵀ · h) + b`. -/
def layerK (adj : Mat 1536 1536) (h : Mat 1536 64) (Wl : Mat 64 64) (b : Fin 64 → EReal) (Wr : Mat 64 64) : Mat 1536 64 :=
  fun i o => ((∑ k, Wl k o * (aggK adj h i k * Ideal.div 1 (max (degK adj i) 1))) + ∑ k, Wr k o * h i k) + b o

/-- The three layers, dense. -/
def outK (adj : Mat 1536 1536) (x : Mat 1536 64) (Wl0 : Mat 64 64) (b0 : Fin 64 → EReal) (Wr0 : Mat 64 64)
    (Wl1 : Mat 64 64) (b1 : Fin 64 → EReal) (Wr1 : Mat 64 64) (Wl2 : Mat 64 64) (b2 : Fin 64 → EReal) (Wr2 : Mat 64 64) :
    Mat 1536 64 :=
  layerK adj (relu (layerK adj (relu (layerK adj x Wl0 b0 Wr0)) Wl1 b1 Wr1)) Wl2 b2 Wr2

/-! ## The edge form -/

/-- In-degree of node `i` as the number of nonzero entries of column `i`. -/
def degR (adj : Mat 1536 1536) (i : Fin 1536) : EReal := ∑ j, if adj j i ≠ 0 then 1 else 0

/-- Feature `k` of node `i`'s aggregate as the sum over the sources of its edges. -/
def aggR (adj : Mat 1536 1536) (h : Mat 1536 64) (i : Fin 1536) (k : Fin 64) : EReal := ∑ j, if adj j i ≠ 0 then h j k else 0

/-- One layer, by edges: `((agg / max(1,deg)) · W_l + b) + h · W_r`. -/
def layerR (adj : Mat 1536 1536) (h : Mat 1536 64) (Wl : Mat 64 64) (b : Fin 64 → EReal) (Wr : Mat 64 64) : Mat 1536 64 :=
  fun i o => ((∑ k, Ideal.div (aggR adj h i k) (max 1 (degR adj i)) * Wl k o) + b o) + ∑ k, h i k * Wr k o

/-- The three layers, by edges. -/
def outR (adj : Mat 1536 1536) (x : Mat 1536 64) (Wl0 : Mat 64 64) (b0 : Fin 64 → EReal) (Wr0 : Mat 64 64)
    (Wl1 : Mat 64 64) (b1 : Fin 64 → EReal) (Wr1 : Mat 64 64) (Wl2 : Mat 64 64) (b2 : Fin 64 → EReal) (Wr2 : Mat 64 64) :
    Mat 1536 64 :=
  layerR adj (relu (layerR adj (relu (layerR adj x Wl0 b0 Wr0)) Wl1 b1 Wr1)) Wl2 b2 Wr2

end Cert.Sage

end
-- ==== Proof.KPayload.lean ====
/-
  The kernel body's one store, as a function of the blocks it loads, is the dense form of the three layers.

  The body carries the features transposed (feature by node). Each printed layer is, entry by entry, the dense layer:
  a product with a weight matrix or with the adjacency is a finite sum over the contracted coordinate, the column sum
  of the adjacency is the in-degree, a change of float format is the identity on the extended reals, and the bias row
  is repeated over the nodes. The three layers then compose, and the last transpose returns node by feature.
-/
import proofs.«135375_g42752104464586_cont_sun_m_355_15_alg».proof.Proof.Gen.KernelIdeal.Frame
import proofs.«135375_g42752104464586_cont_sun_m_355_15_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KPay

open Cert.KernelIdeal Cert.KernelIdeal.Gen Idealize.ShloMosaic Idealize.ShloMosaic.ValueIdx Cert.Sage

/-! ## Constants -/

theorem one_f32 : Ideal.ofBits .f32 0x3F800000#32 = 1 := by
  simp [Ideal.ofBits, Ideal.ieee, -EReal.coe_mul]; norm_num

/-! ## The two contractions read at an index -/

theorem lhs_adj_0 (j : S64x1536.Idx) (k : dot_S64x1536_S1536x1536_S64x1536_1_0_0_1_n_n.contr.Idx) :
    (dot_S64x1536_S1536x1536_S64x1536_1_0_0_1_n_n.lhsIdx j k 0).val = (j 0).val := rfl
theorem lhs_adj_1 (j : S64x1536.Idx) (k : dot_S64x1536_S1536x1536_S64x1536_1_0_0_1_n_n.contr.Idx) :
    (dot_S64x1536_S1536x1536_S64x1536_1_0_0_1_n_n.lhsIdx j k 1).val = (k ⟨0, by decide⟩).val :=
  DotDims.lhsIdx_val_of_single _ rfl j k
theorem rhs_adj_0 (j : S64x1536.Idx) (k : dot_S64x1536_S1536x1536_S64x1536_1_0_0_1_n_n.contr.Idx) :
    (dot_S64x1536_S1536x1536_S64x1536_1_0_0_1_n_n.rhsIdx j k 0).val = (k ⟨0, by decide⟩).val :=
  DotDims.rhsIdx_val_of_single _ rfl j k
theorem rhs_adj_1 (j : S64x1536.Idx) (k : dot_S64x1536_S1536x1536_S64x1536_1_0_0_1_n_n.contr.Idx) :
    (dot_S64x1536_S1536x1536_S64x1536_1_0_0_1_n_n.rhsIdx j k 1).val = (j 1).val := rfl

/-- The product with the adjacency: entry (o, i) sums the left operand's row o against the adjacency's column i. -/
theorem matmul_adj_apply (a : FVec Ideal S64x1536 .bf16) (b : FVec Ideal S1536x1536 .bf16) (o : Fin 64) (i : Fin 1536) :
    matmul dot_S64x1536_S1536x1536_S64x1536_1_0_0_1_n_n none a b (constant (F := Ideal) S64x1536 .f32 0x00000000#32) (ix2 o i)
      = ∑ j : Fin 1536, a (ix2 o j) * b (ix2 j i) := by
  refine (Ideal.matmul_constant_zero_apply dot_S64x1536_S1536x1536_S64x1536_1_0_0_1_n_n none a b (ix2 o i)).trans ?_
  refine (Equiv.sum_comp (contrEquiv1 dot_S64x1536_S1536x1536_S64x1536_1_0_0_1_n_n 1536 rfl rfl).symm _).symm.trans ?_
  refine Finset.sum_congr rfl fun k _ => ?_
  have hk := contrEquiv1_symm_val dot_S64x1536_S1536x1536_S64x1536_1_0_0_1_n_n 1536 rfl rfl k
  congr 1
  · refine congrArg a (funext fun ax => Fin.ext ?_)
    match ax with
    | ⟨0, _⟩ => exact lhs_adj_0 _ _
    | ⟨1, _⟩ => exact (lhs_adj_1 _ _).trans hk
  · refine congrArg b (funext fun ax => Fin.ext ?_)
    match ax with
    | ⟨0, _⟩ => exact (rhs_adj_0 _ _).trans hk
    | ⟨1, _⟩ => exact rhs_adj_1 _ _

theorem lhs_w_0 (j : S64x1536.Idx) (k : dot_S64x64_S64x1536_S64x1536_1_0_0_1_n_n.contr.Idx) :
    (dot_S64x64_S64x1536_S64x1536_1_0_0_1_n_n.lhsIdx j k 0).val = (j 0).val := rfl
theorem lhs_w_1 (j : S64x1536.Idx) (k : dot_S64x64_S64x1536_S64x1536_1_0_0_1_n_n.contr.Idx) :
    (dot_S64x64_S64x1536_S64x1536_1_0_0_1_n_n.lhsIdx j k 1).val = (k ⟨0, by decide⟩).val :=
  DotDims.lhsIdx_val_of_single _ rfl j k
theorem rhs_w_0 (j : S64x1536.Idx) (k : dot_S64x64_S64x1536_S64x1536_1_0_0_1_n_n.contr.Idx) :
    (dot_S64x64_S64x1536_S64x1536_1_0_0_1_n_n.rhsIdx j k 0).val = (k ⟨0, by decide⟩).val :=
  DotDims.rhsIdx_val_of_single _ rfl j k
theorem rhs_w_1 (j : S64x1536.Idx) (k : dot_S64x64_S64x1536_S64x1536_1_0_0_1_n_n.contr.Idx) :
    (dot_S64x64_S64x1536_S64x1536_1_0_0_1_n_n.rhsIdx j k 1).val = (j 1).val := rfl

/-- The product with a weight matrix: entry (o, i) sums the weight's row o against the right operand's column i. -/
theorem matmul_w_apply (a : FVec Ideal S64x64 .f32) (b : FVec Ideal S64x1536 .f32) (o : Fin 64) (i : Fin 1536) :
    matmul dot_S64x64_S64x1536_S64x1536_1_0_0_1_n_n none a b (constant (F := Ideal) S64x1536 .f32 0x00000000#32) (ix2 o i)
      = ∑ k : Fin 64, a (ix2 o k) * b (ix2 k i) := by
  refine (Ideal.matmul_constant_zero_apply dot_S64x64_S64x1536_S64x1536_1_0_0_1_n_n none a b (ix2 o i)).trans ?_
  refine (Equiv.sum_comp (contrEquiv1 dot_S64x64_S64x1536_S64x1536_1_0_0_1_n_n 64 rfl rfl).symm _).symm.trans ?_
  refine Finset.sum_congr rfl fun k _ => ?_
  have hk := contrEquiv1_symm_val dot_S64x64_S64x1536_S64x1536_1_0_0_1_n_n 64 rfl rfl k
  congr 1
  · refine congrArg a (funext fun ax => Fin.ext ?_)
    match ax with
    | ⟨0, _⟩ => exact lhs_w_0 _ _
    | ⟨1, _⟩ => exact (lhs_w_1 _ _).trans hk
  · refine congrArg b (funext fun ax => Fin.ext ?_)
    match ax with
    | ⟨0, _⟩ => exact (rhs_w_0 _ _).trans hk
    | ⟨1, _⟩ => exact rhs_w_1 _ _

/-! ## Layout operations at an index -/

/-- A column broadcast along the rows' direction reads its one column everywhere. -/
theorem broadcastTo_col_apply (v : FVec Ideal S64x1 .f32) (h : S64x1.Broadcasts S64x1536) (o : Fin 64) (i : Fin 1536) :
    broadcastTo S64x1536 v h (ix2 o i) = v (ix2 o (0 : Fin 1)) := by
  refine broadcastTo_apply v h (ix2 o i) (ix2 o (0 : Fin 1)) fun ax => ?_
  match ax with
  | ⟨0, _⟩ => rfl
  | ⟨1, _⟩ => rfl

/-- The sum over the first axis of a square array, at column i. -/
theorem colsum_apply (x : FVec Ideal S1536x1536 .f32) (i : Fin 1536) :
    multiReduction (F := Ideal) .add [0] S1536 x 0x00000000#32 reduces_S1536x1536_S1536 (.inl rfl) rfl (ix1 i)
      = ∑ j : Fin 1536, x (ix2 j i) := by
  refine (Ideal.multiReduction_add_single x 0x00000000#32 reduces_S1536x1536_S1536 (.inl rfl) rfl (ix1 i)).trans ?_
  show ∑ j : Fin 1536, x (reduces_S1536x1536_S1536.lift (ix1 i) j) = _
  refine Finset.sum_congr rfl fun j _ => congrArg x (funext fun ax => Fin.ext ?_)
  match ax with
  | ⟨0, _⟩ => rfl
  | ⟨1, _⟩ => rfl

/-! ## The printed operations, once -/

/-- The reciprocal of the clamped in-degree, as a row. -/
def dinvT (adj : FVec Ideal S1536x1536 .bf16) : FVec Ideal S1x1536 .f32 :=
  divf (broadcast S1x1536 (Scalar.ofBits .f32 0x3F800000#32))
    (maximumf
      (shapeCast S1x1536 (multiReduction (F := Ideal) .add [0] S1536 (extf .f32 adj bitsLt_bf16_f32) 0x00000000#32
        reduces_S1536x1536_S1536 (.inl rfl) rfl) shapeCasts_S1536_S1x1536)
      (broadcast S1x1536 (Scalar.ofBits .f32 0x3F800000#32)))

/-- The left linear map of a layer on transposed features: the left weight, transposed, times the mean aggregate. -/
def linL (adj : FVec Ideal S1536x1536 .bf16) (dinv : FVec Ideal S1x1536 .f32) (g : FVec Ideal S64x1536 .f32)
    (Wl : FVec Ideal S64x64 .f32) : FVec Ideal S64x1536 .f32 :=
  matmul dot_S64x64_S64x1536_S64x1536_1_0_0_1_n_n none (transpose S64x64 [1, 0] Wl transposes_S64x64_p1_0_S64x64)
    (mulf
      (matmul dot_S64x1536_S1536x1536_S64x1536_1_0_0_1_n_n none (truncf .bf16 g bitsLt_bf16_f32) adj
        (constant S64x1536 .f32 0x00000000#32))
      (broadcastTo S64x1536 dinv broadcasts_S1x1536_S64x1536))
    (constant S64x1536 .f32 0x00000000#32)

/-- The right linear map of a layer on transposed features. -/
def linR (g : FVec Ideal S64x1536 .f32) (Wr : FVec Ideal S64x64 .f32) : FVec Ideal S64x1536 .f32 :=
  matmul dot_S64x64_S64x1536_S64x1536_1_0_0_1_n_n none (transpose S64x64 [1, 0] Wr transposes_S64x64_p1_0_S64x64) g
    (constant S64x1536 .f32 0x00000000#32)

/-- The bias row as a column repeated over the nodes. -/
def biasT (b : FVec Ideal S1x64 .f32) : FVec Ideal S64x1536 .f32 :=
  broadcastTo S64x1536 (transpose S64x1 [1, 0] (shapeCast S1x64 b shapeCasts_S1x64_S1x64) transposes_S1x64_p1_0_S64x1)
    broadcasts_S64x1_S64x1536

/-- The rectifier on transposed features. -/
def reluT (h : FVec Ideal S64x1536 .f32) : FVec Ideal S64x1536 .f32 :=
  maximumf h (broadcast S64x1536 (Scalar.ofBits .f32 0x00000000#32))

/-- One layer on transposed features, from its two linear maps. -/
def sumT (l r : FVec Ideal S64x1536 .f32) (b : FVec Ideal S1x64 .f32) : FVec Ideal S64x1536 .f32 :=
  addf (addf l r) (biasT b)

theorem pay2_eq (x0 : Vec Ideal S1536x1536 .bf16) : k0_pay2 (F := Ideal) x0 = x0 := by
  unfold k0_pay2; exact shapeCast_self _ _

theorem pay3_eq (x0 : Vec Ideal S1536x1536 .bf16) : k0_pay3 (F := Ideal) x0 = dinvT x0 := by
  unfold k0_pay3; rw [pay2_eq]; rfl

theorem pay4_eq (x0 : Vec Ideal S1536x1536 .bf16) (x1 : Vec Ideal S1536x64 .f32) (Wl Wr : Vec Ideal S64x64 .f32) (b : Vec Ideal S1x64 .f32) :
    k0_pay4 (F := Ideal) x0 x1 Wl Wr b
      = reluT (sumT (linL x0 (dinvT x0) (transpose S64x1536 [1, 0] x1 transposes_S1536x64_p1_0_S64x1536) Wl)
          (linR (transpose S64x1536 [1, 0] x1 transposes_S1536x64_p1_0_S64x1536) Wr) b) := by
  unfold k0_pay4; rw [pay2_eq, pay3_eq]; rfl

theorem pay5_eq (x0 : Vec Ideal S1536x1536 .bf16) (x1 : Vec Ideal S1536x64 .f32) (Wl Wr : Vec Ideal S64x64 .f32) (b : Vec Ideal S1x64 .f32)
    (Wl1 : Vec Ideal S64x64 .f32) :
    k0_pay5 (F := Ideal) x0 x1 Wl Wr b Wl1 = linL x0 (dinvT x0) (k0_pay4 (F := Ideal) x0 x1 Wl Wr b) Wl1 := by
  unfold k0_pay5; rw [pay2_eq, pay3_eq]; rfl

theorem pay1_eq (adj : FVec Ideal S1536x1536 .bf16) (dinv : FVec Ideal S1x1536 .f32) (g1 l1 : FVec Ideal S64x1536 .f32)
    (Wr1 : Vec Ideal S64x64 .f32) (b1 : Vec Ideal S1x64 .f32) (Wl2 Wr2 : Vec Ideal S64x64 .f32) (b2 : Vec Ideal S1x64 .f32) :
    k0_pay1 (F := Ideal) adj dinv g1 l1 Wr1 b1 Wl2 Wr2 b2
      = transpose S1536x64 [1, 0]
          (sumT (linL adj dinv (reluT (sumT l1 (linR g1 Wr1) b1)) Wl2) (linR (reluT (sumT l1 (linR g1 Wr1) b1)) Wr2) b2)
          transposes_S64x1536_p1_0_S1536x64 := by
  unfold k0_pay1; rfl

/-! ## The printed operations at an index -/

theorem dinvT_apply (adj : FVec Ideal S1536x1536 .bf16) (u : Fin 1) (i : Fin 1536) :
    dinvT adj (ix2 u i) = Ideal.div 1 (max (degK (mat adj) i) 1) := by
  unfold dinvT
  show Ideal.div (Ideal.ofBits .f32 0x3F800000#32)
      (max (shapeCast S1x1536 _ shapeCasts_S1536_S1x1536 (ix2 u i)) (Ideal.ofBits .f32 0x3F800000#32)) = _
  rw [one_f32, shapeCast_a_1a_apply, colsum_apply]
  rfl

theorem linR_apply (g : FVec Ideal S64x1536 .f32) (Wr : FVec Ideal S64x64 .f32) (o : Fin 64) (i : Fin 1536) :
    linR g Wr (ix2 o i) = ∑ k : Fin 64, mat Wr k o * g (ix2 k i) := by
  unfold linR
  refine (matmul_w_apply _ _ o i).trans ?_
  refine Finset.sum_congr rfl fun k _ => ?_
  rw [transpose_ix2_apply]; rfl

theorem linL_apply (adj : FVec Ideal S1536x1536 .bf16) (dinv : FVec Ideal S1x1536 .f32) (g : FVec Ideal S64x1536 .f32)
    (Wl : FVec Ideal S64x64 .f32) (o : Fin 64) (i : Fin 1536) :
    linL adj dinv g Wl (ix2 o i)
      = ∑ k : Fin 64, mat Wl k o * ((∑ j : Fin 1536, g (ix2 k j) * adj (ix2 j i)) * dinv (ix2 (0 : Fin 1) i)) := by
  unfold linL
  refine (matmul_w_apply _ _ o i).trans ?_
  refine Finset.sum_congr rfl fun k _ => ?_
  rw [transpose_ix2_apply, mulf_apply, matmul_adj_apply, broadcastTo_1b_ab_apply]; rfl

theorem biasT_apply (b : FVec Ideal S1x64 .f32) (o : Fin 64) (i : Fin 1536) : biasT b (ix2 o i) = row b o := by
  unfold biasT
  rw [broadcastTo_col_apply, transpose_ix2_apply, shapeCast_self]; rfl

/-! ## Transposed features as matrices -/

/-- A node-by-feature matrix carried feature-by-node. -/
def toT (h : Mat 1536 64) : FVec Ideal S64x1536 .f32 := fun j => h (j 1) (j 0)

theorem toT_ix2 (h : Mat 1536 64) (k : Fin 64) (i : Fin 1536) : toT h (ix2 k i) = h i k := rfl

theorem transpose_eq_toT (x1 : FVec Ideal S1536x64 .f32) :
    transpose S64x1536 [1, 0] x1 transposes_S1536x64_p1_0_S64x1536 = toT (mat x1) := by
  funext j
  obtain ⟨k, i, rfl⟩ : ∃ (k : Fin 64) (i : Fin 1536), j = ix2 k i := ⟨j 0, j 1, eq_ix2 j⟩
  rw [transpose_ix2_apply]; rfl

theorem reluT_toT (h : Mat 1536 64) : reluT (toT h) = toT (relu h) := by
  funext j
  obtain ⟨k, i, rfl⟩ : ∃ (k : Fin 64) (i : Fin 1536), j = ix2 k i := ⟨j 0, j 1, eq_ix2 j⟩
  unfold reluT
  show max (toT h (ix2 k i)) (Ideal.ofBits .f32 0x00000000#32) = _
  rw [Ideal.ofBits_zero_f32]; rfl

/-- One printed layer on transposed features is the dense layer. -/
theorem layerT_eq (adj : FVec Ideal S1536x1536 .bf16) (h : Mat 1536 64) (Wl Wr : FVec Ideal S64x64 .f32) (b : FVec Ideal S1x64 .f32) :
    sumT (linL adj (dinvT adj) (toT h) Wl) (linR (toT h) Wr) b = toT (layerK (mat adj) h (mat Wl) (row b) (mat Wr)) := by
  funext j
  obtain ⟨o, i, rfl⟩ : ∃ (o : Fin 64) (i : Fin 1536), j = ix2 o i := ⟨j 0, j 1, eq_ix2 j⟩
  unfold sumT
  rw [addf_apply, addf_apply, linL_apply, linR_apply, biasT_apply, dinvT_apply]
  rfl

/-! ## The store -/

/-- The offsets of every rectangle of the body are zero. -/
theorem offsets_zero : (![0, 0] : Fin 2 → Nat) = fun _ => 0 :=
  funext fun a => by match a with | ⟨0, _⟩ => rfl | ⟨1, _⟩ => rfl

theorem out_eq (x0 : Vec Ideal S1536x1536 .bf16) (x1 : Vec Ideal S1536x64 .f32) (x2 : Vec Ideal S64x64 .f32) (x3 : Vec Ideal S1x64 .f32)
    (x4 : Vec Ideal S64x64 .f32) (x5 : Vec Ideal S64x64 .f32) (x6 : Vec Ideal S1x64 .f32) (x7 : Vec Ideal S64x64 .f32)
    (x8 : Vec Ideal S64x64 .f32) (x9 : Vec Ideal S1x64 .f32) (x10 : Vec Ideal S64x64 .f32) :
    Gen.out0_11 (F := Ideal) x0 x1 x2 x3 x4 x5 x6 x7 x8 x9 x10
      = ofMat (outK (mat x0) (mat x1) (mat x2) (row x3) (mat x4) (mat x5) (row x6) (mat x7) (mat x8) (row x9) (mat x10)) := by
  unfold Gen.out0_11
  rw [View.canon_unit_zero offsets_zero]
  simp only [View.ld_unit_zero (S := S1536x1536) offsets_zero, View.ld_unit_zero (S := S1536x64) offsets_zero,
    View.ld_unit_zero (S := S64x64) offsets_zero, View.ld_unit_zero (S := S1x64) offsets_zero]
  rw [pay1_eq, pay5_eq, pay4_eq, pay3_eq, pay2_eq]
  rw [transpose_eq_toT x1, layerT_eq x0 (mat x1) x2 x4 x3, reluT_toT, layerT_eq x0 _ x5 x7 x6, reluT_toT,
    layerT_eq x0 _ x8 x10 x9]
  funext j
  obtain ⟨i, o, rfl⟩ : ∃ (i : Fin 1536) (o : Fin 64), j = ix2 i o := ⟨j 0, j 1, eq_ix2 j⟩
  rw [transpose_ix2_apply]; rfl

end Cert.KernelIdeal.KPay

end
-- ==== Proof.KernelValue.lean ====
/-
  The kernel program's run: its result array ends at the dense form of the three layers of its argument arrays, and
  the arguments end unchanged.
-/
import proofs.«135375_g42752104464586_cont_sun_m_355_15_alg».proof.Proof.KPayload
import proofs.«135375_g42752104464586_cont_sun_m_355_15_alg».proof.Proof.Gen.KernelIdeal.Value
import Idealize.ShloMosaic.Lib.StableHlo.Run
import Idealize.ShloMosaic.Lib.ValueIdx
import Idealize.ShloMosaic.Lib.Pipeline.Value

noncomputable section

namespace Cert.KernelIdeal.KVal

open Cert.KernelIdeal Cert.KernelIdeal.Gen Idealize.ShloMosaic Idealize.ShloMosaic.TcCoe Idealize.SL.Sem Idealize.ShloMosaic.ValueIdx Cert.Sage
open Idealize.ShloMosaic.Pipeline (Dat)

section
variable (m : (ℓ : Loc nD τ sig) → Buf (Elt Ideal) ℓ) (ρ : Dev nD → PrngReg)

/-! ## The host-written arrays as the region finds them -/

/-- The adjacency array after the host's change of format: over the extended reals a change of format is the identity,
    so the array the region reads is the argument's. -/
theorem V_adj (c : Dev nD) : @Eq (S1536x1536.Idx → EReal) (V m c main_v0) (m ((c : Thread nD τ).loc main_arg1)) := by
  have e : @Eq (S1536x1536.Idx → EReal) (V m c main_v0)
      (truncf (F := Ideal) (s := S1536x1536) (φ := .f32) .bf16 (m ((c : Thread nD τ).loc main_arg1)) bitsLt_bf16_f32) := by
    dsimp only [Gen.V, Gen.hostOps0]; after_results
  rw [e]; rfl

/-- A bias vector of 64 entries reshaped to one row of 64: entry `o` of the row is entry `o` of the vector (both
    sit at row-major position `o`). -/
theorem row_shapeCast (b : S64.Idx → EReal) (h : S64.ShapeCasts S1x64) : row (shapeCast S1x64 b h) = vec b := by
  funext o
  show shapeCast S1x64 b h (ix2 0 o) = b (ix1 o)
  refine shapeCast_apply b h (ix2 0 o) (ix1 o) ?_
  rw [Shape.rowMajor_val_one, Shape.rowMajor_val_two]
  show o.val = 0 * 64 + o.val
  omega

/-- The three bias rows the region reads are the reshaped bias arguments. -/
theorem V_b0 (c : Dev nD) : @Eq (S1x64.Idx → EReal) (V m c main_v1)
    (shapeCast (s := S64) S1x64 (m ((c : Thread nD τ).loc main_arg3)) shapeCasts_S64_S1x64) := by
  dsimp only [Gen.V, Gen.hostOps0]; after_results; rfl
theorem V_b1 (c : Dev nD) : @Eq (S1x64.Idx → EReal) (V m c main_v2)
    (shapeCast (s := S64) S1x64 (m ((c : Thread nD τ).loc main_arg6)) shapeCasts_S64_S1x64) := by
  dsimp only [Gen.V, Gen.hostOps0]; after_results; rfl
theorem V_b2 (c : Dev nD) : @Eq (S1x64.Idx → EReal) (V m c main_v3)
    (shapeCast (s := S64) S1x64 (m ((c : Thread nD τ).loc main_arg9)) shapeCasts_S64_S1x64) := by
  dsimp only [Gen.V, Gen.hostOps0]; after_results; rfl

/-! ## Each window's block is its whole array -/

/-- Window 0's block at the one point is its whole array: the block's offset is zero on every axis and its extents are
    the array's. -/
theorem blk0 (c : Dev nD) (t : Fin cfg0.N) : @Eq (Vec Ideal S1536x1536 .bf16) (iblk m c 0 t) (V m c main_v0) :=
  Memref.read_access_unit_zero (Elt Ideal) main_v0 (off := fun a => 0 * main_v0.ty.shape.size a)
    (funext fun a => Nat.zero_mul _) (fun a => by show 0 * main_v0.ty.shape.size a + main_v0.ty.shape.size a ≤ main_v0.ty.shape.size a; omega) (V m c main_v0)

/-- Window 1's block at the one point is its whole array: the block's offset is zero on every axis and its extents are
    the array's. -/
theorem blk1 (c : Dev nD) (t : Fin cfg0.N) : @Eq (Vec Ideal S1536x64 .f32) (iblk m c 1 t) (V m c main_arg0) :=
  Memref.read_access_unit_zero (Elt Ideal) main_arg0 (off := fun a => 0 * main_arg0.ty.shape.size a)
    (funext fun a => Nat.zero_mul _) (fun a => by show 0 * main_arg0.ty.shape.size a + main_arg0.ty.shape.size a ≤ main_arg0.ty.shape.size a; omega) (V m c main_arg0)

/-- Window 2's block at the one point is its whole array: the block's offset is zero on every axis and its extents are
    the array's. -/
theorem blk2 (c : Dev nD) (t : Fin cfg0.N) : @Eq (Vec Ideal S64x64 .f32) (iblk m c 2 t) (V m c main_arg2) :=
  Memref.read_access_unit_zero (Elt Ideal) main_arg2 (off := fun a => 0 * main_arg2.ty.shape.size a)
    (funext fun a => Nat.zero_mul _) (fun a => by show 0 * main_arg2.ty.shape.size a + main_arg2.ty.shape.size a ≤ main_arg2.ty.shape.size a; omega) (V m c main_arg2)

/-- Window 3's block at the one point is its whole array: the block's offset is zero on every axis and its extents are
    the array's. -/
theorem blk3 (c : Dev nD) (t : Fin cfg0.N) : @Eq (Vec Ideal S1x64 .f32) (iblk m c 3 t) (V m c main_v1) :=
  Memref.read_access_unit_zero (Elt Ideal) main_v1 (off := fun a => 0 * main_v1.ty.shape.size a)
    (funext fun a => Nat.zero_mul _) (fun a => by show 0 * main_v1.ty.shape.size a + main_v1.ty.shape.size a ≤ main_v1.ty.shape.size a; omega) (V m c main_v1)

/-- Window 4's block at the one point is its whole array: the block's offset is zero on every axis and its extents are
    the array's. -/
theorem blk4 (c : Dev nD) (t : Fin cfg0.N) : @Eq (Vec Ideal S64x64 .f32) (iblk m c 4 t) (V m c main_arg4) :=
  Memref.read_access_unit_zero (Elt Ideal) main_arg4 (off := fun a => 0 * main_arg4.ty.shape.size a)
    (funext fun a => Nat.zero_mul _) (fun a => by show 0 * main_arg4.ty.shape.size a + main_arg4.ty.shape.size a ≤ main_arg4.ty.shape.size a; omega) (V m c main_arg4)

/-- Window 5's block at the one point is its whole array: the block's offset is zero on every axis and its extents are
    the array's. -/
theorem blk5 (c : Dev nD) (t : Fin cfg0.N) : @Eq (Vec Ideal S64x64 .f32) (iblk m c 5 t) (V m c main_arg5) :=
  Memref.read_access_unit_zero (Elt Ideal) main_arg5 (off := fun a => 0 * main_arg5.ty.shape.size a)
    (funext fun a => Nat.zero_mul _) (fun a => by show 0 * main_arg5.ty.shape.size a + main_arg5.ty.shape.size a ≤ main_arg5.ty.shape.size a; omega) (V m c main_arg5)

/-- Window 6's block at the one point is its whole array: the block's offset is zero on every axis and its extents are
    the array's. -/
theorem blk6 (c : Dev nD) (t : Fin cfg0.N) : @Eq (Vec Ideal S1x64 .f32) (iblk m c 6 t) (V m c main_v2) :=
  Memref.read_access_unit_zero (Elt Ideal) main_v2 (off := fun a => 0 * main_v2.ty.shape.size a)
    (funext fun a => Nat.zero_mul _) (fun a => by show 0 * main_v2.ty.shape.size a + main_v2.ty.shape.size a ≤ main_v2.ty.shape.size a; omega) (V m c main_v2)

/-- Window 7's block at the one point is its whole array: the block's offset is zero on every axis and its extents are
    the array's. -/
theorem blk7 (c : Dev nD) (t : Fin cfg0.N) : @Eq (Vec Ideal S64x64 .f32) (iblk m c 7 t) (V m c main_arg7) :=
  Memref.read_access_unit_zero (Elt Ideal) main_arg7 (off := fun a => 0 * main_arg7.ty.shape.size a)
    (funext fun a => Nat.zero_mul _) (fun a => by show 0 * main_arg7.ty.shape.size a + main_arg7.ty.shape.size a ≤ main_arg7.ty.shape.size a; omega) (V m c main_arg7)

/-- Window 8's block at the one point is its whole array: the block's offset is zero on every axis and its extents are
    the array's. -/
theorem blk8 (c : Dev nD) (t : Fin cfg0.N) : @Eq (Vec Ideal S64x64 .f32) (iblk m c 8 t) (V m c main_arg8) :=
  Memref.read_access_unit_zero (Elt Ideal) main_arg8 (off := fun a => 0 * main_arg8.ty.shape.size a)
    (funext fun a => Nat.zero_mul _) (fun a => by show 0 * main_arg8.ty.shape.size a + main_arg8.ty.shape.size a ≤ main_arg8.ty.shape.size a; omega) (V m c main_arg8)

/-- Window 9's block at the one point is its whole array: the block's offset is zero on every axis and its extents are
    the array's. -/
theorem blk9 (c : Dev nD) (t : Fin cfg0.N) : @Eq (Vec Ideal S1x64 .f32) (iblk m c 9 t) (V m c main_v3) :=
  Memref.read_access_unit_zero (Elt Ideal) main_v3 (off := fun a => 0 * main_v3.ty.shape.size a)
    (funext fun a => Nat.zero_mul _) (fun a => by show 0 * main_v3.ty.shape.size a + main_v3.ty.shape.size a ≤ main_v3.ty.shape.size a; omega) (V m c main_v3)

/-- Window 10's block at the one point is its whole array: the block's offset is zero on every axis and its extents are
    the array's. -/
theorem blk10 (c : Dev nD) (t : Fin cfg0.N) : @Eq (Vec Ideal S64x64 .f32) (iblk m c 10 t) (V m c main_arg10) :=
  Memref.read_access_unit_zero (Elt Ideal) main_arg10 (off := fun a => 0 * main_arg10.ty.shape.size a)
    (funext fun a => Nat.zero_mul _) (fun a => by show 0 * main_arg10.ty.shape.size a + main_arg10.ty.shape.size a ≤ main_arg10.ty.shape.size a; omega) (V m c main_arg10)

/-! ## The result array -/

/-- The dense three-layer form of the argument arrays, as an array. -/
abbrev G (c : Dev nD) : S1536x64.Idx → EReal :=
  ofMat (outK (mat (m ((c : Thread nD τ).loc main_arg1))) (mat (m ((c : Thread nD τ).loc main_arg0))) (mat (m ((c : Thread nD τ).loc main_arg2))) (vec (m ((c : Thread nD τ).loc main_arg3))) (mat (m ((c : Thread nD τ).loc main_arg4))) (mat (m ((c : Thread nD τ).loc main_arg5))) (vec (m ((c : Thread nD τ).loc main_arg6))) (mat (m ((c : Thread nD τ).loc main_arg7))) (mat (m ((c : Thread nD τ).loc main_arg8))) (vec (m ((c : Thread nD τ).loc main_arg9))) (mat (m ((c : Thread nD τ).loc main_arg10))))

/-- What the one point writes back is the whole of `G`: the body's store over blocks that are the whole arrays, the
    adjacency unchanged by the change of format and each bias row the bias vector. -/
theorem flushed_eq (c : Dev nD) (t : Fin cfg0.N) :
    (dats m 0 c).flushed 11 t = ((cfg0.win 11).blk t).view.read (Elt Ideal) (G m c) := by
  rw [Value.flushed11]
  refine Eq.trans ?_ (Memref.read_access_unit_zero (Elt Ideal) main_v4 (off := fun a => 0 * main_v4.ty.shape.size a)
    (funext fun a => Nat.zero_mul _) (fun a => by show 0 * main_v4.ty.shape.size a + main_v4.ty.shape.size a ≤ main_v4.ty.shape.size a; omega) (G m c)).symm
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) = G m c
  rw [blk0 m c t, blk1 m c t, blk2 m c t, blk3 m c t, blk4 m c t, blk5 m c t, blk6 m c t, blk7 m c t, blk8 m c t, blk9 m c t, blk10 m c t]
  rw [KPay.out_eq]
  rw [V_adj m c, V_b0 m c, V_b1 m c, V_b2 m c, row_shapeCast, row_shapeCast, row_shapeCast,
    V_main_arg0 m c, V_main_arg2 m c, V_main_arg4 m c, V_main_arg5 m c, V_main_arg7 m c, V_main_arg8 m c, V_main_arg10 m c]

/-- The one point's block covers the result array, so after the run the array is `G`. -/
theorem final (c : Dev nD) : (dats m 0 c).arrAt 11 cfg0.N = G m c :=
  (dats m 0 c).arrAt_eq_of_cover 11 (G m c) (fun t _ => flushed_eq m c t) fun i =>
    ⟨t0_0, flush0_11 t0_0, by
      show i ∈ ((View.whole main_v4).slice (win0_11.rect t0_0)).set
      rw [View.set_slice_whole, Rect.mem_set_unit]
      intro a
      have h : (i a).val < main_v4.ty.shape.size a := (i a).isLt
      show 0 * main_v4.ty.shape.size a ≤ (i a).val ∧ (i a).val < 0 * main_v4.ty.shape.size a + main_v4.ty.shape.size a
      omega⟩

end

/-! ## The run -/

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread Cert.KernelIdeal.nD Cert.KernelIdeal.τ).loc Cert.KernelIdeal.main_v4)
        = ofMat (outK (mat (m ((c.tc : Thread Cert.KernelIdeal.nD Cert.KernelIdeal.τ).loc Cert.KernelIdeal.main_arg1))) (mat (m ((c.tc : Thread Cert.KernelIdeal.nD Cert.KernelIdeal.τ).loc Cert.KernelIdeal.main_arg0))) (mat (m ((c.tc : Thread Cert.KernelIdeal.nD Cert.KernelIdeal.τ).loc Cert.KernelIdeal.main_arg2))) (vec (m ((c.tc : Thread Cert.KernelIdeal.nD Cert.KernelIdeal.τ).loc Cert.KernelIdeal.main_arg3))) (mat (m ((c.tc : Thread Cert.KernelIdeal.nD Cert.KernelIdeal.τ).loc Cert.KernelIdeal.main_arg4)))
            (mat (m ((c.tc : Thread Cert.KernelIdeal.nD Cert.KernelIdeal.τ).loc Cert.KernelIdeal.main_arg5))) (vec (m ((c.tc : Thread Cert.KernelIdeal.nD Cert.KernelIdeal.τ).loc Cert.KernelIdeal.main_arg6))) (mat (m ((c.tc : Thread Cert.KernelIdeal.nD Cert.KernelIdeal.τ).loc Cert.KernelIdeal.main_arg7))) (mat (m ((c.tc : Thread Cert.KernelIdeal.nD Cert.KernelIdeal.τ).loc Cert.KernelIdeal.main_arg8))) (vec (m ((c.tc : Thread Cert.KernelIdeal.nD Cert.KernelIdeal.τ).loc Cert.KernelIdeal.main_arg9))) (mat (m ((c.tc : Thread Cert.KernelIdeal.nD Cert.KernelIdeal.τ).loc Cert.KernelIdeal.main_arg10))))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10) :=
  (θ_run defs _ _).mono (fun r h c => ⟨(h c).1.trans (final m c), (h c).2⟩) (Value.run_blocks m ρ)

end Cert.KernelIdeal.KVal

end
-- ==== Proof.RefTerm.lean ====
/-
  The reference program's result as ONE term of its argument arrays: every host operation of its entry function, and of
  the functions it calls, applied in program order. Three pieces, each a definition of its own so that a statement
  about one does not open the others:

  * the edge list: where the adjacency matrix is nonzero, as a list of source nodes and a list of destination nodes of
    length 1536², built by a running count of the nonzero mask, a histogram of that count, a running sum of the
    histogram (the flat position of the e-th nonzero entry), its quotient and remainder by 1536, and the fill value
    1536 from the number of nonzero entries on;
  * one layer over an edge list: rows gathered at the sources (a row of not-a-number words where the source is out of
    range), summed into their destinations, divided by the clipped count of edges per destination, multiplied into the
    left weights, plus the bias, plus the features multiplied into the right weights;
  * the rectifier between layers.
-/
import proofs.«135375_g42752104464586_cont_sun_m_355_15_alg».proof.Proof.Gen.ReferenceIdeal

noncomputable section

namespace Cert.ReferenceIdeal.RefTerm

open Cert.ReferenceIdeal Cert.ReferenceIdeal.Gen Idealize.ShloMosaic Idealize.ShloMosaic.TcCoe Idealize.SL.Sem

variable {F : FTy → Type} [FloatOps F]

/-! ## Words along the edge list -/

/-- A scalar word repeated along the edge list. -/
def bcS (v : IVec S_ 32) : IVec S2359296 32 := broadcastInDim S2359296 ![] bcast_S_S2359296 v

/-- A scalar bit repeated along the edge list. -/
def bcS1 (v : IVec S_ 1) : IVec S2359296 1 := broadcastInDim S2359296 ![] bcast_S_S2359296 v

/-- A literal word repeated along the edge list. -/
def splatE (v : BitVec 32) : IVec S2359296 32 := bcS (constantI S_ 32 v)

/-- The running sum of a list of words: a window of the list's whole length, padded low. -/
def cumsumE (x : IVec S2359296 32) : IVec S2359296 32 :=
  Host.reduceWindow IntOp.addi ![2359296] ![1] ![2359295] ![0] x (broadcastInDim S_ ![] bcast_S_S_ (constantI S_ 32 0#32))
    reduceWindows_S2359296_S2359296_w2359296s1p2359295_0 h_S_

/-- Floor division of a list of words by a literal, as jax spells it: the truncated quotient, less one where the
    signs differ and the remainder is nonzero. -/
def floorDivE (a : IVec S2359296 32) (c : BitVec 32) : IVec S2359296 32 :=
  select (andi (cmpi .ne (signi a) (bcS (signi (constantI S_ 32 c)))) (cmpi .ne (Host.remsi a (splatE c)) (splatE 0#32)))
    (subi (Host.divsi a (splatE c)) (splatE 1#32)) (Host.divsi a (splatE c))

/-- The divisor jax's remainder uses: one in place of zero. -/
def divisorS (c : BitVec 32) : IVec S_ 32 :=
  select (cmpi .eq (constantI S_ 32 c) (constantI S_ 32 0#32)) (constantI S_ 32 1#32) (constantI S_ 32 c)

/-- The remainder of a list of words by a literal, as jax spells it: the truncated remainder, plus the divisor where
    it is nonzero and its sign differs from the divisor's. -/
def remE (a : IVec S2359296 32) (c : BitVec 32) : IVec S2359296 32 :=
  select (andi (cmpi .ne (cmpi .slt (Host.remsi a (bcS (divisorS c))) (splatE 0#32)) (bcS1 (cmpi .slt (divisorS c) (constantI S_ 32 0#32))))
      (cmpi .ne (Host.remsi a (bcS (divisorS c))) (splatE 0#32)))
    (addi (Host.remsi a (bcS (divisorS c))) (bcS (divisorS c))) (Host.remsi a (bcS (divisorS c)))

/-! ## The edge list -/

/-- Where the adjacency matrix is nonzero, as bits. -/
def mask2 (adj : FVec F S1536x1536 .f32) : IVec S1536x1536 1 :=
  cmpf .une adj (broadcastInDim S1536x1536 ![] bcast_S_S1536x1536 (constant S_ .f32 0x00000000#32))

/-- The same row-major as a list of words 0 / 1. -/
def maskE (adj : FVec F S1536x1536 .f32) : IVec S2359296 32 :=
  extui 32 (shapeCast S2359296 (mask2 adj) shapeCasts_S1536x1536_S2359296) natLt_1_32

/-- The number of nonzero entries up to and including each flat position. -/
def cs1 (adj : FVec F S1536x1536 .f32) : IVec S2359296 32 := cumsumE (maskE adj)

/-- That count clipped below at zero. -/
def clipped (adj : FVec F S1536x1536 .f32) : IVec S2359296 32 := maxsi (bcS (id (constantI S_ 32 0#32))) (cs1 adj)

/-- The histogram's indices: the clipped counts, a negative one wrapped by the list's length. -/
def binIdx (adj : FVec F S1536x1536 .f32) : IVec S2359296x1 32 :=
  broadcastInDim S2359296x1 ![0] bcast_S2359296_S2359296x1_0
    (select (cmpi .slt (clipped adj) (splatE 0#32)) (addi (clipped adj) (splatE 2359296#32)) (clipped adj))

/-- The histogram of the running count: how many flat positions have each count. -/
def bincount (adj : FVec F S1536x1536 .f32) : IVec S2359296 32 :=
  Host.scatter scatter_S2359296_S2359296x1_S2359296_n_0_0_1 IntOp.addi (splatE 0#32) (binIdx adj) (splatE 1#32)

/-- The running sum of the histogram: at `e`, the number of flat positions whose count is at most `e`. -/
def flat (adj : FVec F S1536x1536 .f32) : IVec S2359296 32 := cumsumE (bincount adj)

/-- The row of each flat position, before the fill. -/
def srcRaw (adj : FVec F S1536x1536 .f32) : IVec S2359296 32 := remE (floorDivE (flat adj) 1536#32) 1536#32

/-- The column of each flat position, before the fill. -/
def dstRaw (adj : FVec F S1536x1536 .f32) : IVec S2359296 32 := remE (floorDivE (flat adj) 1#32) 1536#32

/-- The number of nonzero entries. -/
def total (adj : FVec F S1536x1536 .f32) : IVec S_ 32 :=
  Host.reduce IntOp.addi (extui 32 (mask2 adj) natLt_1_32) (constantI S_ 32 0#32) reducesTo_S1536x1536_S_d0_1 h_S_

/-- The list positions from the number of nonzero entries on. -/
def isFill (adj : FVec F S1536x1536 .f32) : IVec S2359296 1 := cmpi .sge (iotaInDim S2359296 32 0) (bcS (total adj))

/-- The source node of each edge; 1536 past the last edge. -/
def nzSrc (adj : FVec F S1536x1536 .f32) : IVec S2359296 32 := select (isFill adj) (bcS (id (constantI S_ 32 1536#32))) (srcRaw adj)

/-- The destination node of each edge; 1536 past the last edge. -/
def nzDst (adj : FVec F S1536x1536 .f32) : IVec S2359296 32 := select (isFill adj) (bcS (id (constantI S_ 32 1536#32))) (dstRaw adj)

/-! ## One layer over an edge list -/

/-- The gather's start indices: the sources, a negative one wrapped by 1536, as a column. -/
def takeIdx (src : IVec S2359296 32) : IVec S2359296x1 32 :=
  broadcastInDim S2359296x1 ![0] bcast_S2359296_S2359296x1_0 (select (cmpi .slt src (splatE 0#32)) (addi src (splatE 1536#32)) src)

/-- Which sources are inside `[0, 1535]`. -/
def takeOk (src : IVec S2359296 32) : IVec S2359296 1 :=
  Host.reduce IntOp.andi
    (andi (cmpi .sge (takeIdx src) (broadcastInDim S2359296x1 ![] bcast_S_S2359296x1 (constantI S_ 32 0#32)))
      (cmpi .sle (takeIdx src) (broadcastInDim S2359296x1 ![0, 1] bcast_S1x1_S2359296x1_0_1 (broadcastInDim S1x1 ![1] bcast_S1_S1x1_1 (constantI S1 32 1535#32)))))
    (constantI S_ 1 1#1) reducesTo_S2359296x1_S2359296_d1 h_S_

/-- The message of each edge: its source's row, or a row of not-a-number words where the source is out of range. -/
def msgs (h : FVec F S1536x64 .f32) (src : IVec S2359296 32) : FVec F S2359296x64 .f32 :=
  select (broadcastInDim S2359296x64 ![0] bcast_S2359296_S2359296x64_0 (takeOk src))
    (Host.gather gather_S1536x64_S2359296x1_S2359296x64_1_0_n_n_0_1_164 h (takeIdx src))
    (broadcastInDim S2359296x64 ![] bcast_S_S2359296x64 (constant S_ .f32 0x7FC00000#32))

/-- The destinations as a column of scatter indices. -/
def dstIdx (dst : IVec S2359296 32) : IVec S2359296x1 32 := broadcastInDim S2359296x1 ![0] bcast_S2359296_S2359296x1_0 dst

/-- The messages summed into their destinations. -/
def aggOf (h : FVec F S1536x64 .f32) (src dst : IVec S2359296 32) : FVec F S1536x64 .f32 :=
  Host.scatterAdd scatter_S1536x64_S2359296x1_S2359296x64_1_0_0_1
    (broadcastInDim S1536x64 ![] bcast_S_S1536x64 (constant S_ .f32 0x00000000#32)) (dstIdx dst) (msgs h src)

/-- The number of edges into each destination. -/
def degOf (F : FTy → Type) [FloatOps F] (dst : IVec S2359296 32) : FVec F S1536 .f32 :=
  Host.scatterAdd scatter_S1536_S2359296x1_S2359296_n_0_0_1
    (broadcastInDim S1536 ![] bcast_S_S1536 (constant S_ .f32 0x00000000#32)) (dstIdx dst)
    (broadcastInDim S2359296 ![] bcast_S_S2359296 (constant S_ .f32 0x3F800000#32))

/-- That count clipped below at one. -/
def degClip (F : FTy → Type) [FloatOps F] (dst : IVec S2359296 32) : FVec F S1536 .f32 :=
  maximumf (broadcastInDim S1536 ![] bcast_S_S1536 (id (constant S_ .f32 0x3F800000#32))) (degOf F dst)

/-- The mean message of each destination. -/
def meanOf (h : FVec F S1536x64 .f32) (src dst : IVec S2359296 32) : FVec F S1536x64 .f32 :=
  Host.divf (aggOf h src dst)
    (broadcastInDim S1536x64 ![0, 1] bcast_S1536x1_S1536x64_0_1 (broadcastInDim S1536x1 ![0] bcast_S1536_S1536x1_0 (degClip F dst)))

/-- One layer: the mean through the left weights, plus the bias, plus the features through the right weights. -/
def refLayer (h : FVec F S1536x64 .f32) (src dst : IVec S2359296 32) (Wl : FVec F S64x64 .f32) (b : FVec F S64 .f32)
    (Wr : FVec F S64x64 .f32) : FVec F S1536x64 .f32 :=
  addf (addf (Host.dotGeneral dot_S1536x64_S64x64_S1536x64_1_0_0_1_n_n none (meanOf h src dst) Wl)
      (broadcastInDim S1536x64 ![0, 1] bcast_S1x64_S1536x64_0_1 (broadcastInDim S1x64 ![1] bcast_S64_S1x64_1 b)))
    (Host.dotGeneral dot_S1536x64_S64x64_S1536x64_1_0_0_1_n_n none h Wr)

/-- The rectifier between layers. -/
def refRelu (h : FVec F S1536x64 .f32) : FVec F S1536x64 .f32 :=
  maximumf h (broadcastInDim S1536x64 ![] bcast_S_S1536x64 (constant S_ .f32 0x00000000#32))

/-- The program's result: three layers over the one edge list. -/
def refOut (x : FVec F S1536x64 .f32) (adj : FVec F S1536x1536 .f32) (Wl0 : FVec F S64x64 .f32) (b0 : FVec F S64 .f32)
    (Wr0 : FVec F S64x64 .f32) (Wl1 : FVec F S64x64 .f32) (b1 : FVec F S64 .f32) (Wr1 : FVec F S64x64 .f32)
    (Wl2 : FVec F S64x64 .f32) (b2 : FVec F S64 .f32) (Wr2 : FVec F S64x64 .f32) : FVec F S1536x64 .f32 :=
  refLayer (refRelu (refLayer (refRelu (refLayer x (nzSrc adj) (nzDst adj) Wl0 b0 Wr0)) (nzSrc adj) (nzDst adj) Wl1 b1 Wr1))
    (nzSrc adj) (nzDst adj) Wl2 b2 Wr2

end Cert.ReferenceIdeal.RefTerm

end
-- ==== Proof.RefOps.lean ====
/-
  The reference program's operations in program order, as lists: each call's body written out at the call site over
  the call's buffer record, its parameters the call's arguments. Nine consecutive lists: the edge list in four (through the flat positions; the rows; the columns; the two
  fills), the first layer, the rectifier, the second layer, the rectifier, the third layer. With each list, that every
  operation touches TensorCore references only.
-/
import proofs.«135375_g42752104464586_cont_sun_m_355_15_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 28 operations. -/
abbrev opsA1 : List (HloOp τ sig (Elt F)) :=
  [ StableHlo.nullary main_cst (constant S_ .f32 0x00000000#32),
    StableHlo.unary main_cst main_v0 (broadcastInDim S1536x1536 ![] bcast_S_S1536x1536 : (⟨S_, .f32⟩ : BufTy).Contents (Elt F) → (⟨S1536x1536, .f32⟩ : BufTy).Contents (Elt F)),
    StableHlo.binary main_arg1 main_v0 main_v1 (cmpf .une : (⟨S1536x1536, .f32⟩ : BufTy).Contents (Elt F) → (⟨S1536x1536, .f32⟩ : BufTy).Contents (Elt F) → (⟨S1536x1536, .i1⟩ : BufTy).Contents (Elt F)),
    StableHlo.TRef.reshape (.of main_v1 : StableHlo.TRef sig ⟨S1536x1536, .i1⟩) main_call0.v0 rfl shapeCasts_S1536x1536_S2359296,
    StableHlo.TRef.unary main_call0.v0 main_call0.v1 (extui 32 · natLt_1_32),
    StableHlo.TRef.nullary main_call0.call0.c (constantI S_ 32 0#32),
    StableHlo.TRef.unary main_call0.call0.c main_call0.call0.v0 (broadcastInDim S_ ![] bcast_S_S_),
    StableHlo.TRef.binary main_call0.v1 main_call0.call0.v0 main_call0.call0.v1 (fun x v => Host.reduceWindow IntOp.addi ![2359296] ![1] ![2359295] ![0] x v reduceWindows_S2359296_S2359296_w2359296s1p2359295_0 h_S_),
    StableHlo.nullary main_c (constantI S_ 32 0#32),
    StableHlo.unary main_c main_v3 (broadcastInDim S2359296 ![] bcast_S_S2359296 : (⟨S_, .i32⟩ : BufTy).Contents (Elt F) → (⟨S2359296, .i32⟩ : BufTy).Contents (Elt F)),
    StableHlo.nullary main_c_0 (constantI S_ 32 0#32),
    StableHlo.TRef.unary (.of main_c_0 : StableHlo.TRef sig ⟨S_, .i32⟩) main_call1.v0 id,
    StableHlo.TRef.unary main_call1.v0 main_call1.v1 (broadcastInDim S2359296 ![] bcast_S_S2359296),
    StableHlo.TRef.binary main_call1.v1 (.of main_v2 : StableHlo.TRef sig ⟨S2359296, .i32⟩) main_call1.v2 maxsi,
    StableHlo.nullary main_c_1 (constantI S_ 32 0#32),
    StableHlo.unary main_c_1 main_v5 (broadcastInDim S2359296 ![] bcast_S_S2359296 : (⟨S_, .i32⟩ : BufTy).Contents (Elt F) → (⟨S2359296, .i32⟩ : BufTy).Contents (Elt F)),
    StableHlo.binary main_v4 main_v5 main_v6 (cmpi .slt : (⟨S2359296, .i32⟩ : BufTy).Contents (Elt F) → (⟨S2359296, .i32⟩ : BufTy).Contents (Elt F) → (⟨S2359296, .i1⟩ : BufTy).Contents (Elt F)),
    StableHlo.nullary main_c_2 (constantI S_ 32 2359296#32),
    StableHlo.unary main_c_2 main_v7 (broadcastInDim S2359296 ![] bcast_S_S2359296 : (⟨S_, .i32⟩ : BufTy).Contents (Elt F) → (⟨S2359296, .i32⟩ : BufTy).Contents (Elt F)),
    StableHlo.binary main_v4 main_v7 main_v8 (addi : (⟨S2359296, .i32⟩ : BufTy).Contents (Elt F) → (⟨S2359296, .i32⟩ : BufTy).Contents (Elt F) → (⟨S2359296, .i32⟩ : BufTy).Contents (Elt F)),
    StableHlo.ternary main_v6 main_v8 main_v4 main_v9 (select : (⟨S2359296, .i1⟩ : BufTy).Contents (Elt F) → (⟨S2359296, .i32⟩ : BufTy).Contents (Elt F) → (⟨S2359296, .i32⟩ : BufTy).Contents (Elt F) → (⟨S2359296, .i32⟩ : BufTy).Contents (Elt F)),
    StableHlo.unary main_v9 main_v10 (broadcastInDim S2359296x1 ![0] bcast_S2359296_S2359296x1_0 : (⟨S2359296, .i32⟩ : BufTy).Contents (Elt F) → (⟨S2359296x1, .i32⟩ : BufTy).Contents (Elt F)),
    StableHlo.nullary main_c_3 (constantI S_ 32 1#32),
    StableHlo.unary main_c_3 main_v11 (broadcastInDim S2359296 ![] bcast_S_S2359296 : (⟨S_, .i32⟩ : BufTy).Contents (Elt F) → (⟨S2359296, .i32⟩ : BufTy).Contents (Elt F)),
    StableHlo.ternary main_v3 main_v10 main_v11 main_v12 ((fun x i u => Host.scatter scatter_S2359296_S2359296x1_S2359296_n_0_0_1 IntOp.addi x i u) : (⟨S2359296, .i32⟩ : BufTy).Contents (Elt F) → (⟨S2359296x1, .i32⟩ : BufTy).Contents (Elt F) → (⟨S2359296, .i32⟩ : BufTy).Contents (Elt F) → (⟨S2359296, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v12 : StableHlo.TRef sig ⟨S2359296, .i32⟩) main_call2.call0.v0 main_call2.call0.v1 (fun x v => Host.reduceWindow IntOp.addi ![2359296] ![1] ![2359295] ![0] x v reduceWindows_S2359296_S2359296_w2359296s1p2359295_0 h_S_) ]

set_option maxRecDepth 4096 in
theorem opsA1_sub : (opsA1 : List (HloOp τ sig (Elt F))).Forall fun op => op.bufs ⊆ tcRefs τ sig :=
  ⟨nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub ..⟩

/-- 39 operations. -/
abbrev opsA2 : List (HloOp τ sig (Elt F)) :=
  [ StableHlo.nullary main_c_4 (constantI S_ 32 1536#32),
    StableHlo.TRef.unary (.of main_c_4 : StableHlo.TRef sig ⟨S_, .i32⟩) main_call3.v0 (broadcastInDim S2359296 ![] bcast_S_S2359296),
    StableHlo.TRef.binary (.of main_v13 : StableHlo.TRef sig ⟨S2359296, .i32⟩) main_call3.v0 main_call3.v1 Host.divsi,
    StableHlo.TRef.unary (.of main_v13 : StableHlo.TRef sig ⟨S2359296, .i32⟩) main_call3.v2 signi,
    StableHlo.TRef.unary (.of main_c_4 : StableHlo.TRef sig ⟨S_, .i32⟩) main_call3.v3 signi,
    StableHlo.TRef.unary main_call3.v3 main_call3.v4 (broadcastInDim S2359296 ![] bcast_S_S2359296),
    StableHlo.TRef.binary main_call3.v2 main_call3.v4 main_call3.v5 (cmpi .ne),
    StableHlo.TRef.unary (.of main_c_4 : StableHlo.TRef sig ⟨S_, .i32⟩) main_call3.v6 (broadcastInDim S2359296 ![] bcast_S_S2359296),
    StableHlo.TRef.binary (.of main_v13 : StableHlo.TRef sig ⟨S2359296, .i32⟩) main_call3.v6 main_call3.v7 Host.remsi,
    StableHlo.TRef.nullary main_call3.c (constantI S_ 32 0#32),
    StableHlo.TRef.unary main_call3.c main_call3.v8 (broadcastInDim S2359296 ![] bcast_S_S2359296),
    StableHlo.TRef.binary main_call3.v7 main_call3.v8 main_call3.v9 (cmpi .ne),
    StableHlo.TRef.binary main_call3.v5 main_call3.v9 main_call3.v10 andi,
    StableHlo.TRef.nullary main_call3.c_0 (constantI S_ 32 1#32),
    StableHlo.TRef.unary main_call3.c_0 main_call3.v11 (broadcastInDim S2359296 ![] bcast_S_S2359296),
    StableHlo.TRef.binary main_call3.v1 main_call3.v11 main_call3.v12 subi,
    StableHlo.TRef.ternary main_call3.v10 main_call3.v12 main_call3.v1 main_call3.call0.v0 select,
    StableHlo.nullary main_c_5 (constantI S_ 32 1536#32),
    StableHlo.TRef.unary (.of main_c_5 : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S2359296 ![] bcast_S_S2359296),
    StableHlo.TRef.binary (.of main_v14 : StableHlo.TRef sig ⟨S2359296, .i32⟩) main_call4.v3 main_call4.v4 Host.remsi,
    StableHlo.TRef.nullary main_call4.c_1 (constantI S_ 32 0#32),
    StableHlo.TRef.unary main_call4.c_1 main_call4.v5 (broadcastInDim S2359296 ![] bcast_S_S2359296),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S2359296 ![] bcast_S_S2359296),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S2359296 ![] bcast_S_S2359296),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S2359296 ![] bcast_S_S2359296),
    StableHlo.TRef.binary main_call4.v4 main_call4.v13 main_call4.v14 addi,
    StableHlo.TRef.ternary main_call4.v12 main_call4.v14 main_call4.v4 main_call4.v15 select ]

set_option maxRecDepth 4096 in
theorem opsA2_sub : (opsA2 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

/-- 39 operations. -/
abbrev opsA3 : List (HloOp τ sig (Elt F)) :=
  [ StableHlo.nullary main_c_6 (constantI S_ 32 1#32),
    StableHlo.TRef.unary (.of main_c_6 : StableHlo.TRef sig ⟨S_, .i32⟩) main_call5.v0 (broadcastInDim S2359296 ![] bcast_S_S2359296),
    StableHlo.TRef.binary (.of main_v13 : StableHlo.TRef sig ⟨S2359296, .i32⟩) main_call5.v0 main_call5.v1 Host.divsi,
    StableHlo.TRef.unary (.of main_v13 : StableHlo.TRef sig ⟨S2359296, .i32⟩) main_call5.v2 signi,
    StableHlo.TRef.unary (.of main_c_6 : StableHlo.TRef sig ⟨S_, .i32⟩) main_call5.v3 signi,
    StableHlo.TRef.unary main_call5.v3 main_call5.v4 (broadcastInDim S2359296 ![] bcast_S_S2359296),
    StableHlo.TRef.binary main_call5.v2 main_call5.v4 main_call5.v5 (cmpi .ne),
    StableHlo.TRef.unary (.of main_c_6 : StableHlo.TRef sig ⟨S_, .i32⟩) main_call5.v6 (broadcastInDim S2359296 ![] bcast_S_S2359296),
    StableHlo.TRef.binary (.of main_v13 : StableHlo.TRef sig ⟨S2359296, .i32⟩) main_call5.v6 main_call5.v7 Host.remsi,
    StableHlo.TRef.nullary main_call5.c (constantI S_ 32 0#32),
    StableHlo.TRef.unary main_call5.c main_call5.v8 (broadcastInDim S2359296 ![] bcast_S_S2359296),
    StableHlo.TRef.binary main_call5.v7 main_call5.v8 main_call5.v9 (cmpi .ne),
    StableHlo.TRef.binary main_call5.v5 main_call5.v9 main_call5.v10 andi,
    StableHlo.TRef.nullary main_call5.c_0 (constantI S_ 32 1#32),
    StableHlo.TRef.unary main_call5.c_0 main_call5.v11 (broadcastInDim S2359296 ![] bcast_S_S2359296),
    StableHlo.TRef.binary main_call5.v1 main_call5.v11 main_call5.v12 subi,
    StableHlo.TRef.ternary main_call5.v10 main_call5.v12 main_call5.v1 main_call5.call0.v0 select,
    StableHlo.nullary main_c_7 (constantI S_ 32 1536#32),
    StableHlo.TRef.unary (.of main_c_7 : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S2359296 ![] bcast_S_S2359296),
    StableHlo.TRef.binary (.of main_v16 : StableHlo.TRef sig ⟨S2359296, .i32⟩) main_call6.v3 main_call6.v4 Host.remsi,
    StableHlo.TRef.nullary main_call6.c_1 (constantI S_ 32 0#32),
    StableHlo.TRef.unary main_call6.c_1 main_call6.v5 (broadcastInDim S2359296 ![] bcast_S_S2359296),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S2359296 ![] bcast_S_S2359296),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S2359296 ![] bcast_S_S2359296),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S2359296 ![] bcast_S_S2359296),
    StableHlo.TRef.binary main_call6.v4 main_call6.v13 main_call6.v14 addi,
    StableHlo.TRef.ternary main_call6.v12 main_call6.v14 main_call6.v4 main_call6.v15 select ]

set_option maxRecDepth 4096 in
theorem opsA3_sub : (opsA3 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

/-- 14 operations. -/
abbrev opsA4 : List (HloOp τ sig (Elt F)) :=
  [ StableHlo.nullary main_v18 (iotaInDim S2359296 32 0),
    StableHlo.unary main_v1 main_v19 ((extui 32 · natLt_1_32) : (⟨S1536x1536, .i1⟩ : BufTy).Contents (Elt F) → (⟨S1536x1536, .i32⟩ : BufTy).Contents (Elt F)),
    StableHlo.nullary main_c_8 (constantI S_ 32 0#32),
    StableHlo.binary main_v19 main_c_8 main_v20 ((fun x v => Host.reduce IntOp.addi x v reducesTo_S1536x1536_S_d0_1 h_S_) : (⟨S1536x1536, .i32⟩ : BufTy).Contents (Elt F) → (⟨S_, .i32⟩ : BufTy).Contents (Elt F) → (⟨S_, .i32⟩ : BufTy).Contents (Elt F)),
    StableHlo.unary main_v20 main_v21 (broadcastInDim S2359296 ![] bcast_S_S2359296 : (⟨S_, .i32⟩ : BufTy).Contents (Elt F) → (⟨S2359296, .i32⟩ : BufTy).Contents (Elt F)),
    StableHlo.binary main_v18 main_v21 main_v22 (cmpi .sge : (⟨S2359296, .i32⟩ : BufTy).Contents (Elt F) → (⟨S2359296, .i32⟩ : BufTy).Contents (Elt F) → (⟨S2359296, .i1⟩ : BufTy).Contents (Elt F)),
    StableHlo.nullary main_c_9 (constantI S_ 32 1536#32),
    StableHlo.TRef.unary (.of main_c_9 : StableHlo.TRef sig ⟨S_, .i32⟩) main_call7.v0 id,
    StableHlo.TRef.unary main_call7.v0 main_call7.v1 (broadcastInDim S2359296 ![] bcast_S_S2359296),
    StableHlo.TRef.ternary (.of main_v22 : StableHlo.TRef sig ⟨S2359296, .i1⟩) main_call7.v1 (.of main_v15 : StableHlo.TRef sig ⟨S2359296, .i32⟩) main_call7.v2 select,
    StableHlo.nullary main_c_10 (constantI S_ 32 1536#32),
    StableHlo.TRef.unary (.of main_c_10 : StableHlo.TRef sig ⟨S_, .i32⟩) main_call8.v0 id,
    StableHlo.TRef.unary main_call8.v0 main_call8.v1 (broadcastInDim S2359296 ![] bcast_S_S2359296),
    StableHlo.TRef.ternary (.of main_v22 : StableHlo.TRef sig ⟨S2359296, .i1⟩) main_call8.v1 (.of main_v17 : StableHlo.TRef sig ⟨S2359296, .i32⟩) main_call8.v2 select ]

set_option maxRecDepth 4096 in
theorem opsA4_sub : (opsA4 : List (HloOp τ sig (Elt F))).Forall fun op => op.bufs ⊆ tcRefs τ sig :=
  ⟨nullary_bufs_sub .., unary_bufs_sub .., nullary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub ..⟩

/-- 46 operations. -/
abbrev opsB : List (HloOp τ sig (Elt F)) :=
  [ StableHlo.TRef.nullary main_call9.c (constantI S_ 32 0#32),
    StableHlo.TRef.unary main_call9.c main_call9.v0 (broadcastInDim S2359296 ![] bcast_S_S2359296),
    StableHlo.TRef.binary (.of main_v23 : StableHlo.TRef sig ⟨S2359296, .i32⟩) main_call9.v0 main_call9.v1 (cmpi .slt),
    StableHlo.TRef.nullary main_call9.c_0 (constantI S_ 32 1536#32),
    StableHlo.TRef.unary main_call9.c_0 main_call9.v2 (broadcastInDim S2359296 ![] bcast_S_S2359296),
    StableHlo.TRef.binary (.of main_v23 : StableHlo.TRef sig ⟨S2359296, .i32⟩) main_call9.v2 main_call9.v3 addi,
    StableHlo.TRef.ternary main_call9.v1 main_call9.v3 (.of main_v23 : StableHlo.TRef sig ⟨S2359296, .i32⟩) main_call9.call0.v0 select,
    StableHlo.TRef.unary main_call9.call0.v0 main_call9.v5 (broadcastInDim S2359296x1 ![0] bcast_S2359296_S2359296x1_0),
    StableHlo.TRef.nullary main_call9.c_1 (constantI S1 32 1535#32),
    StableHlo.TRef.nullary main_call9.c_2 (constantI S_ 32 0#32),
    StableHlo.TRef.unary main_call9.c_2 main_call9.v6 (broadcastInDim S2359296x1 ![] bcast_S_S2359296x1),
    StableHlo.TRef.binary main_call9.v5 main_call9.v6 main_call9.v7 (cmpi .sge),
    StableHlo.TRef.unary main_call9.c_1 main_call9.v8 (broadcastInDim S1x1 ![1] bcast_S1_S1x1_1),
    StableHlo.TRef.unary main_call9.v8 main_call9.v9 (broadcastInDim S2359296x1 ![0, 1] bcast_S1x1_S2359296x1_0_1),
    StableHlo.TRef.binary main_call9.v5 main_call9.v9 main_call9.v10 (cmpi .sle),
    StableHlo.TRef.binary main_call9.v7 main_call9.v10 main_call9.v11 andi,
    StableHlo.TRef.nullary main_call9.c_3 (constantI S_ 1 1#1),
    StableHlo.TRef.binary main_call9.v11 main_call9.c_3 main_call9.v12 (fun x v => Host.reduce IntOp.andi x v reducesTo_S2359296x1_S2359296_d1 h_S_),
    StableHlo.TRef.binary (.of main_arg0 : StableHlo.TRef sig ⟨S1536x64, .f32⟩) main_call9.v5 main_call9.v13 (fun x i => Host.gather gather_S1536x64_S2359296x1_S2359296x64_1_0_n_n_0_1_164 x i),
    StableHlo.TRef.unary main_call9.v12 main_call9.v14 (broadcastInDim S2359296x64 ![0] bcast_S2359296_S2359296x64_0),
    StableHlo.TRef.nullary main_call9.cst (constant S_ .f32 0x7FC00000#32),
    StableHlo.TRef.unary main_call9.cst main_call9.v15 (broadcastInDim S2359296x64 ![] bcast_S_S2359296x64),
    StableHlo.TRef.ternary main_call9.v14 main_call9.v13 main_call9.v15 main_call9.v16 select,
    StableHlo.nullary main_cst_11 (constant S_ .f32 0x00000000#32),
    StableHlo.unary main_cst_11 main_v26 (broadcastInDim S1536x64 ![] bcast_S_S1536x64 : (⟨S_, .f32⟩ : BufTy).Contents (Elt F) → (⟨S1536x64, .f32⟩ : BufTy).Contents (Elt F)),
    StableHlo.unary main_v24 main_v27 (broadcastInDim S2359296x1 ![0] bcast_S2359296_S2359296x1_0 : (⟨S2359296, .i32⟩ : BufTy).Contents (Elt F) → (⟨S2359296x1, .i32⟩ : BufTy).Contents (Elt F)),
    StableHlo.ternary main_v26 main_v27 main_v25 main_v28 ((fun x i u => Host.scatterAdd scatter_S1536x64_S2359296x1_S2359296x64_1_0_0_1 x i u) : (⟨S1536x64, .f32⟩ : BufTy).Contents (Elt F) → (⟨S2359296x1, .i32⟩ : BufTy).Contents (Elt F) → (⟨S2359296x64, .f32⟩ : BufTy).Contents (Elt F) → (⟨S1536x64, .f32⟩ : BufTy).Contents (Elt F)),
    StableHlo.nullary main_cst_12 (constant S_ .f32 0x3F800000#32),
    StableHlo.unary main_cst_12 main_v29 (broadcastInDim S2359296 ![] bcast_S_S2359296 : (⟨S_, .f32⟩ : BufTy).Contents (Elt F) → (⟨S2359296, .f32⟩ : BufTy).Contents (Elt F)),
    StableHlo.nullary main_cst_13 (constant S_ .f32 0x00000000#32),
    StableHlo.unary main_cst_13 main_v30 (broadcastInDim S1536 ![] bcast_S_S1536 : (⟨S_, .f32⟩ : BufTy).Contents (Elt F) → (⟨S1536, .f32⟩ : BufTy).Contents (Elt F)),
    StableHlo.unary main_v24 main_v31 (broadcastInDim S2359296x1 ![0] bcast_S2359296_S2359296x1_0 : (⟨S2359296, .i32⟩ : BufTy).Contents (Elt F) → (⟨S2359296x1, .i32⟩ : BufTy).Contents (Elt F)),
    StableHlo.ternary main_v30 main_v31 main_v29 main_v32 ((fun x i u => Host.scatterAdd scatter_S1536_S2359296x1_S2359296_n_0_0_1 x i u) : (⟨S1536, .f32⟩ : BufTy).Contents (Elt F) → (⟨S2359296x1, .i32⟩ : BufTy).Contents (Elt F) → (⟨S2359296, .f32⟩ : BufTy).Contents (Elt F) → (⟨S1536, .f32⟩ : BufTy).Contents (Elt F)),
    StableHlo.nullary main_cst_14 (constant S_ .f32 0x3F800000#32),
    StableHlo.TRef.unary (.of main_cst_14 : StableHlo.TRef sig ⟨S_, .f32⟩) main_call10.v0 id,
    StableHlo.TRef.unary main_call10.v0 main_call10.v1 (broadcastInDim S1536 ![] bcast_S_S1536),
    StableHlo.TRef.binary main_call10.v1 (.of main_v32 : StableHlo.TRef sig ⟨S1536, .f32⟩) main_call10.v2 maximumf,
    StableHlo.unary main_v33 main_v34 (broadcastInDim S1536x1 ![0] bcast_S1536_S1536x1_0 : (⟨S1536, .f32⟩ : BufTy).Contents (Elt F) → (⟨S1536x1, .f32⟩ : BufTy).Contents (Elt F)),
    StableHlo.unary main_v34 main_v35 (broadcastInDim S1536x64 ![0, 1] bcast_S1536x1_S1536x64_0_1 : (⟨S1536x1, .f32⟩ : BufTy).Contents (Elt F) → (⟨S1536x64, .f32⟩ : BufTy).Contents (Elt F)),
    StableHlo.binary main_v28 main_v35 main_v36 (Host.divf : (⟨S1536x64, .f32⟩ : BufTy).Contents (Elt F) → (⟨S1536x64, .f32⟩ : BufTy).Contents (Elt F) → (⟨S1536x64, .f32⟩ : BufTy).Contents (Elt F)),
    StableHlo.binary main_v36 main_arg2 main_v37 ((fun l r => Host.dotGeneral dot_S1536x64_S64x64_S1536x64_1_0_0_1_n_n none l r) : (⟨S1536x64, .f32⟩ : BufTy).Contents (Elt F) → (⟨S64x64, .f32⟩ : BufTy).Contents (Elt F) → (⟨S1536x64, .f32⟩ : BufTy).Contents (Elt F)),
    StableHlo.unary main_arg3 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S1536x64 ![0, 1] bcast_S1x64_S1536x64_0_1 : (⟨S1x64, .f32⟩ : BufTy).Contents (Elt F) → (⟨S1536x64, .f32⟩ : BufTy).Contents (Elt F)),
    StableHlo.binary main_v37 main_v39 main_v40 (addf : (⟨S1536x64, .f32⟩ : BufTy).Contents (Elt F) → (⟨S1536x64, .f32⟩ : BufTy).Contents (Elt F) → (⟨S1536x64, .f32⟩ : BufTy).Contents (Elt F)),
    StableHlo.binary main_arg0 main_arg4 main_v41 ((fun l r => Host.dotGeneral dot_S1536x64_S64x64_S1536x64_1_0_0_1_n_n none l r) : (⟨S1536x64, .f32⟩ : BufTy).Contents (Elt F) → (⟨S64x64, .f32⟩ : BufTy).Contents (Elt F) → (⟨S1536x64, .f32⟩ : BufTy).Contents (Elt F)),
    StableHlo.binary main_v40 main_v41 main_v42 (addf : (⟨S1536x64, .f32⟩ : BufTy).Contents (Elt F) → (⟨S1536x64, .f32⟩ : BufTy).Contents (Elt F) → (⟨S1536x64, .f32⟩ : BufTy).Contents (Elt F)) ]

set_option maxRecDepth 4096 in
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub ..⟩

/-- 3 operations. -/
abbrev opsC : List (HloOp τ sig (Elt F)) :=
  [ StableHlo.TRef.nullary main_call11.cst (constant S_ .f32 0x00000000#32),
    StableHlo.TRef.unary main_call11.cst main_call11.v0 (broadcastInDim S1536x64 ![] bcast_S_S1536x64),
    StableHlo.TRef.binary (.of main_v42 : StableHlo.TRef sig ⟨S1536x64, .f32⟩) main_call11.v0 main_call11.v1 maximumf ]

set_option maxRecDepth 4096 in
theorem opsC_sub : (opsC : List (HloOp τ sig (Elt F))).Forall fun op => op.bufs ⊆ tcRefs τ sig :=
  ⟨nullary_bufs_sub .., unary_bufs_sub .., binary_bufs_sub ..⟩

/-- 46 operations. -/
abbrev opsD : List (HloOp τ sig (Elt F)) :=
  [ StableHlo.TRef.nullary main_call12.c (constantI S_ 32 0#32),
    StableHlo.TRef.unary main_call12.c main_call12.v0 (broadcastInDim S2359296 ![] bcast_S_S2359296),
    StableHlo.TRef.binary (.of main_v23 : StableHlo.TRef sig ⟨S2359296, .i32⟩) main_call12.v0 main_call12.v1 (cmpi .slt),
    StableHlo.TRef.nullary main_call12.c_0 (constantI S_ 32 1536#32),
    StableHlo.TRef.unary main_call12.c_0 main_call12.v2 (broadcastInDim S2359296 ![] bcast_S_S2359296),
    StableHlo.TRef.binary (.of main_v23 : StableHlo.TRef sig ⟨S2359296, .i32⟩) main_call12.v2 main_call12.v3 addi,
    StableHlo.TRef.ternary main_call12.v1 main_call12.v3 (.of main_v23 : StableHlo.TRef sig ⟨S2359296, .i32⟩) main_call12.call0.v0 select,
    StableHlo.TRef.unary main_call12.call0.v0 main_call12.v5 (broadcastInDim S2359296x1 ![0] bcast_S2359296_S2359296x1_0),
    StableHlo.TRef.nullary main_call12.c_1 (constantI S1 32 1535#32),
    StableHlo.TRef.nullary main_call12.c_2 (constantI S_ 32 0#32),
    StableHlo.TRef.unary main_call12.c_2 main_call12.v6 (broadcastInDim S2359296x1 ![] bcast_S_S2359296x1),
    StableHlo.TRef.binary main_call12.v5 main_call12.v6 main_call12.v7 (cmpi .sge),
    StableHlo.TRef.unary main_call12.c_1 main_call12.v8 (broadcastInDim S1x1 ![1] bcast_S1_S1x1_1),
    StableHlo.TRef.unary main_call12.v8 main_call12.v9 (broadcastInDim S2359296x1 ![0, 1] bcast_S1x1_S2359296x1_0_1),
    StableHlo.TRef.binary main_call12.v5 main_call12.v9 main_call12.v10 (cmpi .sle),
    StableHlo.TRef.binary main_call12.v7 main_call12.v10 main_call12.v11 andi,
    StableHlo.TRef.nullary main_call12.c_3 (constantI S_ 1 1#1),
    StableHlo.TRef.binary main_call12.v11 main_call12.c_3 main_call12.v12 (fun x v => Host.reduce IntOp.andi x v reducesTo_S2359296x1_S2359296_d1 h_S_),
    StableHlo.TRef.binary (.of main_v43 : StableHlo.TRef sig ⟨S1536x64, .f32⟩) main_call12.v5 main_call12.v13 (fun x i => Host.gather gather_S1536x64_S2359296x1_S2359296x64_1_0_n_n_0_1_164 x i),
    StableHlo.TRef.unary main_call12.v12 main_call12.v14 (broadcastInDim S2359296x64 ![0] bcast_S2359296_S2359296x64_0),
    StableHlo.TRef.nullary main_call12.cst (constant S_ .f32 0x7FC00000#32),
    StableHlo.TRef.unary main_call12.cst main_call12.v15 (broadcastInDim S2359296x64 ![] bcast_S_S2359296x64),
    StableHlo.TRef.ternary main_call12.v14 main_call12.v13 main_call12.v15 main_call12.v16 select,
    StableHlo.nullary main_cst_15 (constant S_ .f32 0x00000000#32),
    StableHlo.unary main_cst_15 main_v45 (broadcastInDim S1536x64 ![] bcast_S_S1536x64 : (⟨S_, .f32⟩ : BufTy).Contents (Elt F) → (⟨S1536x64, .f32⟩ : BufTy).Contents (Elt F)),
    StableHlo.unary main_v24 main_v46 (broadcastInDim S2359296x1 ![0] bcast_S2359296_S2359296x1_0 : (⟨S2359296, .i32⟩ : BufTy).Contents (Elt F) → (⟨S2359296x1, .i32⟩ : BufTy).Contents (Elt F)),
    StableHlo.ternary main_v45 main_v46 main_v44 main_v47 ((fun x i u => Host.scatterAdd scatter_S1536x64_S2359296x1_S2359296x64_1_0_0_1 x i u) : (⟨S1536x64, .f32⟩ : BufTy).Contents (Elt F) → (⟨S2359296x1, .i32⟩ : BufTy).Contents (Elt F) → (⟨S2359296x64, .f32⟩ : BufTy).Contents (Elt F) → (⟨S1536x64, .f32⟩ : BufTy).Contents (Elt F)),
    StableHlo.nullary main_cst_16 (constant S_ .f32 0x3F800000#32),
    StableHlo.unary main_cst_16 main_v48 (broadcastInDim S2359296 ![] bcast_S_S2359296 : (⟨S_, .f32⟩ : BufTy).Contents (Elt F) → (⟨S2359296, .f32⟩ : BufTy).Contents (Elt F)),
    StableHlo.nullary main_cst_17 (constant S_ .f32 0x00000000#32),
    StableHlo.unary main_cst_17 main_v49 (broadcastInDim S1536 ![] bcast_S_S1536 : (⟨S_, .f32⟩ : BufTy).Contents (Elt F) → (⟨S1536, .f32⟩ : BufTy).Contents (Elt F)),
    StableHlo.unary main_v24 main_v50 (broadcastInDim S2359296x1 ![0] bcast_S2359296_S2359296x1_0 : (⟨S2359296, .i32⟩ : BufTy).Contents (Elt F) → (⟨S2359296x1, .i32⟩ : BufTy).Contents (Elt F)),
    StableHlo.ternary main_v49 main_v50 main_v48 main_v51 ((fun x i u => Host.scatterAdd scatter_S1536_S2359296x1_S2359296_n_0_0_1 x i u) : (⟨S1536, .f32⟩ : BufTy).Contents (Elt F) → (⟨S2359296x1, .i32⟩ : BufTy).Contents (Elt F) → (⟨S2359296, .f32⟩ : BufTy).Contents (Elt F) → (⟨S1536, .f32⟩ : BufTy).Contents (Elt F)),
    StableHlo.nullary main_cst_18 (constant S_ .f32 0x3F800000#32),
    StableHlo.TRef.unary (.of main_cst_18 : StableHlo.TRef sig ⟨S_, .f32⟩) main_call13.v0 id,
    StableHlo.TRef.unary main_call13.v0 main_call13.v1 (broadcastInDim S1536 ![] bcast_S_S1536),
    StableHlo.TRef.binary main_call13.v1 (.of main_v51 : StableHlo.TRef sig ⟨S1536, .f32⟩) main_call13.v2 maximumf,
    StableHlo.unary main_v52 main_v53 (broadcastInDim S1536x1 ![0] bcast_S1536_S1536x1_0 : (⟨S1536, .f32⟩ : BufTy).Contents (Elt F) → (⟨S1536x1, .f32⟩ : BufTy).Contents (Elt F)),
    StableHlo.unary main_v53 main_v54 (broadcastInDim S1536x64 ![0, 1] bcast_S1536x1_S1536x64_0_1 : (⟨S1536x1, .f32⟩ : BufTy).Contents (Elt F) → (⟨S1536x64, .f32⟩ : BufTy).Contents (Elt F)),
    StableHlo.binary main_v47 main_v54 main_v55 (Host.divf : (⟨S1536x64, .f32⟩ : BufTy).Contents (Elt F) → (⟨S1536x64, .f32⟩ : BufTy).Contents (Elt F) → (⟨S1536x64, .f32⟩ : BufTy).Contents (Elt F)),
    StableHlo.binary main_v55 main_arg5 main_v56 ((fun l r => Host.dotGeneral dot_S1536x64_S64x64_S1536x64_1_0_0_1_n_n none l r) : (⟨S1536x64, .f32⟩ : BufTy).Contents (Elt F) → (⟨S64x64, .f32⟩ : BufTy).Contents (Elt F) → (⟨S1536x64, .f32⟩ : BufTy).Contents (Elt F)),
    StableHlo.unary main_arg6 main_v57 (broadcastInDim S1x64 ![1] bcast_S64_S1x64_1 : (⟨S64, .f32⟩ : BufTy).Contents (Elt F) → (⟨S1x64, .f32⟩ : BufTy).Contents (Elt F)),
    StableHlo.unary main_v57 main_v58 (broadcastInDim S1536x64 ![0, 1] bcast_S1x64_S1536x64_0_1 : (⟨S1x64, .f32⟩ : BufTy).Contents (Elt F) → (⟨S1536x64, .f32⟩ : BufTy).Contents (Elt F)),
    StableHlo.binary main_v56 main_v58 main_v59 (addf : (⟨S1536x64, .f32⟩ : BufTy).Contents (Elt F) → (⟨S1536x64, .f32⟩ : BufTy).Contents (Elt F) → (⟨S1536x64, .f32⟩ : BufTy).Contents (Elt F)),
    StableHlo.binary main_v43 main_arg7 main_v60 ((fun l r => Host.dotGeneral dot_S1536x64_S64x64_S1536x64_1_0_0_1_n_n none l r) : (⟨S1536x64, .f32⟩ : BufTy).Contents (Elt F) → (⟨S64x64, .f32⟩ : BufTy).Contents (Elt F) → (⟨S1536x64, .f32⟩ : BufTy).Contents (Elt F)),
    StableHlo.binary main_v59 main_v60 main_v61 (addf : (⟨S1536x64, .f32⟩ : BufTy).Contents (Elt F) → (⟨S1536x64, .f32⟩ : BufTy).Contents (Elt F) → (⟨S1536x64, .f32⟩ : BufTy).Contents (Elt F)) ]

set_option maxRecDepth 4096 in
theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub ..⟩

/-- 3 operations. -/
abbrev opsE : List (HloOp τ sig (Elt F)) :=
  [ StableHlo.TRef.nullary main_call14.cst (constant S_ .f32 0x00000000#32),
    StableHlo.TRef.unary main_call14.cst main_call14.v0 (broadcastInDim S1536x64 ![] bcast_S_S1536x64),
    StableHlo.TRef.binary (.of main_v61 : StableHlo.TRef sig ⟨S1536x64, .f32⟩) main_call14.v0 main_call14.v1 maximumf ]

set_option maxRecDepth 4096 in
theorem opsE_sub : (opsE : List (HloOp τ sig (Elt F))).Forall fun op => op.bufs ⊆ tcRefs τ sig :=
  ⟨nullary_bufs_sub .., unary_bufs_sub .., binary_bufs_sub ..⟩

/-- 46 operations. -/
abbrev opsG : List (HloOp τ sig (Elt F)) :=
  [ StableHlo.TRef.nullary main_call15.c (constantI S_ 32 0#32),
    StableHlo.TRef.unary main_call15.c main_call15.v0 (broadcastInDim S2359296 ![] bcast_S_S2359296),
    StableHlo.TRef.binary (.of main_v23 : StableHlo.TRef sig ⟨S2359296, .i32⟩) main_call15.v0 main_call15.v1 (cmpi .slt),
    StableHlo.TRef.nullary main_call15.c_0 (constantI S_ 32 1536#32),
    StableHlo.TRef.unary main_call15.c_0 main_call15.v2 (broadcastInDim S2359296 ![] bcast_S_S2359296),
    StableHlo.TRef.binary (.of main_v23 : StableHlo.TRef sig ⟨S2359296, .i32⟩) main_call15.v2 main_call15.v3 addi,
    StableHlo.TRef.ternary main_call15.v1 main_call15.v3 (.of main_v23 : StableHlo.TRef sig ⟨S2359296, .i32⟩) main_call15.call0.v0 select,
    StableHlo.TRef.unary main_call15.call0.v0 main_call15.v5 (broadcastInDim S2359296x1 ![0] bcast_S2359296_S2359296x1_0),
    StableHlo.TRef.nullary main_call15.c_1 (constantI S1 32 1535#32),
    StableHlo.TRef.nullary main_call15.c_2 (constantI S_ 32 0#32),
    StableHlo.TRef.unary main_call15.c_2 main_call15.v6 (broadcastInDim S2359296x1 ![] bcast_S_S2359296x1),
    StableHlo.TRef.binary main_call15.v5 main_call15.v6 main_call15.v7 (cmpi .sge),
    StableHlo.TRef.unary main_call15.c_1 main_call15.v8 (broadcastInDim S1x1 ![1] bcast_S1_S1x1_1),
    StableHlo.TRef.unary main_call15.v8 main_call15.v9 (broadcastInDim S2359296x1 ![0, 1] bcast_S1x1_S2359296x1_0_1),
    StableHlo.TRef.binary main_call15.v5 main_call15.v9 main_call15.v10 (cmpi .sle),
    StableHlo.TRef.binary main_call15.v7 main_call15.v10 main_call15.v11 andi,
    StableHlo.TRef.nullary main_call15.c_3 (constantI S_ 1 1#1),
    StableHlo.TRef.binary main_call15.v11 main_call15.c_3 main_call15.v12 (fun x v => Host.reduce IntOp.andi x v reducesTo_S2359296x1_S2359296_d1 h_S_),
    StableHlo.TRef.binary (.of main_v62 : StableHlo.TRef sig ⟨S1536x64, .f32⟩) main_call15.v5 main_call15.v13 (fun x i => Host.gather gather_S1536x64_S2359296x1_S2359296x64_1_0_n_n_0_1_164 x i),
    StableHlo.TRef.unary main_call15.v12 main_call15.v14 (broadcastInDim S2359296x64 ![0] bcast_S2359296_S2359296x64_0),
    StableHlo.TRef.nullary main_call15.cst (constant S_ .f32 0x7FC00000#32),
    StableHlo.TRef.unary main_call15.cst main_call15.v15 (broadcastInDim S2359296x64 ![] bcast_S_S2359296x64),
    StableHlo.TRef.ternary main_call15.v14 main_call15.v13 main_call15.v15 main_call15.v16 select,
    StableHlo.nullary main_cst_19 (constant S_ .f32 0x00000000#32),
    StableHlo.unary main_cst_19 main_v64 (broadcastInDim S1536x64 ![] bcast_S_S1536x64 : (⟨S_, .f32⟩ : BufTy).Contents (Elt F) → (⟨S1536x64, .f32⟩ : BufTy).Contents (Elt F)),
    StableHlo.unary main_v24 main_v65 (broadcastInDim S2359296x1 ![0] bcast_S2359296_S2359296x1_0 : (⟨S2359296, .i32⟩ : BufTy).Contents (Elt F) → (⟨S2359296x1, .i32⟩ : BufTy).Contents (Elt F)),
    StableHlo.ternary main_v64 main_v65 main_v63 main_v66 ((fun x i u => Host.scatterAdd scatter_S1536x64_S2359296x1_S2359296x64_1_0_0_1 x i u) : (⟨S1536x64, .f32⟩ : BufTy).Contents (Elt F) → (⟨S2359296x1, .i32⟩ : BufTy).Contents (Elt F) → (⟨S2359296x64, .f32⟩ : BufTy).Contents (Elt F) → (⟨S1536x64, .f32⟩ : BufTy).Contents (Elt F)),
    StableHlo.nullary main_cst_20 (constant S_ .f32 0x3F800000#32),
    StableHlo.unary main_cst_20 main_v67 (broadcastInDim S2359296 ![] bcast_S_S2359296 : (⟨S_, .f32⟩ : BufTy).Contents (Elt F) → (⟨S2359296, .f32⟩ : BufTy).Contents (Elt F)),
    StableHlo.nullary main_cst_21 (constant S_ .f32 0x00000000#32),
    StableHlo.unary main_cst_21 main_v68 (broadcastInDim S1536 ![] bcast_S_S1536 : (⟨S_, .f32⟩ : BufTy).Contents (Elt F) → (⟨S1536, .f32⟩ : BufTy).Contents (Elt F)),
    StableHlo.unary main_v24 main_v69 (broadcastInDim S2359296x1 ![0] bcast_S2359296_S2359296x1_0 : (⟨S2359296, .i32⟩ : BufTy).Contents (Elt F) → (⟨S2359296x1, .i32⟩ : BufTy).Contents (Elt F)),
    StableHlo.ternary main_v68 main_v69 main_v67 main_v70 ((fun x i u => Host.scatterAdd scatter_S1536_S2359296x1_S2359296_n_0_0_1 x i u) : (⟨S1536, .f32⟩ : BufTy).Contents (Elt F) → (⟨S2359296x1, .i32⟩ : BufTy).Contents (Elt F) → (⟨S2359296, .f32⟩ : BufTy).Contents (Elt F) → (⟨S1536, .f32⟩ : BufTy).Contents (Elt F)),
    StableHlo.nullary main_cst_22 (constant S_ .f32 0x3F800000#32),
    StableHlo.TRef.unary (.of main_cst_22 : StableHlo.TRef sig ⟨S_, .f32⟩) main_call16.v0 id,
    StableHlo.TRef.unary main_call16.v0 main_call16.v1 (broadcastInDim S1536 ![] bcast_S_S1536),
    StableHlo.TRef.binary main_call16.v1 (.of main_v70 : StableHlo.TRef sig ⟨S1536, .f32⟩) main_call16.v2 maximumf,
    StableHlo.unary main_v71 main_v72 (broadcastInDim S1536x1 ![0] bcast_S1536_S1536x1_0 : (⟨S1536, .f32⟩ : BufTy).Contents (Elt F) → (⟨S1536x1, .f32⟩ : BufTy).Contents (Elt F)),
    StableHlo.unary main_v72 main_v73 (broadcastInDim S1536x64 ![0, 1] bcast_S1536x1_S1536x64_0_1 : (⟨S1536x1, .f32⟩ : BufTy).Contents (Elt F) → (⟨S1536x64, .f32⟩ : BufTy).Contents (Elt F)),
    StableHlo.binary main_v66 main_v73 main_v74 (Host.divf : (⟨S1536x64, .f32⟩ : BufTy).Contents (Elt F) → (⟨S1536x64, .f32⟩ : BufTy).Contents (Elt F) → (⟨S1536x64, .f32⟩ : BufTy).Contents (Elt F)),
    StableHlo.binary main_v74 main_arg8 main_v75 ((fun l r => Host.dotGeneral dot_S1536x64_S64x64_S1536x64_1_0_0_1_n_n none l r) : (⟨S1536x64, .f32⟩ : BufTy).Contents (Elt F) → (⟨S64x64, .f32⟩ : BufTy).Contents (Elt F) → (⟨S1536x64, .f32⟩ : BufTy).Contents (Elt F)),
    StableHlo.unary main_arg9 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S1536x64 ![0, 1] bcast_S1x64_S1536x64_0_1 : (⟨S1x64, .f32⟩ : BufTy).Contents (Elt F) → (⟨S1536x64, .f32⟩ : BufTy).Contents (Elt F)),
    StableHlo.binary main_v75 main_v77 main_v78 (addf : (⟨S1536x64, .f32⟩ : BufTy).Contents (Elt F) → (⟨S1536x64, .f32⟩ : BufTy).Contents (Elt F) → (⟨S1536x64, .f32⟩ : BufTy).Contents (Elt F)),
    StableHlo.binary main_v62 main_arg10 main_v79 ((fun l r => Host.dotGeneral dot_S1536x64_S64x64_S1536x64_1_0_0_1_n_n none l r) : (⟨S1536x64, .f32⟩ : BufTy).Contents (Elt F) → (⟨S64x64, .f32⟩ : BufTy).Contents (Elt F) → (⟨S1536x64, .f32⟩ : BufTy).Contents (Elt F)),
    StableHlo.binary main_v78 main_v79 main_v80 (addf : (⟨S1536x64, .f32⟩ : BufTy).Contents (Elt F) → (⟨S1536x64, .f32⟩ : BufTy).Contents (Elt F) → (⟨S1536x64, .f32⟩ : BufTy).Contents (Elt F)) ]

set_option maxRecDepth 4096 in
theorem opsG_sub : (opsG : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub ..⟩

end Cert.ReferenceIdeal.RefRun

end
-- ==== Proof.RefRunBase.lean ====
/-
  What the reference program's run is assembled from: lists of operations run one after the other, a typed reference's
  transport there and back, the whole program's list as the concatenation of its nine parts, the argument references,
  and telling references apart by their indices.
-/
import proofs.«135375_g42752104464586_cont_sun_m_355_15_alg».proof.Proof.RefTerm
import proofs.«135375_g42752104464586_cont_sun_m_355_15_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Lists run one after the other -/

/-- The contents after two lists run one after the other: the second from the contents the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- A property of every entry of two lists is one of every entry of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- Contents moved to a typed reference's buffer type and back are the contents. -/
theorem ofBuf_toBuf {Val : EltTy → Type} {T : BufTy} (x : TRef sig T) (v : T.Contents Val) : x.ofBuf (x.toBuf v) = v := by
  obtain ⟨r, h, _, _⟩ := x
  subst h
  rfl

/-! ## The whole program's list -/

/-- The edge list's operations. -/
abbrev opsA : List (HloOp τ sig (Elt F)) := opsA1 ++ (opsA2 ++ (opsA3 ++ opsA4))
/-- The first window's operations: the edge list, then the first layer. -/
abbrev ops0 : List (HloOp τ sig (Elt F)) := opsA ++ opsB
/-- The second window's operations: rectifier, second layer, rectifier, third layer. -/
abbrev ops1 : List (HloOp τ sig (Elt F)) := opsC ++ (opsD ++ (opsE ++ opsG))
/-- The entry function's operations, in order. -/
abbrev ops : List (HloOp τ sig (Elt F)) := ops0 ++ ops1

/-- The program's eleven arguments. -/
def args : List (Ref sig .tc) :=
  [main_arg0, main_arg1, main_arg2, main_arg3, main_arg4, main_arg5, main_arg6, main_arg7, main_arg8, main_arg9, main_arg10]

/-! ## Telling references apart -/

/-- A reference's index in its memory space. -/
def key (r : Ref sig .tc) : Nat := r.idx.val

/-- References with different indices are different. -/
theorem ne_of_key {r y : Ref sig .tc} (h : key r ≠ key y) : r ≠ y := fun e => h (congrArg key e)

/-- A reference whose index is in a list, the index of the one an operation writes not: it is not among those the
    operation writes. -/
theorem nw {op : HloOp τ sig (Elt F)} {r y : Ref sig .tc} {K : List Nat} (hr : key r ∈ K)
    (h : op.writes = {Proc.devRef .tc y}) (hy : key y ∉ K) : Proc.devRef .tc r ∉ op.writes := by
  rw [h]
  exact fun e => hy (Proc.devRef_injective _ (Finset.mem_singleton.mp e) ▸ hr)

/-- A property of a list's head and of every entry of its tail is one of every entry. -/
theorem forall_cons' {α : Type} {p : α → Prop} {a : α} {l : List α} (h₁ : p a) (h₂ : l.Forall p) :
    (a :: l).Forall p :=
  (List.forall_cons p a l).mpr ⟨h₁, h₂⟩

/-- The fold at a reference, by one pass: unrolled, each operation's result rewritten at the reference it writes to its
    value and at any other reference to what was there, the references told apart by their indices. -/
macro "results_simp" : tactic =>
  `(tactic| simp (disch := exact ne_of_key (by decide)) only [after_cons, after_nil,
      nullary_result', unary_result', binary_result', ternary_result', reshape_result',
      nullary_result_ne', unary_result_ne', binary_result_ne', ternary_result_ne', reshape_result_ne'])

end Cert.ReferenceIdeal.RefRun

end
-- ==== Proof.RefRunA.lean ====
/-
  The edge list's part of the reference program's run: what the first four lists of operations leave at the two
  edge arrays (the sources and the destinations of the nonzero entries of the adjacency matrix), and that they write no
  argument.
-/
import proofs.«135375_g42752104464586_cont_sun_m_355_15_alg».proof.Proof.RefRunBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Which list positions are from the number of nonzero entries on, from the nonzero mask. -/
def fillOf (mask : IVec S1536x1536 1) : IVec S2359296 1 :=
  cmpi .sge (iotaInDim S2359296 32 0)
    (RefTerm.bcS (Host.reduce IntOp.addi (extui 32 mask natLt_1_32) (constantI S_ 32 0#32) reducesTo_S1536x1536_S_d0_1 h_S_))

/-! ## What each part leaves alone

Each operation writes one reference; a reference whose index is none of those a list's operations write keeps its
contents through the list. -/

/-- The first part (through the flat positions) writes no argument. -/
theorem frameA1 (W : Valuation τ sig (Elt F)) {r : Ref sig .tc} (hr : r ∈ args) :
    after opsA1 W (Proc.devRef .tc r) = W (Proc.devRef .tc r) := by
  have hk : key r ∈ (args).map key := List.mem_map_of_mem hr
  refine after_of_forall_not_mem _ _ (List.forall_iff_forall_mem.mp ?_)
  delta opsA1
  repeat (refine forall_cons' (nw hk rfl (by decide +kernel)) ?_)
  exact trivial

/-- The second part (the rows) writes neither the mask, nor the flat positions, nor an argument. -/
theorem frameA2 (W : Valuation τ sig (Elt F)) {r : Ref sig .tc} (hr : r ∈ main_v1 :: main_v13 :: args) :
    after opsA2 W (Proc.devRef .tc r) = W (Proc.devRef .tc r) := by
  have hk : key r ∈ (main_v1 :: main_v13 :: args).map key := List.mem_map_of_mem hr
  refine after_of_forall_not_mem _ _ (List.forall_iff_forall_mem.mp ?_)
  delta opsA2
  repeat (refine forall_cons' (nw hk rfl (by decide +kernel)) ?_)
  exact trivial

/-- The third part (the columns) writes neither the mask, nor the rows, nor an argument. -/
theorem frameA3 (W : Valuation τ sig (Elt F)) {r : Ref sig .tc} (hr : r ∈ main_v1 :: main_v15 :: args) :
    after opsA3 W (Proc.devRef .tc r) = W (Proc.devRef .tc r) := by
  have hk : key r ∈ (main_v1 :: main_v15 :: args).map key := List.mem_map_of_mem hr
  refine after_of_forall_not_mem _ _ (List.forall_iff_forall_mem.mp ?_)
  delta opsA3
  repeat (refine forall_cons' (nw hk rfl (by decide +kernel)) ?_)
  exact trivial

/-- The fourth part (the two fills) writes no argument. -/
theorem frameA4 (W : Valuation τ sig (Elt F)) {r : Ref sig .tc} (hr : r ∈ args) :
    after opsA4 W (Proc.devRef .tc r) = W (Proc.devRef .tc r) := by
  have hk : key r ∈ (args).map key := List.mem_map_of_mem hr
  refine after_of_forall_not_mem _ _ (List.forall_iff_forall_mem.mp ?_)
  delta opsA4
  repeat (refine forall_cons' (nw hk rfl (by decide +kernel)) ?_)
  exact trivial

/-! ## What each part leaves

Each statement below is read off the list: the fold is unrolled and every operation's result rewritten at the reference
it writes (its value) and at every other reference (what was there); a typed reference's transport there and back
cancels, and the transports left — along an equation between a reference's literal type and itself — are the identity;
what remains is the term, by unfolding its definitions. The folds and searches are kept closed meanwhile. -/

attribute [local irreducible] Host.reduce Host.gather Host.scatter Host.scatterAdd Host.reduceWindow Host.divf Host.divsi Host.remsi broadcastInDim constant constantI select andi cmpi cmpf signi subi addi extui shapeCast maxsi iotaInDim maximumf addf in
set_option maxRecDepth 8192 in
/-- The first part leaves the flat positions of the adjacency matrix. -/
theorem A1_v13 (W : Valuation τ sig (Elt F)) :
    after opsA1 W (main_v13 : DevRef τ sig)
      = RefTerm.flat (W (main_arg1 : DevRef τ sig)) := by
  unfold opsA1
  results_simp
  try simp only [ofBuf_toBuf]
  try simp only [TRef.ofBuf, TRef.toBuf]
  repeat erw [cast_eq]
  rfl

attribute [local irreducible] Host.reduce Host.gather Host.scatter Host.scatterAdd Host.reduceWindow Host.divf Host.divsi Host.remsi broadcastInDim constant constantI select andi cmpi cmpf signi subi addi extui shapeCast maxsi iotaInDim maximumf addf in
set_option maxRecDepth 8192 in
/-- The first part leaves the nonzero mask of the adjacency matrix. -/
theorem A1_v1 (W : Valuation τ sig (Elt F)) :
    after opsA1 W (main_v1 : DevRef τ sig)
      = RefTerm.mask2 (W (main_arg1 : DevRef τ sig)) := by
  unfold opsA1
  results_simp
  try simp only [ofBuf_toBuf]
  try simp only [TRef.ofBuf, TRef.toBuf]
  repeat erw [cast_eq]
  rfl

attribute [local irreducible] Host.reduce Host.gather Host.scatter Host.scatterAdd Host.reduceWindow Host.divf Host.divsi Host.remsi broadcastInDim constant constantI select andi cmpi cmpf signi subi addi extui shapeCast maxsi iotaInDim maximumf addf in
set_option maxRecDepth 8192 in
/-- The second part leaves the rows of the flat positions. -/
theorem A2_v15 (W : Valuation τ sig (Elt F)) :
    after opsA2 W (main_v15 : DevRef τ sig)
      = RefTerm.remE (RefTerm.floorDivE (W (main_v13 : DevRef τ sig)) 1536#32) 1536#32 := by
  unfold opsA2
  results_simp
  try simp only [ofBuf_toBuf]
  try simp only [TRef.ofBuf, TRef.toBuf]
  repeat erw [cast_eq]
  rfl

attribute [local irreducible] Host.reduce Host.gather Host.scatter Host.scatterAdd Host.reduceWindow Host.divf Host.divsi Host.remsi broadcastInDim constant constantI select andi cmpi cmpf signi subi addi extui shapeCast maxsi iotaInDim maximumf addf in
set_option maxRecDepth 8192 in
/-- The third part leaves the columns of the flat positions. -/
theorem A3_v17 (W : Valuation τ sig (Elt F)) :
    after opsA3 W (main_v17 : DevRef τ sig)
      = RefTerm.remE (RefTerm.floorDivE (W (main_v13 : DevRef τ sig)) 1#32) 1536#32 := by
  unfold opsA3
  results_simp
  try simp only [ofBuf_toBuf]
  try simp only [TRef.ofBuf, TRef.toBuf]
  repeat erw [cast_eq]
  rfl

attribute [local irreducible] Host.reduce Host.gather Host.scatter Host.scatterAdd Host.reduceWindow Host.divf Host.divsi Host.remsi broadcastInDim constant constantI select andi cmpi cmpf signi subi addi extui shapeCast maxsi iotaInDim maximumf addf in
set_option maxRecDepth 8192 in
/-- The fourth part leaves the rows, filled from the number of nonzero entries on. -/
theorem A4_v23 (W : Valuation τ sig (Elt F)) :
    after opsA4 W (main_v23 : DevRef τ sig)
      = select (fillOf (W (main_v1 : DevRef τ sig))) (RefTerm.bcS (id (constantI S_ 32 1536#32))) (W (main_v15 : DevRef τ sig)) := by
  unfold opsA4
  results_simp
  try simp only [ofBuf_toBuf]
  try simp only [TRef.ofBuf, TRef.toBuf]
  repeat erw [cast_eq]
  rfl

attribute [local irreducible] Host.reduce Host.gather Host.scatter Host.scatterAdd Host.reduceWindow Host.divf Host.divsi Host.remsi broadcastInDim constant constantI select andi cmpi cmpf signi subi addi extui shapeCast maxsi iotaInDim maximumf addf in
set_option maxRecDepth 8192 in
/-- The fourth part leaves the columns, filled likewise. -/
theorem A4_v24 (W : Valuation τ sig (Elt F)) :
    after opsA4 W (main_v24 : DevRef τ sig)
      = select (fillOf (W (main_v1 : DevRef τ sig))) (RefTerm.bcS (id (constantI S_ 32 1536#32))) (W (main_v17 : DevRef τ sig)) := by
  unfold opsA4
  results_simp
  try simp only [ofBuf_toBuf]
  try simp only [TRef.ofBuf, TRef.toBuf]
  repeat erw [cast_eq]
  rfl

/-! ## The edge list -/

/-- The four parts in order leave the edges' sources. -/
theorem A_v23 (V : Valuation τ sig (Elt F)) :
    after opsA V (main_v23 : DevRef τ sig) = RefTerm.nzSrc (V (main_arg1 : DevRef τ sig)) := by
  show after (opsA1 ++ (opsA2 ++ (opsA3 ++ opsA4))) V _ = _
  rw [after_append, after_append, after_append, A4_v23, frameA3 _ (r := main_v1) (by decide), frameA2 _ (r := main_v1) (by decide),
    A1_v1, frameA3 _ (r := main_v15) (by decide), A2_v15, A1_v13]
  rfl

/-- The four parts in order leave the edges' destinations. -/
theorem A_v24 (V : Valuation τ sig (Elt F)) :
    after opsA V (main_v24 : DevRef τ sig) = RefTerm.nzDst (V (main_arg1 : DevRef τ sig)) := by
  show after (opsA1 ++ (opsA2 ++ (opsA3 ++ opsA4))) V _ = _
  rw [after_append, after_append, after_append, A4_v24, frameA3 _ (r := main_v1) (by decide), frameA2 _ (r := main_v1) (by decide),
    A1_v1, A3_v17, frameA2 _ (r := main_v13) (by decide), A1_v13]
  rfl

/-- The four parts write no argument. -/
theorem frameA (V : Valuation τ sig (Elt F)) {r : Ref sig .tc} (hr : r ∈ args) :
    after opsA V (Proc.devRef .tc r) = V (Proc.devRef .tc r) := by
  show after (opsA1 ++ (opsA2 ++ (opsA3 ++ opsA4))) V _ = _
  rw [after_append, after_append, after_append, frameA4 _ hr,
    frameA3 _ (List.mem_cons_of_mem _ (List.mem_cons_of_mem _ hr)),
    frameA2 _ (List.mem_cons_of_mem _ (List.mem_cons_of_mem _ hr)), frameA1 _ hr]

end Cert.ReferenceIdeal.RefRun

end
-- ==== Proof.RefRunB.lean ====
/-
  The layers' part of the reference program's run: what each of the last five lists of operations (layer, rectifier,
  layer, rectifier, layer) leaves at its result, from the contents it starts from, and that none writes an edge array
  or an argument.
-/
import proofs.«135375_g42752104464586_cont_sun_m_355_15_alg».proof.Proof.RefRunBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## What each part leaves alone

Each operation writes one reference; a reference whose index is none of those a list's operations write keeps its
contents through the list. -/

/-- The first layer writes neither edge array nor an argument. -/
theorem frameB (W : Valuation τ sig (Elt F)) {r : Ref sig .tc} (hr : r ∈ main_v23 :: main_v24 :: args) :
    after opsB W (Proc.devRef .tc r) = W (Proc.devRef .tc r) := by
  have hk : key r ∈ (main_v23 :: main_v24 :: args).map key := List.mem_map_of_mem hr
  refine after_of_forall_not_mem _ _ (List.forall_iff_forall_mem.mp ?_)
  delta opsB
  repeat (refine forall_cons' (nw hk rfl (by decide +kernel)) ?_)
  exact trivial

/-- The first rectifier writes neither edge array nor an argument. -/
theorem frameC (W : Valuation τ sig (Elt F)) {r : Ref sig .tc} (hr : r ∈ main_v23 :: main_v24 :: args) :
    after opsC W (Proc.devRef .tc r) = W (Proc.devRef .tc r) := by
  have hk : key r ∈ (main_v23 :: main_v24 :: args).map key := List.mem_map_of_mem hr
  refine after_of_forall_not_mem _ _ (List.forall_iff_forall_mem.mp ?_)
  delta opsC
  repeat (refine forall_cons' (nw hk rfl (by decide +kernel)) ?_)
  exact trivial

/-- The second layer writes neither edge array nor an argument. -/
theorem frameD (W : Valuation τ sig (Elt F)) {r : Ref sig .tc} (hr : r ∈ main_v23 :: main_v24 :: args) :
    after opsD W (Proc.devRef .tc r) = W (Proc.devRef .tc r) := by
  have hk : key r ∈ (main_v23 :: main_v24 :: args).map key := List.mem_map_of_mem hr
  refine after_of_forall_not_mem _ _ (List.forall_iff_forall_mem.mp ?_)
  delta opsD
  repeat (refine forall_cons' (nw hk rfl (by decide +kernel)) ?_)
  exact trivial

/-- The second rectifier writes neither edge array nor an argument. -/
theorem frameE (W : Valuation τ sig (Elt F)) {r : Ref sig .tc} (hr : r ∈ main_v23 :: main_v24 :: args) :
    after opsE W (Proc.devRef .tc r) = W (Proc.devRef .tc r) := by
  have hk : key r ∈ (main_v23 :: main_v24 :: args).map key := List.mem_map_of_mem hr
  refine after_of_forall_not_mem _ _ (List.forall_iff_forall_mem.mp ?_)
  delta opsE
  repeat (refine forall_cons' (nw hk rfl (by decide +kernel)) ?_)
  exact trivial

/-- The third layer writes neither edge array nor an argument. -/
theorem frameG (W : Valuation τ sig (Elt F)) {r : Ref sig .tc} (hr : r ∈ main_v23 :: main_v24 :: args) :
    after opsG W (Proc.devRef .tc r) = W (Proc.devRef .tc r) := by
  have hk : key r ∈ (main_v23 :: main_v24 :: args).map key := List.mem_map_of_mem hr
  refine after_of_forall_not_mem _ _ (List.forall_iff_forall_mem.mp ?_)
  delta opsG
  repeat (refine forall_cons' (nw hk rfl (by decide +kernel)) ?_)
  exact trivial

/-! ## What each part leaves

Each statement below is read off the list: the fold is unrolled and every operation's result rewritten at the reference
it writes (its value) and at every other reference (what was there); a typed reference's transport there and back
cancels, and the transports left — along an equation between a reference's literal type and itself — are the identity;
what remains is the term, by unfolding its definitions. The folds and searches are kept closed meanwhile. -/

attribute [local irreducible] Host.reduce Host.gather Host.scatter Host.scatterAdd Host.reduceWindow Host.divf Host.divsi Host.remsi broadcastInDim constant constantI select andi cmpi cmpf signi subi addi extui shapeCast maxsi iotaInDim maximumf addf in
set_option maxRecDepth 8192 in
/-- The first layer's list leaves the layer of the features over the edge arrays. -/
theorem B_v42 (W : Valuation τ sig (Elt F)) :
    after opsB W (main_v42 : DevRef τ sig)
      = RefTerm.refLayer (W (main_arg0 : DevRef τ sig)) (W (main_v23 : DevRef τ sig)) (W (main_v24 : DevRef τ sig))
          (W (main_arg2 : DevRef τ sig)) (W (main_arg3 : DevRef τ sig)) (W (main_arg4 : DevRef τ sig)) := by
  unfold opsB
  results_simp
  try simp only [ofBuf_toBuf]
  try simp only [TRef.ofBuf, TRef.toBuf]
  repeat erw [cast_eq]
  rfl

attribute [local irreducible] Host.reduce Host.gather Host.scatter Host.scatterAdd Host.reduceWindow Host.divf Host.divsi Host.remsi broadcastInDim constant constantI select andi cmpi cmpf signi subi addi extui shapeCast maxsi iotaInDim maximumf addf in
set_option maxRecDepth 8192 in
/-- The first rectifier's list leaves the rectifier of the first layer. -/
theorem C_v43 (W : Valuation τ sig (Elt F)) :
    after opsC W (main_v43 : DevRef τ sig)
      = RefTerm.refRelu (W (main_v42 : DevRef τ sig)) := by
  unfold opsC
  results_simp
  try simp only [ofBuf_toBuf]
  try simp only [TRef.ofBuf, TRef.toBuf]
  repeat erw [cast_eq]
  rfl

attribute [local irreducible] Host.reduce Host.gather Host.scatter Host.scatterAdd Host.reduceWindow Host.divf Host.divsi Host.remsi broadcastInDim constant constantI select andi cmpi cmpf signi subi addi extui shapeCast maxsi iotaInDim maximumf addf in
set_option maxRecDepth 8192 in
/-- The second layer's list leaves the layer of the rectified first layer. -/
theorem D_v61 (W : Valuation τ sig (Elt F)) :
    after opsD W (main_v61 : DevRef τ sig)
      = RefTerm.refLayer (W (main_v43 : DevRef τ sig)) (W (main_v23 : DevRef τ sig)) (W (main_v24 : DevRef τ sig))
          (W (main_arg5 : DevRef τ sig)) (W (main_arg6 : DevRef τ sig)) (W (main_arg7 : DevRef τ sig)) := by
  unfold opsD
  results_simp
  try simp only [ofBuf_toBuf]
  try simp only [TRef.ofBuf, TRef.toBuf]
  repeat erw [cast_eq]
  rfl

attribute [local irreducible] Host.reduce Host.gather Host.scatter Host.scatterAdd Host.reduceWindow Host.divf Host.divsi Host.remsi broadcastInDim constant constantI select andi cmpi cmpf signi subi addi extui shapeCast maxsi iotaInDim maximumf addf in
set_option maxRecDepth 8192 in
/-- The second rectifier's list leaves the rectifier of the second layer. -/
theorem E_v62 (W : Valuation τ sig (Elt F)) :
    after opsE W (main_v62 : DevRef τ sig)
      = RefTerm.refRelu (W (main_v61 : DevRef τ sig)) := by
  unfold opsE
  results_simp
  try simp only [ofBuf_toBuf]
  try simp only [TRef.ofBuf, TRef.toBuf]
  repeat erw [cast_eq]
  rfl

attribute [local irreducible] Host.reduce Host.gather Host.scatter Host.scatterAdd Host.reduceWindow Host.divf Host.divsi Host.remsi broadcastInDim constant constantI select andi cmpi cmpf signi subi addi extui shapeCast maxsi iotaInDim maximumf addf in
set_option maxRecDepth 8192 in
/-- The third layer's list leaves the layer of the rectified second layer. -/
theorem G_v80 (W : Valuation τ sig (Elt F)) :
    after opsG W (main_v80 : DevRef τ sig)
      = RefTerm.refLayer (W (main_v62 : DevRef τ sig)) (W (main_v23 : DevRef τ sig)) (W (main_v24 : DevRef τ sig))
          (W (main_arg8 : DevRef τ sig)) (W (main_arg9 : DevRef τ sig)) (W (main_arg10 : DevRef τ sig)) := by
  unfold opsG
  results_simp
  try simp only [ofBuf_toBuf]
  try simp only [TRef.ofBuf, TRef.toBuf]
  repeat erw [cast_eq]
  rfl

end Cert.ReferenceIdeal.RefRun

end
-- ==== Proof.RefRunM.lean ====
/-
  The reference program's entry function is the list of its operations run in order, and what that gives: every
  weakly fair execution terminates with each buffer at the list's fold over the launch contents.
-/
import proofs.«135375_g42752104464586_cont_sun_m_355_15_alg».proof.Proof.RefRunBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The entry function is its list run in order -/

set_option maxRecDepth 16384 in
set_option maxHeartbeats 4000000 in
/-- The first window is its operations in order: the called functions' definitions unfolded at their calls, both sides
    are one chain of steps once sequencing is reassociated. -/
theorem part0_eq (c : Dev nD) : main_part0 (F := F) c = seq ops0 := by
  simp only [main_part0, fn_cumsum.body, fn_cumsum_0.body, fn_clip.body, fn_cumsum_1.body, fn_where.body, fn_floor_divide.body, fn_where_2.body,
    fn_remainder.body, fn_where_3.body, fn_take.body, fn_clip_4.body,
    ops0, opsA, opsA1, opsA2, opsA3, opsA4, opsB, List.cons_append, List.nil_append, seq, bind_assoc, pure_bind]
  rfl

set_option maxRecDepth 16384 in
set_option maxHeartbeats 4000000 in
/-- The second window likewise. -/
theorem part1_eq (c : Dev nD) : main_part1 (F := F) c = seq ops1 := by
  simp only [main_part1, fn_relu.body, fn_take_5.body, fn_where.body, fn_clip_4.body,
    ops1, opsC, opsD, opsE, opsG, List.cons_append, List.nil_append, seq, bind_assoc, pure_bind]

/-- The entry function runs the two windows in order. -/
theorem main_eq (c : Dev nD) : main (F := F) c = seq ops := by
  show main_part0 c >>= (fun _ => main_part1 c) = seq (ops0 ++ ops1)
  rw [seq_append, part0_eq, part1_eq]

/-! ## The run's side conditions -/

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  forall_append
    (forall_append (forall_append opsA1_sub (forall_append opsA2_sub (forall_append opsA3_sub opsA4_sub))) opsB_sub)
    (forall_append opsC_sub (forall_append opsD_sub (forall_append opsE_sub opsG_sub)))

theorem opsA1_fresh : (opsA1 : List (HloOp τ sig (Elt F))).Forall fun op => op.fresh = ∅ := by
  simp only [opsA1, List.Forall]
  repeat' apply And.intro
  all_goals rfl

theorem opsA2_fresh : (opsA2 : List (HloOp τ sig (Elt F))).Forall fun op => op.fresh = ∅ := by
  simp only [opsA2, List.Forall]
  repeat' apply And.intro
  all_goals rfl

theorem opsA3_fresh : (opsA3 : List (HloOp τ sig (Elt F))).Forall fun op => op.fresh = ∅ := by
  simp only [opsA3, List.Forall]
  repeat' apply And.intro
  all_goals rfl

theorem opsA4_fresh : (opsA4 : List (HloOp τ sig (Elt F))).Forall fun op => op.fresh = ∅ := by
  simp only [opsA4, List.Forall]
  repeat' apply And.intro
  all_goals rfl

theorem opsB_fresh : (opsB : List (HloOp τ sig (Elt F))).Forall fun op => op.fresh = ∅ := by
  simp only [opsB, List.Forall]
  repeat' apply And.intro
  all_goals rfl

theorem opsC_fresh : (opsC : List (HloOp τ sig (Elt F))).Forall fun op => op.fresh = ∅ := by
  simp only [opsC, List.Forall]
  repeat' apply And.intro
  all_goals rfl

theorem opsD_fresh : (opsD : List (HloOp τ sig (Elt F))).Forall fun op => op.fresh = ∅ := by
  simp only [opsD, List.Forall]
  repeat' apply And.intro
  all_goals rfl

theorem opsE_fresh : (opsE : List (HloOp τ sig (Elt F))).Forall fun op => op.fresh = ∅ := by
  simp only [opsE, List.Forall]
  repeat' apply And.intro
  all_goals rfl

theorem opsG_fresh : (opsG : List (HloOp τ sig (Elt F))).Forall fun op => op.fresh = ∅ := by
  simp only [opsG, List.Forall]
  repeat' apply And.intro
  all_goals rfl

/-- No operation allocates: each determines its results. -/
theorem ops_fresh : (ops : List (HloOp τ sig (Elt F))).Forall fun op => op.fresh = ∅ :=
  forall_append
    (forall_append (forall_append opsA1_fresh (forall_append opsA2_fresh (forall_append opsA3_fresh opsA4_fresh))) opsB_fresh)
    (forall_append opsC_fresh (forall_append opsD_fresh (forall_append opsE_fresh opsG_fresh)))

/-- On every device, for any float values, from any memory with zero counters: every weakly fair execution of the entry
    function terminates, and every final state has each TensorCore buffer at the list's fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ op h => List.forall_iff_forall_mem.mp ops_fresh op h)

end Cert.ReferenceIdeal.RefRun

end
-- ==== Proof.RefRun.lean ====
/-
  The reference program's run: every weakly fair execution ends with the result buffer at the program's term of the
  argument arrays, and the arguments unchanged.
-/
import proofs.«135375_g42752104464586_cont_sun_m_355_15_alg».proof.Proof.RefTerm
import proofs.«135375_g42752104464586_cont_sun_m_355_15_alg».proof.Proof.RefRunA
import proofs.«135375_g42752104464586_cont_sun_m_355_15_alg».proof.Proof.RefRunB
import proofs.«135375_g42752104464586_cont_sun_m_355_15_alg».proof.Proof.RefRunM
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The whole list -/

/-- An argument is among the references the layers leave alone. -/
theorem keep_of_args {r : Ref sig .tc} (hr : r ∈ args) : r ∈ main_v23 :: main_v24 :: args :=
  List.mem_cons_of_mem _ (List.mem_cons_of_mem _ hr)

/-- The contents after the whole list: the nine parts' one after the other. -/
theorem after_ops (V : Valuation τ sig (Elt F)) :
    after ops V = after opsG (after opsE (after opsD (after opsC (after opsB (after opsA V))))) := by
  show after ((opsA ++ opsB) ++ (opsC ++ (opsD ++ (opsE ++ opsG)))) V = _
  rw [after_append (opsA ++ opsB), after_append opsA opsB, after_append opsC, after_append opsD, after_append opsE]

/-- The whole list leaves the program's term at the result: the third layer of the rectified second layer of the
    rectified first layer, each over the edge arrays the first four parts leave, the layers' lists leaving the edge arrays
    and the arguments as they find them. -/
theorem out_eq (V : Valuation τ sig (Elt F)) :
    after ops V (main_v80 : DevRef τ sig)
      = RefTerm.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [after_ops, G_v80, E_v62, D_v61,
    frameE _ (r := main_v23) (by decide), frameE _ (r := main_v24) (by decide), frameE _ (r := main_arg8) (by decide),
    frameE _ (r := main_arg9) (by decide), frameE _ (r := main_arg10) (by decide),
    frameD _ (r := main_v23) (by decide), frameD _ (r := main_v24) (by decide), frameD _ (r := main_arg8) (by decide),
    frameD _ (r := main_arg9) (by decide), frameD _ (r := main_arg10) (by decide),
    C_v43, B_v42,
    frameC _ (r := main_v23) (by decide), frameC _ (r := main_v24) (by decide), frameC _ (r := main_arg5) (by decide),
    frameC _ (r := main_arg6) (by decide), frameC _ (r := main_arg7) (by decide), frameC _ (r := main_arg8) (by decide),
    frameC _ (r := main_arg9) (by decide), frameC _ (r := main_arg10) (by decide),
    frameB _ (r := main_v23) (by decide), frameB _ (r := main_v24) (by decide), frameB _ (r := main_arg5) (by decide),
    frameB _ (r := main_arg6) (by decide), frameB _ (r := main_arg7) (by decide), frameB _ (r := main_arg8) (by decide),
    frameB _ (r := main_arg9) (by decide), frameB _ (r := main_arg10) (by decide),
    A_v23, A_v24,
    frameA _ (r := main_arg0) (by decide), frameA _ (r := main_arg2) (by decide), frameA _ (r := main_arg3) (by decide),
    frameA _ (r := main_arg4) (by decide), frameA _ (r := main_arg5) (by decide), frameA _ (r := main_arg6) (by decide),
    frameA _ (r := main_arg7) (by decide), frameA _ (r := main_arg8) (by decide), frameA _ (r := main_arg9) (by decide),
    frameA _ (r := main_arg10) (by decide)]
  rfl

/-- The whole list writes no argument. -/
theorem arg_eq (V : Valuation τ sig (Elt F)) {r : Ref sig .tc} (hr : r ∈ args) :
    after ops V (Proc.devRef .tc r) = V (Proc.devRef .tc r) := by
  rw [after_ops, frameG _ (keep_of_args hr), frameE _ (keep_of_args hr), frameD _ (keep_of_args hr),
    frameC _ (keep_of_args hr), frameB _ (keep_of_args hr), frameA _ hr]

/-! ## The run -/

/-- On every device, for any float values, from any memory with zero counters: every weakly fair execution of the entry
    function terminates with the result at the program's term of the arguments' launch contents, and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread Cert.ReferenceIdeal.nD Cert.ReferenceIdeal.τ).loc Cert.ReferenceIdeal.main_v80)
        = RefTerm.refOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10) :=
  (θ_run (defs (F := F)) _ _).mono
    (fun _ h c => ⟨(h c main_v80).trans (out_eq _),
      (h c main_arg0).trans (arg_eq _ (by decide)),
      (h c main_arg1).trans (arg_eq _ (by decide)),
      (h c main_arg2).trans (arg_eq _ (by decide)),
      (h c main_arg3).trans (arg_eq _ (by decide)),
      (h c main_arg4).trans (arg_eq _ (by decide)),
      (h c main_arg5).trans (arg_eq _ (by decide)),
      (h c main_arg6).trans (arg_eq _ (by decide)),
      (h c main_arg7).trans (arg_eq _ (by decide)),
      (h c main_arg8).trans (arg_eq _ (by decide)),
      (h c main_arg9).trans (arg_eq _ (by decide)),
      (h c main_arg10).trans (arg_eq _ (by decide))⟩)
    (run_main m ρ)

end Cert.ReferenceIdeal.RefRun

end
-- ==== Proof.Edges.lean ====
/-
  What it means for two lists of words to enumerate the pairs at which a relation on nodes holds, padded with the
  out-of-range node 1536: summing any function of the in-range pairs along the lists is summing it over the relation.
-/
import proofs.«135375_g42752104464586_cont_sun_m_355_15_alg».proof.Proof.RefTerm
import Idealize.ShloMosaic.PureOps.Ideal

noncomputable section

namespace Cert.ReferenceIdeal.Edges

open Cert.ReferenceIdeal Idealize.ShloMosaic

/-- `src`, `dst` list, in some order and each once, the pairs `(j, i)` at which `A` holds; every other position of
    the two lists holds the out-of-range node 1536 in `dst`. -/
structure IsEdgeList (A : Fin 1536 → Fin 1536 → Prop) [∀ j i, Decidable (A j i)] (src dst : IVec S2359296 32) : Prop where
  src_le : ∀ e, (src e).toNat ≤ 1536
  dst_le : ∀ e, (dst e).toNat ≤ 1536
  src_lt_of_dst_lt : ∀ e, (dst e).toNat < 1536 → (src e).toNat < 1536
  sum_eq : ∀ φ : ℕ → ℕ → EReal,
    (∑ e : S2359296.Idx, if (dst e).toNat < 1536 then φ (src e).toNat (dst e).toNat else 0)
      = ∑ j : Fin 1536, ∑ i : Fin 1536, if A j i then φ j.val i.val else 0

end Cert.ReferenceIdeal.Edges

end
-- ==== Proof.HostRead.lean ====
/-
  The host's integer folds read at an index, as natural numbers modulo 2³²: the running sum along the edge list, the
  accumulating integer scatter along it, and where an update of each of the program's three scatters lands.

  Each fact is first proved for an arbitrary length — a fold of word addition along any list, a window of the whole
  length padded all but one low, a scatter with one index word per update — and then read at this program's lengths.
-/
import proofs.«135375_g42752104464586_cont_sun_m_355_15_alg».proof.Proof.RefTerm
import Idealize.ShloMosaic.Lib.ValueIdx

noncomputable section

namespace Cert.ReferenceIdeal.HostRead

open Cert.ReferenceIdeal Cert.ReferenceIdeal.Gen Idealize.ShloMosaic Idealize.ShloMosaic.ValueIdx

/-! ## Folds of word addition, as natural numbers -/

/-- A left fold of word addition, read as a natural number: the start plus the summands, modulo 2³². -/
theorem foldl_addi_toNat {ι : Type} (l : List ι) (g : ι → BitVec 32) (v : BitVec 32) :
    (l.foldl (fun r n => IntOp.addi r (g n)) v).toNat = (v.toNat + (l.map fun n => (g n).toNat).sum) % 2 ^ 32 := by
  induction l generalizing v with
  | nil => simp [Nat.mod_eq_of_lt v.isLt]
  | cons a l ih =>
    rw [List.foldl_cons, ih, List.map_cons, List.sum_cons]
    show ((v + g a).toNat + _) % 2 ^ 32 = _
    rw [BitVec.toNat_add]
    omega

/-- A sum along `List.finRange` is the sum over `Fin n`. -/
theorem sum_map_finRange (n : Nat) (f : Fin n → Nat) : ((List.finRange n).map f).sum = ∑ i : Fin n, f i := by
  rw [Fin.sum_univ_def]

/-- The indices of a rank-1 shape are its coordinates. -/
def idxE1 (n : Nat) : Fin n ≃ (⟨1, ![n]⟩ : Shape).Idx where
  toFun := ix1
  invFun i := i 0
  left_inv _ := rfl
  right_inv i := (eq_ix1 i).symm

/-- A sum over row-major positions of a rank-1 shape is the sum over its coordinates. -/
theorem sum_rowMajor1 (n : Nat) (G : (⟨1, ![n]⟩ : Shape).Idx → Nat) :
    (∑ m : Fin (⟨1, ![n]⟩ : Shape).numel, G ((⟨1, ![n]⟩ : Shape).rowMajor.symm m)) = ∑ q : Fin n, G (ix1 q) := by
  rw [Equiv.sum_comp (⟨1, ![n]⟩ : Shape).rowMajor.symm G]
  exact (Equiv.sum_comp (idxE1 n) G).symm

/-! ## The running sum -/

/-- Window position `q` at output `p` of a window of the whole length padded `L = N - 1` low reads operand position
    `p + q - L` when that is not negative; the positions that read padding are sent past `p`. A rotation of `Fin N`. -/
def windowRot {N L : Nat} (hL : L + 1 = N) (p : Fin N) : Fin N ≃ Fin N where
  toFun q := ⟨if L ≤ p.val + q.val then p.val + q.val - L else p.val + q.val + 1, by split <;> omega⟩
  invFun r := ⟨if r.val ≤ p.val then r.val + L - p.val else r.val - p.val - 1, by split <;> omega⟩
  left_inv q := by
    apply Fin.ext
    by_cases h : L ≤ p.val + q.val
    · simp only [h, if_true]; rw [if_pos (by omega)]; omega
    · simp only [h, if_false]; rw [if_neg (by omega)]; omega
  right_inv r := by
    apply Fin.ext
    by_cases h : r.val ≤ p.val
    · simp only [h, if_true]; rw [if_pos (by omega)]; omega
    · simp only [h, if_false]; rw [if_neg (by omega)]; omega

/-- A word chosen by a condition, read as a natural number, when the condition is restated and the word's value named. -/
theorem dite_toNat_eq {c : Prop} {ic : Decidable c} (A : c → BitVec 32) (d : Prop) {id : Decidable d} (B : Nat) (hcd : c ↔ d)
    (hA : ∀ hc : c, (A hc).toNat = B) :
    (@dite _ c ic (fun hc => A hc) (fun _ => 0#32)).toNat = @ite _ d id B 0 := by
  by_cases hc : c
  · rw [dif_pos hc, if_pos (hcd.1 hc), hA hc]
  · rw [dif_neg hc, if_neg (fun hd => hc (hcd.2 hd))]; rfl

/-- The running sum as jax writes it — a window of the whole length, stride one, padded `N - 1` low, over word addition
    from zero — read at `p` as a natural number: the sum of the words up to and including `p`, modulo 2³². -/
theorem reduceWindow_cumsum {N L : Nat} {u : Shape} (hL : L + 1 = N) (x : IVec ⟨1, ![N]⟩ 32) (init : IVec u 32)
    (h : (⟨1, ![N]⟩ : Shape).ReduceWindows ![N] ![1] ![L] ![0] ⟨1, ![N]⟩) (hu : 0 < u.numel)
    (hinit : init (Shape.Idx.first hu) = 0#32) (p : Fin N) :
    (Host.reduceWindow IntOp.addi ![N] ![1] ![L] ![0] x init h hu (ix1 p)).toNat
      = (∑ q : Fin N, if q.val ≤ p.val then (x (ix1 q)).toNat else 0) % 2 ^ 32 := by
  unfold Host.reduceWindow
  dsimp only
  rw [foldl_addi_toNat, hinit, sum_map_finRange]
  simp only [BitVec.toNat_ofNat, Nat.zero_mod, Nat.zero_add]
  congr 1
  refine Fintype.sum_equiv (((⟨1, ![N]⟩ : Shape).rowMajor.symm.trans (idxE1 N).symm).trans (windowRot hL p)) _ _ (fun m => ?_)
  simp only [Equiv.trans_apply]
  let w : (⟨1, ![N]⟩ : Shape).Idx := (⟨1, ![N]⟩ : Shape).rowMajor.symm m
  have hwlt : (w 0).val < N := (w 0).isLt
  refine dite_toNat_eq _ _ _ ?_ ?_
  · rw [Fin.forall_fin_one]
    show L ≤ p.val * 1 + (w 0).val ∧ p.val * 1 + (w 0).val - L < N
      ↔ (if L ≤ p.val + (w 0).val then p.val + (w 0).val - L else p.val + (w 0).val + 1) ≤ p.val
    split <;> omega
  · intro hc
    have h0 : L ≤ p.val * 1 + (w 0).val := (hc 0).1
    congr 2
    funext a
    match a with
    | ⟨0, _⟩ =>
      apply Fin.ext
      show p.val * 1 + (w 0).val - L = (if L ≤ p.val + (w 0).val then p.val + (w 0).val - L else p.val + (w 0).val + 1)
      rw [if_pos (by omega)]; omega

/-! ## Where a scatter's update lands -/

/-- An update lands at `i` exactly when start plus window coordinate is `i`'s coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  by_cases h : ∀ a, 0 ≤ d.start j idx a + d.window j a ∧ d.start j idx a + d.window j a < s.size a
  · rw [dif_pos h]
    constructor
    · intro heq a
      have := congrFun (Option.some.inj heq) a
      rw [← this]
      show _ = (((d.start j idx a + (d.window j a : ℤ)).toNat : ℕ) : ℤ)
      rw [Int.toNat_of_nonneg (h a).1]
    · intro hall
      congr 1
      funext a
      apply Fin.ext
      show (d.start j idx a + (d.window j a : ℤ)).toNat = (i a).val
      rw [hall a, Int.toNat_natCast]
  · rw [dif_neg h]
    constructor
    · intro heq; exact absurd heq (by simp)
    · intro hall
      exact absurd (fun a => by rw [hall a]; exact ⟨Int.natCast_nonneg _, by exact_mod_cast (i a).isLt⟩) h

section Vec
variable {M N : Nat}

/-- The dimension numbers of a scatter of a list of scalars into a list, one index word per update. -/
def vecDims (wf : ScatterDims.WF ⟨1, ![M]⟩ ⟨2, ![N, 1]⟩ ⟨1, ![N]⟩ [] [0] [0] 1) :
    ScatterDims ⟨1, ![M]⟩ ⟨2, ![N, 1]⟩ ⟨1, ![N]⟩ :=
  { updateWindowDims := [], insertedWindowDims := [0], scatterDimsToOperandDims := [0], indexVectorDim := 1, wf := wf }

variable (wf : ScatterDims.WF ⟨1, ![M]⟩ ⟨2, ![N, 1]⟩ ⟨1, ![N]⟩ [] [0] [0] 1)

theorem vec_start (idx : IVec ⟨2, ![N, 1]⟩ 32) (e : Fin N) :
    (vecDims wf).start (ix1 e) idx 0 = (idx (ix2 e 0)).toInt := by
  show (idx _).toInt = _
  congr 2
  funext b
  match b with
  | ⟨0, _⟩ => exact Fin.ext rfl
  | ⟨1, _⟩ => exact Fin.ext rfl

theorem vec_window (e : Fin N) : (vecDims wf).window (ix1 e) 0 = 0 := rfl

/-- Where update `e` of a scatter of scalars lands: the element its index word names, read signed; nowhere if outside. -/
theorem resultIdx_vec_gen (idx : IVec ⟨2, ![N, 1]⟩ 32) (e : Fin N) (j : (⟨1, ![M]⟩ : Shape).Idx) :
    (vecDims wf).resultIdx? (ix1 e) idx = some j ↔ (idx (ix2 e 0)).toInt = ((j 0).val : ℤ) := by
  rw [resultIdx?_eq_some_iff, Fin.forall_fin_one, vec_start, vec_window]
  simp

end Vec

section Rows
variable {M N C : Nat}

/-- The dimension numbers of a scatter of rows into a table, one index word per row. -/
def rowDims (wf : ScatterDims.WF ⟨2, ![M, C]⟩ ⟨2, ![N, 1]⟩ ⟨2, ![N, C]⟩ [1] [0] [0] 1) :
    ScatterDims ⟨2, ![M, C]⟩ ⟨2, ![N, 1]⟩ ⟨2, ![N, C]⟩ :=
  { updateWindowDims := [1], insertedWindowDims := [0], scatterDimsToOperandDims := [0], indexVectorDim := 1, wf := wf }

variable (wf : ScatterDims.WF ⟨2, ![M, C]⟩ ⟨2, ![N, 1]⟩ ⟨2, ![N, C]⟩ [1] [0] [0] 1)

theorem row_start0 (idx : IVec ⟨2, ![N, 1]⟩ 32) (e : Fin N) (k : Fin C) :
    (rowDims wf).start (ix2 e k) idx 0 = (idx (ix2 e 0)).toInt := by
  show (idx _).toInt = _
  congr 2
  funext b
  match b with
  | ⟨0, _⟩ => exact Fin.ext rfl
  | ⟨1, _⟩ => exact Fin.ext rfl

theorem row_start1 (idx : IVec ⟨2, ![N, 1]⟩ 32) (e : Fin N) (k : Fin C) : (rowDims wf).start (ix2 e k) idx 1 = 0 := rfl
theorem row_window0 (e : Fin N) (k : Fin C) : (rowDims wf).window (ix2 e k) 0 = 0 := rfl
theorem row_window1 (e : Fin N) (k : Fin C) : (rowDims wf).window (ix2 e k) 1 = k.val := rfl

/-- Where update `(e, k)` of a scatter of rows lands: the row its index word names, read signed, same column; nowhere
    if that row is outside. -/
theorem resultIdx_rows_gen (idx : IVec ⟨2, ![N, 1]⟩ 32) (e : Fin N) (k : Fin C) (j : (⟨2, ![M, C]⟩ : Shape).Idx) :
    (rowDims wf).resultIdx? (ix2 e k) idx = some j
      ↔ (idx (ix2 e 0)).toInt = ((j 0).val : ℤ) ∧ (j 1).val = k.val := by
  rw [resultIdx?_eq_some_iff, Fin.forall_fin_two, row_start0, row_start1, row_window0, row_window1]
  constructor <;> rintro ⟨h0, h1⟩ <;> constructor <;> omega

end Rows

/-! ## The accumulating scatter -/

/-- The fold of an accumulating scatter's step, read at one element as a natural number: what was there plus the updates
    that land there, modulo 2³². The step is given by what it does: nothing for a dropped update; for one that lands at
    `i`, word addition at `i` and nothing elsewhere. -/
theorem foldl_scatter_toNat {ι σ : Type} (l : List ι) (ri : ι → Option σ) (g : ι → BitVec 32)
    (step : (σ → BitVec 32) → ι → σ → BitVec 32)
    (hnone : ∀ r n, ri n = none → step r n = r)
    (hsame : ∀ r n i, ri n = some i → step r n i = IntOp.addi (r i) (g n))
    (hother : ∀ r n i i', ri n = some i → i' ≠ i → step r n i' = r i')
    (r : σ → BitVec 32) (i' : σ) [∀ n, Decidable (ri n = some i')] :
    ((l.foldl step r) i').toNat
      = ((r i').toNat + (l.map fun n => if ri n = some i' then (g n).toNat else 0).sum) % 2 ^ 32 := by
  induction l generalizing r with
  | nil => simp [Nat.mod_eq_of_lt (r i').isLt]
  | cons a l ih =>
    rw [List.foldl_cons, ih, List.map_cons, List.sum_cons]
    have hcases : ri a = none ∨ ∃ i, ri a = some i := by cases ri a <;> simp
    rcases hcases with hri | ⟨i, hri⟩
    · rw [hnone r a hri, if_neg (by rw [hri]; simp)]; omega
    · by_cases hi : i' = i
      · subst hi
        rw [hsame r a i' hri, if_pos hri]
        show ((r i' + g a).toNat + _) % _ = _
        rw [BitVec.toNat_add]; omega
      · rw [hother r a i i' hri hi, if_neg (by rw [hri]; exact fun h => hi (Option.some.inj h).symm)]; omega

section VecScatter
variable {M N : Nat} (wf : ScatterDims.WF ⟨1, ![M]⟩ ⟨2, ![N, 1]⟩ ⟨1, ![N]⟩ [] [0] [0] 1)

/-- The accumulating scatter of a list of words into a list, read at element `k` as a natural number: what was there
    plus the updates whose index word, read signed, is `k`, modulo 2³². -/
theorem scatter_vec_toNat (x : IVec ⟨1, ![M]⟩ 32) (idx : IVec ⟨2, ![N, 1]⟩ 32) (upd : IVec ⟨1, ![N]⟩ 32) (k : Fin M) :
    (Host.scatter (vecDims wf) IntOp.addi x idx upd (ix1 k)).toNat
      = ((x (ix1 k)).toNat
          + ∑ e : Fin N, if (idx (ix2 e 0)).toInt = (k.val : ℤ) then (upd (ix1 e)).toNat else 0) % 2 ^ 32 := by
  unfold Host.scatter
  refine (foldl_scatter_toNat _ (fun n => (vecDims wf).resultIdx? ((⟨1, ![N]⟩ : Shape).rowMajor.symm n) idx)
    (fun n => upd ((⟨1, ![N]⟩ : Shape).rowMajor.symm n)) _ ?_ ?_ ?_ x (ix1 k)).trans ?_
  · intro r n hn
    simp only [hn]
  · intro r n i hn
    simp only [hn, if_true]
  · intro r n i i' hn hne
    simp only [hn, if_neg hne]
  · rw [sum_map_finRange]
    congr 2
    symm
    refine Fintype.sum_equiv ((idxE1 N).trans (⟨1, ![N]⟩ : Shape).rowMajor) _ _ (fun e => ?_)
    simp only [Equiv.trans_apply, Equiv.symm_apply_apply]
    exact (if_congr (resultIdx_vec_gen wf idx e (ix1 k)) rfl rfl).symm

end VecScatter

/-! ## This program's lengths -/

/-- The running sum at position `p` is the sum of the words up to and including `p`, modulo 2³². -/
theorem cumsumE_toNat (x : IVec S2359296 32) (p : Fin 2359296) :
    (RefTerm.cumsumE x (ix1 p)).toNat = (∑ q : Fin 2359296, if q.val ≤ p.val then (x (ix1 q)).toNat else 0) % 2 ^ 32 := by
  unfold RefTerm.cumsumE
  exact reduceWindow_cumsum (N := 2359296) (L := 2359295) (by norm_num) x _ _ _ rfl p

/-- The accumulating integer scatter at element `k`: what was there plus the updates whose index, read signed, is `k`,
    modulo 2³². -/
theorem scatterI_toNat (x : IVec S2359296 32) (idx : IVec S2359296x1 32) (upd : IVec S2359296 32) (k : Fin 2359296) :
    (Host.scatter scatter_S2359296_S2359296x1_S2359296_n_0_0_1 IntOp.addi x idx upd (ix1 k)).toNat
      = ((x (ix1 k)).toNat + ∑ e : Fin 2359296, if (idx (ix2 e 0)).toInt = (k.val : ℤ) then (upd (ix1 e)).toNat else 0) % 2 ^ 32 :=
  scatter_vec_toNat (M := 2359296) (N := 2359296) Facts₀.scatter_S2359296_S2359296x1_S2359296_n_0_0_1_wf x idx upd k

/-- Where update `(e, k)` of the row scatter lands: row `idx e` read signed, same column; nowhere if that row is outside. -/
theorem resultIdx_rows (idx : IVec S2359296x1 32) (e : Fin 2359296) (k : Fin 64) (j : S1536x64.Idx) :
    scatter_S1536x64_S2359296x1_S2359296x64_1_0_0_1.resultIdx? (ix2 e k) idx = some j
      ↔ (idx (ix2 e 0)).toInt = ((j 0).val : ℤ) ∧ (j 1).val = k.val :=
  resultIdx_rows_gen (M := 1536) (N := 2359296) (C := 64) Facts₀.scatter_S1536x64_S2359296x1_S2359296x64_1_0_0_1_wf idx e k j

/-- Where update `e` of the count scatter lands: element `idx e` read signed; nowhere if that is outside. -/
theorem resultIdx_vec (idx : IVec S2359296x1 32) (e : Fin 2359296) (j : S1536.Idx) :
    scatter_S1536_S2359296x1_S2359296_n_0_0_1.resultIdx? (ix1 e) idx = some j ↔ (idx (ix2 e 0)).toInt = ((j 0).val : ℤ) :=
  resultIdx_vec_gen (M := 1536) (N := 2359296) Facts₀.scatter_S1536_S2359296x1_S2359296_n_0_0_1_wf idx e j

end Cert.ReferenceIdeal.HostRead

end
-- ==== Proof.RefLayer.lean ====
/-
  One layer of the reference over an edge list that enumerates the adjacency's nonzero entries is the edge form of the
  layer; the rectifier is the rectifier.
-/
import proofs.«135375_g42752104464586_cont_sun_m_355_15_alg».proof.Proof.Edges
import proofs.«135375_g42752104464586_cont_sun_m_355_15_alg».proof.Proof.HostRead
import proofs.«135375_g42752104464586_cont_sun_m_355_15_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.StableHlo.Predicate

noncomputable section

namespace Cert.ReferenceIdeal.RefLayer

open Cert.ReferenceIdeal Cert.ReferenceIdeal.Gen Idealize.ShloMosaic Idealize.ShloMosaic.ValueIdx Cert.ReferenceIdeal.Edges Cert.Sage

/-! ## Reads at any extent -/

/-- The dimension numbers of a gather of whole rows: operand [N, C], a column [R, 1] of row numbers, result [R, C]. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem rows_coord0 {N C R w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (k : Fin C) :
    ((rowDims N C R wf).operandIdx (ix2 e k) idx 0).val = min (idx (ix2 e 0)).toInt.toNat (N - 1) := by
  show (rowDims N C R wf).start (ix2 e k) idx 0 + (rowDims N C R wf).batchCoord (ix2 e k) 0
    + (rowDims N C R wf).offCoord (ix2 e k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C R wf).startIndexMap from List.mem_singleton.mpr rfl)]
  have hsi : (rowDims N C R wf).siIdx (ix2 e k) ⟨List.idxOf (0 : Fin 2) (rowDims N C R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

theorem rows_coord1 {N C R w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (k : Fin C) :
    ((rowDims N C R wf).operandIdx (ix2 e k) idx 1).val = k.val := by
  show (rowDims N C R wf).start (ix2 e k) idx 1 + (rowDims N C R wf).batchCoord (ix2 e k) 1
    + (rowDims N C R wf).offCoord (ix2 e k) 1 = _
  rw [GatherDims.batchCoord_eq_zero _ _ _ List.not_mem_nil]
  unfold GatherDims.start
  rw [dif_neg (show ¬ (1 : Fin 2) ∈ (rowDims N C R wf).startIndexMap from (by decide : ¬ (1 : Fin 2) ∈ ([0] : List (Fin 2))))]
  unfold GatherDims.offCoord
  rw [dif_pos (show (1 : Fin 2) ∈ (rowDims N C R wf).sKept from (GatherDims.mem_sKept _ _).mpr ⟨(by decide : ¬ (1 : Fin 2) ∈ ([0] : List (Fin 2))), List.not_mem_nil⟩)]
  simp only [Nat.zero_add]
  rfl

/-- A gather of whole rows read at (e, k): the operand at row (the e-th row number, read signed and clamped), column k. -/
theorem gather_rows_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowDims N C R wf) x idx (ix2 e k)
      = x (ix2 ⟨min (idx (ix2 e 0)).toInt.toNat (N - 1), by omega⟩ k) := by
  unfold Host.gather
  congr 1
  funext a
  refine Fin.ext ?_
  match a with
  | ⟨0, _⟩ => exact rows_coord0 wf idx e k
  | ⟨1, _⟩ => exact rows_coord1 wf idx e k

/-- A sum over a rank-1 index set is the sum over its coordinate. -/
theorem sum_idx1 {M : Type*} [AddCommMonoid M] {n : Nat} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ : Fin n ≃ (⟨1, ![n]⟩ : Shape).Idx) f).symm

/-- A conjunction over an axis of extent one is its one term. -/
theorem reduce_and_unit {R : Nat} (X : IVec ⟨2, ![R, 1]⟩ 1) (h' : (⟨2, ![R, 1]⟩ : Shape).ReducesTo [1] ⟨1, ![R]⟩)
    {u : Shape} (hu : 0 < u.numel) (e : Fin R) :
    Host.reduce IntOp.andi X (constantI u 1 1#1) h' hu (ix1 e) = X (ix2 e 0) := by
  classical
  rw [Host.reduce_eq_fold]
  have hset : (Finset.univ.filter fun i : (⟨2, ![R, 1]⟩ : Shape).Idx => h'.drop i = ix1 e) = {ix2 e 0} := by
    ext i
    simp only [Finset.mem_filter, Finset.mem_univ, true_and, Finset.mem_singleton]
    have hv : (h'.drop i 0 : Nat) = i 0 := Shape.ReducesTo.drop_apply_val h' i 0
    constructor
    · intro hi
      rw [hi] at hv
      rw [eq_ix2 i]
      have h0 : i 0 = e := Fin.ext hv.symm
      have h1 : i 1 = (0 : Fin 1) := Subsingleton.elim (α := Fin 1) _ _
      rw [h0, h1]
      rfl
    · rintro rfl
      funext b
      have hb : b = 0 := Subsingleton.elim _ _
      subst hb
      exact Fin.ext hv
  rw [hset, Finset.fold_singleton]
  show IntOp.andi (X (ix2 e 0)) 1#1 = _
  rcases BitVec.eq_zero_or_eq_one (X (ix2 e 0)) with h | h <;> rw [h] <;> rfl

/-! ## The accumulating scatter and a division, read at an index with the operands kept as variables -/

/-- One term of a row scatter's sum at operand element j: update (p, q) if it lands on j, else nothing. -/
def rowTerm {s si : Shape} {R C w : Nat} (d : ScatterDims s si ⟨2, ![R, C]⟩) (idx : IVec si w)
    (upd : (⟨2, ![R, C]⟩ : Shape).Idx → EReal) (j : s.Idx) (p : Fin R) (q : Fin C) : EReal :=
  if d.resultIdx? (ix2 p q) idx = some j then upd (ix2 p q) else 0

/-- The term under any equivalent condition. -/
theorem rowTerm_eq {s si : Shape} {R C w : Nat} (d : ScatterDims s si ⟨2, ![R, C]⟩) (idx : IVec si w)
    (upd : (⟨2, ![R, C]⟩ : Shape).Idx → EReal) (j : s.Idx) (p : Fin R) (q : Fin C) {c : Prop} [Decidable c]
    (hc : d.resultIdx? (ix2 p q) idx = some j ↔ c) :
    rowTerm d idx upd j p q = if c then upd (ix2 p q) else 0 := by
  unfold rowTerm
  exact if_congr hc rfl rfl

/-- The accumulating scatter of a rank-2 array of updates, at the exact values: what was there plus every term. -/
theorem scatterAdd_rows_apply {s si : Shape} {R C w : Nat} {φ : FTy} (d : ScatterDims s si ⟨2, ![R, C]⟩) (x : FVec Ideal s φ)
    (idx : IVec si w) (upd : FVec Ideal ⟨2, ![R, C]⟩ φ) (j : s.Idx) :
    Host.scatterAdd d x idx upd j = x j + ∑ p : Fin R, ∑ q : Fin C, rowTerm d idx upd j p q := by
  show Ideal.hostScatterAdd d x idx upd j = _
  unfold Ideal.hostScatterAdd rowTerm
  rw [Finset.sum_filter, sum_idx2]

/-- One term of a rank-1 scatter's sum at operand element j. -/
def vecTerm {s si : Shape} {R w : Nat} (d : ScatterDims s si ⟨1, ![R]⟩) (idx : IVec si w)
    (upd : (⟨1, ![R]⟩ : Shape).Idx → EReal) (j : s.Idx) (p : Fin R) : EReal :=
  if d.resultIdx? (ix1 p) idx = some j then upd (ix1 p) else 0

theorem vecTerm_eq {s si : Shape} {R w : Nat} (d : ScatterDims s si ⟨1, ![R]⟩) (idx : IVec si w)
    (upd : (⟨1, ![R]⟩ : Shape).Idx → EReal) (j : s.Idx) (p : Fin R) {c : Prop} [Decidable c]
    (hc : d.resultIdx? (ix1 p) idx = some j ↔ c) :
    vecTerm d idx upd j p = if c then upd (ix1 p) else 0 := by
  unfold vecTerm
  exact if_congr hc rfl rfl

/-- The accumulating scatter of a rank-1 array of updates, at the exact values. -/
theorem scatterAdd_vec_apply {s si : Shape} {R w : Nat} {φ : FTy} (d : ScatterDims s si ⟨1, ![R]⟩) (x : FVec Ideal s φ)
    (idx : IVec si w) (upd : FVec Ideal ⟨1, ![R]⟩ φ) (j : s.Idx) :
    Host.scatterAdd d x idx upd j = x j + ∑ p : Fin R, vecTerm d idx upd j p := by
  show Ideal.hostScatterAdd d x idx upd j = _
  unfold Ideal.hostScatterAdd vecTerm
  rw [Finset.sum_filter, sum_idx1]

/-- The host's division at an index is the division of the elements. -/
theorem hostDivf_apply {s : Shape} {φ : FTy} (a b : FVec Ideal s φ) (j : s.Idx) :
    Host.divf a b j = Ideal.div (a j) (b j) := rfl

/-- A literal broadcast from a scalar reads, anywhere, the number its word encodes. -/
theorem bcast_const_apply {t : Shape} (h : (⟨0, ![]⟩ : Shape).BroadcastsInDim t ![]) (φ : FTy) (b : BitVec φ.bits) (j : t.Idx) :
    broadcastInDim t ![] h (constant (F := Ideal) ⟨0, ![]⟩ φ b) j = Ideal.ofBits φ b := rfl

/-! ## The program's own shapes -/

/-- The word 0x3F800000 is the number one. -/
theorem ofBits_one : Ideal.ofBits .f32 0x3F800000#32 = 1 := by
  simp [Ideal.ofBits, Ideal.ieee, -EReal.coe_mul]; norm_num

/-- A product of a [1536, 64] by a [64, 64] matrix at (i, o): the sum over the shared coordinate. -/
theorem dot_apply (A : FVec Ideal S1536x64 .f32) (B : FVec Ideal S64x64 .f32) (i : Fin 1536) (o : Fin 64) :
    Host.dotGeneral dot_S1536x64_S64x64_S1536x64_1_0_0_1_n_n none A B (ix2 i o) = ∑ k : Fin 64, A (ix2 i k) * B (ix2 k o) :=
  StackMember.dotGeneral_plain_apply none A B i o

/-- The bias laid along every row reads, at (i, o), its o-th entry. -/
theorem bias_apply (b : FVec Ideal S64 .f32) (i : Fin 1536) (o : Fin 64) :
    broadcastInDim S1536x64 ![0, 1] bcast_S1x64_S1536x64_0_1 (broadcastInDim S1x64 ![1] bcast_S64_S1x64_1 b) (ix2 i o)
      = b (ix1 o) := by
  have e1 : broadcastInDim S1536x64 ![0, 1] bcast_S1x64_S1536x64_0_1 (broadcastInDim S1x64 ![1] bcast_S64_S1x64_1 b) (ix2 i o)
      = broadcastInDim S1x64 ![1] bcast_S64_S1x64_1 b (ix2 (0 : Fin 1) o) :=
    broadcastInDim_apply _ _ _ (ix2 i o) (ix2 (0 : Fin 1) o) (fun a => by match a with | ⟨0, _⟩ => rfl | ⟨1, _⟩ => rfl)
  exact e1.trans (broadcastInDim_apply _ _ _ (ix2 (0 : Fin 1) o) (ix1 o) (fun a => by match a with | ⟨0, _⟩ => rfl))

/-- A per-node value laid along every column reads, at (i, k), its i-th entry. -/
theorem rows_apply {α : Type} (v : S1536.Idx → α) (i : Fin 1536) (k : Fin 64) :
    broadcastInDim S1536x64 ![0, 1] bcast_S1536x1_S1536x64_0_1 (broadcastInDim S1536x1 ![0] bcast_S1536_S1536x1_0 v) (ix2 i k)
      = v (ix1 i) := by
  have e1 : broadcastInDim S1536x64 ![0, 1] bcast_S1536x1_S1536x64_0_1 (broadcastInDim S1536x1 ![0] bcast_S1536_S1536x1_0 v) (ix2 i k)
      = broadcastInDim S1536x1 ![0] bcast_S1536_S1536x1_0 v (ix2 i (0 : Fin 1)) :=
    broadcastInDim_apply _ _ _ (ix2 i k) (ix2 i (0 : Fin 1)) (fun a => by match a with | ⟨0, _⟩ => rfl | ⟨1, _⟩ => rfl)
  exact e1.trans (broadcastInDim_apply _ _ _ (ix2 i (0 : Fin 1)) (ix1 i) (fun a => by match a with | ⟨0, _⟩ => rfl))

/-- A list along the edges as a column reads, at (e, 0), its e-th entry. -/
theorem col_apply {α : Type} (v : S2359296.Idx → α) (e : Fin 2359296) :
    broadcastInDim S2359296x1 ![0] bcast_S2359296_S2359296x1_0 v (ix2 e (0 : Fin 1)) = v (ix1 e) :=
  broadcastInDim_apply _ _ _ (ix2 e (0 : Fin 1)) (ix1 e) (fun a => by match a with | ⟨0, _⟩ => rfl)

/-- A list along the edges laid along every feature reads, at (e, k), its e-th entry. -/
theorem edgeRows_apply {α : Type} (v : S2359296.Idx → α) (e : Fin 2359296) (k : Fin 64) :
    broadcastInDim S2359296x64 ![0] bcast_S2359296_S2359296x64_0 v (ix2 e k) = v (ix1 e) :=
  broadcastInDim_apply _ _ _ (ix2 e k) (ix1 e) (fun a => by match a with | ⟨0, _⟩ => rfl)

/-- The destinations as a column read, at (e, 0), the e-th destination. -/
theorem dstIdx_apply (dst : IVec S2359296 32) (e : Fin 2359296) : RefTerm.dstIdx dst (ix2 e (0 : Fin 1)) = dst (ix1 e) := by
  unfold RefTerm.dstIdx
  exact col_apply dst e

/-- An in-range source is its own gather index. -/
theorem takeIdx_apply (src : IVec S2359296 32) (e : Fin 2359296) (hs : (src (ix1 e)).toNat < 1536) :
    RefTerm.takeIdx src (ix2 e (0 : Fin 1)) = src (ix1 e) := by
  unfold RefTerm.takeIdx
  rw [col_apply]
  show Scalar.select (IntOp.cmpi .slt (src (ix1 e)) 0#32) (IntOp.addi (src (ix1 e)) 1536#32) (src (ix1 e)) = _
  have hn : ¬ IntOp.cmpi .slt (src (ix1 e)) 0#32 = 1#1 := by
    rw [StableHlo.Predicate.slt_iff_toNat (a := src (ix1 e)) (b := 0#32) (by omega) (by decide)]
    exact Nat.not_lt_zero _
  exact if_neg hn

/-- An in-range source passes the range test. -/
theorem takeOk_apply (src : IVec S2359296 32) (e : Fin 2359296) (hs : (src (ix1 e)).toNat < 1536) :
    RefTerm.takeOk src (ix1 e) = 1#1 := by
  unfold RefTerm.takeOk
  rw [reduce_and_unit]
  show IntOp.andi (IntOp.cmpi .sge (RefTerm.takeIdx src (ix2 e (0 : Fin 1))) 0#32)
    (IntOp.cmpi .sle (RefTerm.takeIdx src (ix2 e (0 : Fin 1))) 1535#32) = 1#1
  rw [takeIdx_apply src e hs,
    (StableHlo.Predicate.sge_iff_toNat (a := src (ix1 e)) (b := 0#32) (by omega) (by decide)).mpr (Nat.zero_le _),
    (StableHlo.Predicate.sle_iff_toNat (a := src (ix1 e)) (b := 1535#32) (by omega) (by decide)).mpr (by show _ ≤ 1535; omega)]
  rfl

/-- The message of an edge with an in-range source is its source's row. -/
theorem msgs_apply (h : FVec Ideal S1536x64 .f32) (src : IVec S2359296 32) (e : Fin 2359296) (k : Fin 64)
    (hs : (src (ix1 e)).toNat < 1536) :
    RefTerm.msgs h src (ix2 e k) = h (ix2 ⟨(src (ix1 e)).toNat, hs⟩ k) := by
  unfold RefTerm.msgs
  rw [select_apply, edgeRows_apply, takeOk_apply src e hs, select_one,
    show Host.gather gather_S1536x64_S2359296x1_S2359296x64_1_0_n_n_0_1_164 h (RefTerm.takeIdx src) (ix2 e k) = _ from
      gather_rows_apply (by decide) gather_S1536x64_S2359296x1_S2359296x64_1_0_n_n_0_1_164_wf h (RefTerm.takeIdx src) e k]
  have hi : (src (ix1 e)).toInt.toNat = (src (ix1 e)).toNat := by
    rw [StableHlo.Predicate.toInt_eq_toNat_of_lt (a := src (ix1 e)) (by omega)]; exact Int.toNat_natCast _
  have hf : (⟨min (RefTerm.takeIdx src (ix2 e (0 : Fin 1))).toInt.toNat (1536 - 1), by omega⟩ : Fin 1536)
      = ⟨(src (ix1 e)).toNat, hs⟩ :=
    Fin.ext (by show min _ _ = (src (ix1 e)).toNat; rw [takeIdx_apply src e hs, hi]; omega)
  exact congrArg (fun r => h (ix2 r k)) hf

/-- Summing along an edge list a function of the source, over the edges into node i, is summing it over the sources
    of i's nonzero column entries. -/
theorem edge_sum (adj : FVec Ideal S1536x1536 .f32) (src dst : IVec S2359296 32)
    (hE : IsEdgeList (fun j i => adj (ix2 j i) ≠ 0) src dst) (i : Fin 1536) (Y : ℕ → EReal) :
    (∑ e : S2359296.Idx, if (dst e).toNat = i.val then Y (src e).toNat else 0)
      = ∑ j : Fin 1536, if adj (ix2 j i) ≠ 0 then Y j.val else 0 := by
  have h1 : (∑ e : S2359296.Idx, if (dst e).toNat = i.val then Y (src e).toNat else 0)
      = ∑ e : S2359296.Idx, if (dst e).toNat < 1536 then (if (dst e).toNat = i.val then Y (src e).toNat else 0) else 0 := by
    refine Finset.sum_congr rfl fun e _ => ?_
    by_cases hd : (dst e).toNat < 1536
    · rw [if_pos hd]
    · rw [if_neg hd, if_neg (by have := i.isLt; omega)]
  refine (h1.trans (hE.sum_eq fun s d => if d = i.val then Y s else 0)).trans ?_
  refine Finset.sum_congr rfl fun j _ => ?_
  refine (Finset.sum_eq_single_of_mem i (Finset.mem_univ i) ?_).trans ?_
  · intro b _ hb
    show (if adj (ix2 j b) ≠ 0 then (if b.val = i.val then Y j.val else 0) else 0) = 0
    rw [if_neg (fun hv => hb (Fin.ext hv)), ite_self]
  · show (if adj (ix2 j i) ≠ 0 then (if i.val = i.val then Y j.val else 0) else 0) = _
    rw [if_pos rfl]

/-! ## The specification's functions at an index -/

theorem mat_apply {r c : ℕ} (v : (⟨2, ![r, c]⟩ : Shape).Idx → EReal) (i : Fin r) (j : Fin c) : mat v i j = v (ix2 i j) := rfl

theorem vec_apply {n : ℕ} (v : (⟨1, ![n]⟩ : Shape).Idx → EReal) (i : Fin n) : vec v i = v (ix1 i) := rfl

theorem relu_apply (h : Mat 1536 64) (i : Fin 1536) (o : Fin 64) : relu h i o = max (h i o) 0 := rfl

theorem aggR_apply (adj : Mat 1536 1536) (h : Mat 1536 64) (i : Fin 1536) (k : Fin 64) :
    aggR adj h i k = ∑ j, if adj j i ≠ 0 then h j k else 0 := rfl

theorem degR_apply (adj : Mat 1536 1536) (i : Fin 1536) : degR adj i = ∑ j, if adj j i ≠ 0 then 1 else 0 := rfl

theorem layerR_apply (adj : Mat 1536 1536) (h : Mat 1536 64) (Wl : Mat 64 64) (b : Fin 64 → EReal) (Wr : Mat 64 64)
    (i : Fin 1536) (o : Fin 64) :
    layerR adj h Wl b Wr i o
      = ((∑ k, Ideal.div (aggR adj h i k) (max 1 (degR adj i)) * Wl k o) + b o) + ∑ k, h i k * Wr k o := rfl

/-! ## The two scatters -/

/-- The row scatter's zero operand reads zero. -/
theorem zeros2_apply (j : S1536x64.Idx) :
    broadcastInDim S1536x64 ![] bcast_S_S1536x64 (constant (F := Ideal) S_ .f32 0x00000000#32) j = 0 :=
  (bcast_const_apply bcast_S_S1536x64 .f32 0x00000000#32 j).trans Ideal.ofBits_zero_f32

/-- The count scatter's zero operand reads zero. -/
theorem zeros1_apply (j : S1536.Idx) :
    broadcastInDim S1536 ![] bcast_S_S1536 (constant (F := Ideal) S_ .f32 0x00000000#32) j = 0 :=
  (bcast_const_apply bcast_S_S1536 .f32 0x00000000#32 j).trans Ideal.ofBits_zero_f32

/-- Where update (p, q) of the row scatter lands, over destinations in range: at (i, k) exactly when the p-th
    destination is i and q is k. -/
theorem rows_cond (dst : IVec S2359296 32) (hd : ∀ e, (dst e).toNat ≤ 1536) (i : Fin 1536) (k : Fin 64) (p : Fin 2359296)
    (q : Fin 64) :
    (scatter_S1536x64_S2359296x1_S2359296x64_1_0_0_1.resultIdx? (ix2 p q) (RefTerm.dstIdx dst) = some (ix2 i k))
      ↔ ((dst (ix1 p)).toNat = i.val ∧ k = q) := by
  refine (HostRead.resultIdx_rows (RefTerm.dstIdx dst) p q (ix2 i k)).trans ?_
  have e := dstIdx_apply dst p
  show ((RefTerm.dstIdx dst (ix2 p (0 : Fin 1))).toInt = (i.val : ℤ) ∧ k.val = q.val) ↔ _
  rw [e, StableHlo.Predicate.toInt_eq_toNat_of_lt (a := dst (ix1 p)) (by have := hd (ix1 p); omega)]
  constructor
  · rintro ⟨a, b⟩; exact ⟨by omega, Fin.ext b⟩
  · rintro ⟨a, b⟩; exact ⟨by omega, congrArg Fin.val b⟩

/-- Where update p of the count scatter lands: at i exactly when the p-th destination is i. -/
theorem vec_cond (dst : IVec S2359296 32) (hd : ∀ e, (dst e).toNat ≤ 1536) (i : Fin 1536) (p : Fin 2359296) :
    (scatter_S1536_S2359296x1_S2359296_n_0_0_1.resultIdx? (ix1 p) (RefTerm.dstIdx dst) = some (ix1 i))
      ↔ (dst (ix1 p)).toNat = i.val := by
  refine (HostRead.resultIdx_vec (RefTerm.dstIdx dst) p (ix1 i)).trans ?_
  have e := dstIdx_apply dst p
  show ((RefTerm.dstIdx dst (ix2 p (0 : Fin 1))).toInt = (i.val : ℤ)) ↔ _
  rw [e, StableHlo.Predicate.toInt_eq_toNat_of_lt (a := dst (ix1 p)) (by have := hd (ix1 p); omega)]
  constructor <;> intro a <;> omega

/-- What edge p adds to node i, feature k: its source's row at k if its destination is i, else nothing. -/
theorem agg_inner (h : FVec Ideal S1536x64 .f32) (src dst : IVec S2359296 32) (hd : ∀ e, (dst e).toNat ≤ 1536)
    (hsd : ∀ e, (dst e).toNat < 1536 → (src e).toNat < 1536) (i : Fin 1536) (k : Fin 64) (p : Fin 2359296) :
    (∑ q : Fin 64, rowTerm scatter_S1536x64_S2359296x1_S2359296x64_1_0_0_1 (RefTerm.dstIdx dst) (RefTerm.msgs h src)
        (ix2 i k) p q)
      = if (dst (ix1 p)).toNat = i.val then
          (if hs : (src (ix1 p)).toNat < 1536 then h (ix2 ⟨(src (ix1 p)).toNat, hs⟩ k) else 0) else 0 := by
  refine (Finset.sum_congr rfl fun q _ => rowTerm_eq _ _ _ _ p q (rows_cond dst hd i k p q)).trans ?_
  by_cases hdp : (dst (ix1 p)).toNat = i.val
  · have hs : (src (ix1 p)).toNat < 1536 := hsd (ix1 p) (by have := i.isLt; omega)
    refine (Finset.sum_congr rfl fun q _ => if_congr (and_iff_right hdp) rfl rfl).trans ?_
    rw [Finset.sum_ite_eq, if_pos (Finset.mem_univ k), if_pos hdp, dif_pos hs, msgs_apply h src p k hs]
  · rw [if_neg hdp]
    exact Finset.sum_eq_zero fun q _ => if_neg fun hc => hdp hc.1

/-- The messages summed into node i, feature k: the sum over the edges into i of the source's row. -/
theorem aggOf_apply (h : FVec Ideal S1536x64 .f32) (src dst : IVec S2359296 32) (hd : ∀ e, (dst e).toNat ≤ 1536)
    (hsd : ∀ e, (dst e).toNat < 1536 → (src e).toNat < 1536) (i : Fin 1536) (k : Fin 64) :
    RefTerm.aggOf h src dst (ix2 i k)
      = ∑ e : S2359296.Idx, if (dst e).toNat = i.val then
          (if hs : (src e).toNat < 1536 then h (ix2 ⟨(src e).toNat, hs⟩ k) else 0) else 0 := by
  rw [RefTerm.aggOf, scatterAdd_rows_apply, zeros2_apply, zero_add, sum_idx1]
  exact Finset.sum_congr rfl fun p _ => agg_inner h src dst hd hsd i k p

/-- The number of edges into node i, as a sum of ones along the edge list. -/
theorem degOf_apply (dst : IVec S2359296 32) (hd : ∀ e, (dst e).toNat ≤ 1536) (i : Fin 1536) :
    RefTerm.degOf Ideal dst (ix1 i) = ∑ e : S2359296.Idx, if (dst e).toNat = i.val then (1 : EReal) else 0 := by
  rw [RefTerm.degOf, scatterAdd_vec_apply, zeros1_apply, zero_add, sum_idx1]
  refine Finset.sum_congr rfl fun p _ => ?_
  rw [vecTerm_eq _ _ _ _ p (vec_cond dst hd i p), bcast_const_apply, ofBits_one]

/-- The edge count clipped below at one. -/
theorem degClip_apply (dst : IVec S2359296 32) (i : Fin 1536) :
    RefTerm.degClip Ideal dst (ix1 i) = max 1 (RefTerm.degOf Ideal dst (ix1 i)) := by
  rw [RefTerm.degClip, maximumf_apply, id_eq, bcast_const_apply, ofBits_one]

/-- The mean message: the aggregate divided by the clipped count. -/
theorem meanOf_apply (h : FVec Ideal S1536x64 .f32) (src dst : IVec S2359296 32) (i : Fin 1536) (k : Fin 64) :
    RefTerm.meanOf h src dst (ix2 i k) = Ideal.div (RefTerm.aggOf h src dst (ix2 i k)) (RefTerm.degClip Ideal dst (ix1 i)) := by
  rw [RefTerm.meanOf, hostDivf_apply, rows_apply]

/-- Over an edge list of the adjacency's nonzero entries the aggregate is the edge form's. -/
theorem aggOf_eq (adj : FVec Ideal S1536x1536 .f32) (src dst : IVec S2359296 32)
    (hE : IsEdgeList (fun j i => adj (ix2 j i) ≠ 0) src dst) (h : FVec Ideal S1536x64 .f32) (i : Fin 1536) (k : Fin 64) :
    RefTerm.aggOf h src dst (ix2 i k) = aggR (mat adj) (mat h) i k := by
  rw [aggR_apply]
  refine ((aggOf_apply h src dst hE.dst_le hE.src_lt_of_dst_lt i k).trans
    (edge_sum adj src dst hE i (fun s => if hs : s < 1536 then h (ix2 ⟨s, hs⟩ k) else 0))).trans ?_
  refine Finset.sum_congr rfl fun j _ => ?_
  rw [mat_apply, mat_apply]
  exact if_congr Iff.rfl (dif_pos j.isLt) rfl

/-- Over such an edge list the edge count is the edge form's degree. -/
theorem degOf_eq (adj : FVec Ideal S1536x1536 .f32) (src dst : IVec S2359296 32)
    (hE : IsEdgeList (fun j i => adj (ix2 j i) ≠ 0) src dst) (i : Fin 1536) :
    RefTerm.degOf Ideal dst (ix1 i) = degR (mat adj) i := by
  rw [degR_apply]
  refine ((degOf_apply dst hE.dst_le i).trans (edge_sum adj src dst hE i (fun _ => 1))).trans ?_
  refine Finset.sum_congr rfl fun j _ => ?_
  rw [mat_apply]

theorem refLayer_eq (adj : FVec Ideal S1536x1536 .f32) (src dst : IVec S2359296 32)
    (hE : IsEdgeList (fun j i => adj (ix2 j i) ≠ 0) src dst) (h : FVec Ideal S1536x64 .f32) (Wl : FVec Ideal S64x64 .f32)
    (b : FVec Ideal S64 .f32) (Wr : FVec Ideal S64x64 .f32) :
    RefTerm.refLayer (F := Ideal) h src dst Wl b Wr = ofMat (layerR (mat adj) (mat h) (mat Wl) (vec b) (mat Wr)) := by
  funext idx
  obtain ⟨i, o, rfl⟩ : ∃ (i : Fin 1536) (o : Fin 64), idx = ix2 i o := ⟨idx 0, idx 1, eq_ix2 idx⟩
  have hm : ∀ k : Fin 64, RefTerm.meanOf h src dst (ix2 i k)
      = Ideal.div (aggR (mat adj) (mat h) i k) (max 1 (degR (mat adj) i)) := fun k => by
    rw [meanOf_apply, degClip_apply, aggOf_eq adj src dst hE, degOf_eq adj src dst hE]
  rw [ofMat_ix2, layerR_apply, RefTerm.refLayer, addf_apply, addf_apply, dot_apply, dot_apply, bias_apply]
  simp only [hm, mat_apply, vec_apply]

theorem refRelu_eq (h : FVec Ideal S1536x64 .f32) : RefTerm.refRelu (F := Ideal) h = ofMat (relu (mat h)) := by
  funext idx
  obtain ⟨i, o, rfl⟩ : ∃ (i : Fin 1536) (o : Fin 64), idx = ix2 i o := ⟨idx 0, idx 1, eq_ix2 idx⟩
  rw [ofMat_ix2, relu_apply, mat_apply, RefTerm.refRelu, maximumf_apply, bcast_const_apply, Ideal.ofBits_zero_f32]

end Cert.ReferenceIdeal.RefLayer

end
-- ==== Proof.LibEnum.lean ====
/-
  Enumerating the marked positions of an initial segment of the naturals by counting.

  For a predicate `b` on positions below `N`: `cnt b p` is the number of marked positions up to and including `p`
  (a running count), `hist N b k` the number of positions whose running count is `k` (its histogram), and `pos N b e`
  the number of positions whose running count is at most `e` (the running sum of the histogram). Then `pos N b e` is
  the position of the `e`-th marked position (from zero), for `e` below the number of marked positions: the running
  count is monotone with steps of zero or one, so the positions with count at most `e` are exactly those before the
  `e`-th marked one. Consequently summing over `e` is summing over the marked positions.
-/
import Mathlib.Algebra.BigOperators.Group.Finset.Basic
import Mathlib.Algebra.BigOperators.Group.Finset.Piecewise
import Mathlib.Algebra.BigOperators.Group.Finset.Sigma
import Mathlib.Data.Finset.Card
import Mathlib.Order.Interval.Finset.Nat
import Mathlib.Tactic.Ring
import Mathlib.Tactic.Linarith

noncomputable section

namespace Cert.Sage.Enum

open Finset

variable (N : ℕ) (b : ℕ → Prop) [DecidablePred b]

/-- The number of marked positions among `0, …, p`. -/
def cnt (p : ℕ) : ℕ := ((range (p + 1)).filter b).card

/-- The number of positions below `N` whose running count is exactly `k`. -/
def hist (k : ℕ) : ℕ := ((range N).filter fun p => cnt b p = k).card

/-- The number of positions below `N` whose running count is at most `e`. -/
def pos (e : ℕ) : ℕ := ((range N).filter fun p => cnt b p ≤ e).card

/-- The number of marked positions below `N`. -/
def total : ℕ := ((range N).filter b).card

theorem cnt_le (p : ℕ) : cnt b p ≤ p + 1 := by
  unfold cnt
  exact (card_filter_le _ _).trans (card_range _).le

theorem total_le : total N b ≤ N := by
  unfold total
  exact (card_filter_le _ _).trans (card_range _).le

theorem total_eq_cnt (hN : 0 < N) : total N b = cnt b (N - 1) := by
  unfold total cnt
  rw [Nat.sub_add_cancel hN]

/-- The number of marked positions as a sum of indicators. -/
theorem total_eq_sum : total N b = ∑ i ∈ range N, if b i then 1 else 0 := by
  unfold total
  exact Finset.card_filter _ _

/-- The running count at `p` is the number of marked positions below `p + 1`. -/
theorem cnt_eq_total (p : ℕ) : cnt b p = total (p + 1) b := rfl

/-- One more position adds one exactly when it is marked. -/
theorem total_succ : total (N + 1) b = total N b + if b N then 1 else 0 := by
  rw [total_eq_sum, total_eq_sum, Finset.sum_range_succ]

/-- The running count steps by zero or one. -/
theorem cnt_succ (p : ℕ) : cnt b (p + 1) = cnt b p + if b (p + 1) then 1 else 0 := by
  rw [cnt_eq_total, cnt_eq_total, total_succ]

theorem total_mono {m n : ℕ} (h : m ≤ n) : total m b ≤ total n b := by
  unfold total
  exact Finset.card_le_card (Finset.filter_subset_filter _ (Finset.range_mono h))

/-- The running count is monotone. -/
theorem cnt_mono {p q : ℕ} (h : p ≤ q) : cnt b p ≤ cnt b q :=
  total_mono b (Nat.succ_le_succ h)

theorem cnt_le_total {p : ℕ} (h : p < N) : cnt b p ≤ total N b :=
  total_mono b (Nat.succ_le_of_lt h)

/-- At a marked position the running count is positive. -/
theorem cnt_pos_of_marked {p : ℕ} (h : b p) : 0 < cnt b p := by
  unfold cnt
  exact Finset.card_pos.mpr ⟨p, by simp [h]⟩

/-- Strictly before a marked position the running count is strictly smaller. -/
theorem cnt_lt_of_lt {q p : ℕ} (hqp : q < p) (hp : b p) : cnt b q < cnt b p := by
  obtain ⟨p', rfl⟩ : ∃ p', p = p' + 1 := ⟨p - 1, by omega⟩
  have h1 : cnt b q ≤ cnt b p' := cnt_mono b (by omega)
  rw [cnt_succ, if_pos hp]
  omega

/-- A marked position `p` is recovered by counting from its own running count: the positions whose count is below
that of `p` are exactly those before `p`. -/
theorem pos_cnt {p : ℕ} (hb : b p) (hp : p < N) : pos N b (cnt b p - 1) = p := by
  have hpos := cnt_pos_of_marked b hb
  have hset : ((range N).filter fun q => cnt b q ≤ cnt b p - 1) = range p := by
    ext q
    simp only [mem_filter, mem_range]
    constructor
    · rintro ⟨hq, hle⟩
      by_contra hcon
      have : cnt b p ≤ cnt b q := cnt_mono b (by omega)
      omega
    · intro hq
      have := cnt_lt_of_lt b hq hb
      exact ⟨by omega, by omega⟩
  unfold pos
  rw [hset, card_range]

/-- Every count from one to the total is attained at a marked position. -/
theorem exists_marked_cnt (e : ℕ) (he : e < total N b) : ∃ p, p < N ∧ b p ∧ cnt b p = e + 1 := by
  induction N with
  | zero => simp [total] at he
  | succ n ih =>
    rw [total_succ] at he
    by_cases h : e < total n b
    · obtain ⟨p, hp, hb, hc⟩ := ih h
      exact ⟨p, by omega, hb, hc⟩
    · by_cases hbn : b n
      · rw [if_pos hbn] at he
        refine ⟨n, by omega, hbn, ?_⟩
        rw [cnt_eq_total, total_succ, if_pos hbn]
        omega
      · rw [if_neg hbn] at he
        omega

theorem pos_spec (e : ℕ) (he : e < total N b) :
    pos N b e < N ∧ b (pos N b e) ∧ cnt b (pos N b e) = e + 1 := by
  obtain ⟨p, hp, hb, hc⟩ := exists_marked_cnt N b e he
  have hpe : pos N b e = p := by
    have h := pos_cnt N b hb hp
    rw [hc, Nat.add_sub_cancel] at h
    exact h
  rw [hpe]
  exact ⟨hp, hb, hc⟩

theorem pos_eq_sum_hist (e : ℕ) : pos N b e = ∑ k ∈ range (e + 1), hist N b k := by
  unfold pos hist
  simp only [Finset.card_filter]
  rw [Finset.sum_comm]
  refine Finset.sum_congr rfl fun p _ => ?_
  rw [Finset.sum_ite_eq]
  simp [Nat.lt_succ_iff]

theorem pos_le (e : ℕ) : pos N b e ≤ N := by
  unfold pos
  exact (card_filter_le _ _).trans (card_range _).le

/-- Below the number of marked positions, the `e`-th position by counting is a position below `N`. -/
theorem pos_lt (e : ℕ) (he : e < total N b) : pos N b e < N :=
  (pos_spec N b e he).1

/-- … and it is marked. -/
theorem marked_pos (e : ℕ) (he : e < total N b) : b (pos N b e) :=
  (pos_spec N b e he).2.1

/-- … and its running count is `e + 1`. -/
theorem cnt_pos_eq (e : ℕ) (he : e < total N b) : cnt b (pos N b e) = e + 1 :=
  (pos_spec N b e he).2.2

/-- Summing along the enumeration is summing over the marked positions. -/
theorem sum_pos {M : Type*} [AddCommMonoid M] (ψ : ℕ → M) :
    ∑ e ∈ range (total N b), ψ (pos N b e) = ∑ p ∈ (range N).filter b, ψ p := by
  refine Finset.sum_nbij' (fun e => pos N b e) (fun p => cnt b p - 1) ?_ ?_ ?_ ?_ ?_
  · intro e he
    rw [mem_range] at he
    rw [mem_filter, mem_range]
    exact ⟨pos_lt N b e he, marked_pos N b e he⟩
  · intro p hp
    rw [mem_filter, mem_range] at hp
    rw [mem_range]
    have h1 := cnt_pos_of_marked b hp.2
    have h2 := cnt_le_total N b hp.1
    omega
  · intro e he
    rw [mem_range] at he
    show cnt b (pos N b e) - 1 = e
    rw [cnt_pos_eq N b e he, Nat.add_sub_cancel]
  · intro p hp
    rw [mem_filter, mem_range] at hp
    exact pos_cnt N b hp.2 hp.1
  · intro e _
    rfl

end Cert.Sage.Enum

end
-- ==== Proof.Nonzero.lean ====
/-
  The program's edge list enumerates the nonzero entries of the adjacency matrix.

  Flat position `p = 1536 j + i` of the matrix is marked when entry `(j, i)` is nonzero. The program's running count of
  the mask is the running count of marked positions, its histogram of that count is the histogram, the running sum of
  the histogram is the position of the e-th marked position, and its quotient and remainder by 1536 are that position's
  row and column; from the number of marked positions on, both lists hold 1536. So a sum along the lists is a sum over
  the marked positions, which is the double sum over the nonzero entries.
-/
import proofs.«135375_g42752104464586_cont_sun_m_355_15_alg».proof.Proof.Edges
import proofs.«135375_g42752104464586_cont_sun_m_355_15_alg».proof.Proof.HostRead
import proofs.«135375_g42752104464586_cont_sun_m_355_15_alg».proof.Proof.LibEnum
import Idealize.ShloMosaic.Lib.StableHlo.Predicate
import Idealize.ShloMosaic.Lib.Pipeline.Value
import Idealize.ShloMosaic.Lib.ValueIdxRank1
import Idealize.ShloMosaic.PureOps.Ideal.Laws
import Mathlib.Algebra.BigOperators.Fin
import Mathlib.Logic.Equiv.Fin.Basic

noncomputable section

namespace Cert.ReferenceIdeal.Nonzero

open Cert.ReferenceIdeal Cert.ReferenceIdeal.Gen Idealize.ShloMosaic Idealize.ShloMosaic.ValueIdx Cert.ReferenceIdeal.Edges
open Idealize.ShloMosaic.StableHlo.Predicate Cert.Sage

/-! ## Words known to be small -/

theorem msb_small {a : BitVec 32} (ha : a.toNat < 2 ^ 31) : a.msb = false :=
  BitVec.msb_eq_false_iff_two_mul_lt.mpr (by omega)

theorem slt_zero_small {a : BitVec 32} (ha : a.toNat < 2 ^ 31) : a.slt 0#32 = false := by
  have h := toInt_eq_toNat_of_lt ha
  simp only [BitVec.slt, h, show (0#32 : BitVec 32).toInt = 0 from by decide, decide_eq_false_iff_not]
  omega

theorem cmpi_slt_zero_small {a : BitVec 32} (ha : a.toNat < 2 ^ 31) : IntOp.cmpi .slt a 0#32 = 0#1 := by
  unfold IntOp.cmpi
  simp only [slt_zero_small ha]
  rfl

theorem maxsi_zero_small {a : BitVec 32} (ha : a.toNat < 2 ^ 31) : IntOp.maxsi 0#32 a = a := by
  unfold IntOp.maxsi
  rw [slt_zero_small ha]
  rfl

theorem cmpi_ne_self {w : Nat} (a : BitVec w) : IntOp.cmpi .ne a a = 0#1 := by
  unfold IntOp.cmpi
  simp

theorem not_corner {x c : BitVec 32} (hc0 : 0 < c.toNat) (hc : c.toNat < 2 ^ 31) : ¬ IntOp.SDivCorner x c := by
  intro h
  rcases h with h | ⟨_, h⟩
  · rw [h] at hc0; simp at hc0
  · rw [h] at hc; simp at hc

theorem divsi_small {x c : BitVec 32} (hx : x.toNat < 2 ^ 31) (hc0 : 0 < c.toNat) (hc : c.toNat < 2 ^ 31) :
    (IntOp.divsi .host x c).toNat = x.toNat / c.toNat := by
  simp only [IntOp.divsi, if_neg (not_corner hc0 hc), BitVec.sdiv_eq, msb_small hx, msb_small hc, BitVec.udiv_eq,
    BitVec.toNat_udiv]

theorem remsi_small {x c : BitVec 32} (hx : x.toNat < 2 ^ 31) (hc0 : 0 < c.toNat) (hc : c.toNat < 2 ^ 31) :
    (IntOp.remsi .host x c).toNat = x.toNat % c.toNat := by
  simp only [IntOp.remsi, if_neg (not_corner hc0 hc), BitVec.srem_eq, msb_small hx, msb_small hc, BitVec.umod_eq,
    BitVec.toNat_umod]

/-- The sign word of a word. -/
def sgW (x : BitVec 32) : BitVec 32 := if x = 0 then 0 else if x.msb then -1 else 1

theorem sgW_pos {x : BitVec 32} (h0 : 0 < x.toNat) (hx : x.toNat < 2 ^ 31) : sgW x = 1 := by
  unfold sgW
  rw [if_neg (by intro h; rw [h] at h0; simp at h0), msb_small hx]
  rfl

/-- Floor division of a word by a literal word: the truncated quotient, less one where the signs differ and the
    remainder is nonzero. -/
def fdW (x c : BitVec 32) : BitVec 32 :=
  Scalar.select (IntOp.andi (IntOp.cmpi .ne (sgW x) (sgW c)) (IntOp.cmpi .ne (IntOp.remsi .host x c) 0#32))
    (IntOp.subi (IntOp.divsi .host x c) 1#32) (IntOp.divsi .host x c)

theorem fdW_toNat {x c : BitVec 32} (hx : x.toNat < 2 ^ 31) (hc0 : 0 < c.toNat) (hc : c.toNat < 2 ^ 31) :
    (fdW x c).toNat = x.toNat / c.toNat := by
  have hcond : IntOp.andi (IntOp.cmpi .ne (sgW x) (sgW c)) (IntOp.cmpi .ne (IntOp.remsi .host x c) 0#32) = 0#1 := by
    by_cases h0 : x.toNat = 0
    · have hr : IntOp.remsi .host x c = 0#32 := by
        apply BitVec.eq_of_toNat_eq
        rw [remsi_small hx hc0 hc, h0]
        simp
      rw [hr, cmpi_ne_self]
      exact BitVec.and_zero
    · rw [sgW_pos (by omega) hx, sgW_pos hc0 hc, cmpi_ne_self]
      exact BitVec.zero_and
  unfold fdW
  rw [hcond, select_zero]
  exact divsi_small hx hc0 hc

/-- The divisor the remainder uses: one in place of zero. -/
def dvW (c : BitVec 32) : BitVec 32 := Scalar.select (IntOp.cmpi .eq c 0#32) 1#32 c

theorem dvW_pos {c : BitVec 32} (hc0 : 0 < c.toNat) : dvW c = c := by
  unfold dvW
  have : IntOp.cmpi .eq c 0#32 = 0#1 := by
    apply eq_zero_of_ne_one
    rw [cmpi_eq_iff]
    intro h; rw [h] at hc0; simp at hc0
  rw [this, select_zero]

/-- The remainder of a word by a literal word: the truncated remainder, plus the divisor where it is nonzero and its
    sign differs from the divisor's. -/
def rmW (x c : BitVec 32) : BitVec 32 :=
  Scalar.select (IntOp.andi (IntOp.cmpi .ne (IntOp.cmpi .slt (IntOp.remsi .host x (dvW c)) 0#32) (IntOp.cmpi .slt (dvW c) 0#32))
      (IntOp.cmpi .ne (IntOp.remsi .host x (dvW c)) 0#32))
    (IntOp.addi (IntOp.remsi .host x (dvW c)) (dvW c)) (IntOp.remsi .host x (dvW c))

theorem rmW_toNat {x c : BitVec 32} (hx : x.toNat < 2 ^ 31) (hc0 : 0 < c.toNat) (hc : c.toNat < 2 ^ 31) :
    (rmW x c).toNat = x.toNat % c.toNat := by
  have hr := remsi_small hx hc0 hc
  have hrs : (IntOp.remsi .host x c).toNat < 2 ^ 31 := by
    rw [hr]; exact lt_of_lt_of_le (Nat.mod_lt _ hc0) (by omega)
  unfold rmW
  rw [dvW_pos hc0, cmpi_slt_zero_small hrs, cmpi_slt_zero_small hc, cmpi_ne_self, show IntOp.andi (0#1) (IntOp.cmpi .ne (IntOp.remsi .host x c) 0#32) = 0#1 from BitVec.zero_and, select_zero]
  exact hr

/-! ## Sums over positions -/

/-- A sum over the positions up to and including `p`, written over all positions with a condition. -/
theorem sum_fin_le (f : ℕ → ℕ) (p : Fin 2359296) :
    (∑ q : Fin 2359296, if q.val ≤ p.val then f q.val else 0) = ∑ q ∈ Finset.range (p.val + 1), f q := by
  rw [Fin.sum_univ_eq_sum_range (fun q => if q ≤ p.val then f q else 0) 2359296, ← Finset.sum_filter]
  refine Finset.sum_congr ?_ (fun _ _ => rfl)
  ext q
  have := p.isLt
  simp only [Finset.mem_filter, Finset.mem_range]
  omega

/-- A sum over the list positions is the sum over their numbers. -/
theorem sum_idx_eq_range {M : Type*} [AddCommMonoid M] (f : ℕ → M) :
    (∑ e : (⟨1, ![2359296]⟩ : Shape).Idx, f (e 0).val) = ∑ e ∈ Finset.range 2359296, f e := by
  rw [← Fin.sum_univ_eq_sum_range f 2359296, ← Equiv.sum_comp (idxEquiv1 (n := 2359296)).symm]
  rfl

/-- A sum over the flat positions of a 1536 × 1536 grid is the double sum over rows and columns. -/
theorem sum_grid {M : Type*} [AddCommMonoid M] (g : ℕ → ℕ → M) :
    (∑ p ∈ Finset.range 2359296, g (p / 1536) (p % 1536)) = ∑ j : Fin 1536, ∑ i : Fin 1536, g j.val i.val := by
  rw [show (2359296 : ℕ) = 1536 * 1536 from by norm_num,
    ← Fin.sum_univ_eq_sum_range (fun p => g (p / 1536) (p % 1536)) (1536 * 1536),
    ← Equiv.sum_comp (finProdFinEquiv (m := 1536) (n := 1536)), Fintype.sum_prod_type]
  refine Finset.sum_congr rfl (fun j _ => Finset.sum_congr rfl (fun i _ => ?_))
  have hj := j.isLt
  have hi := i.isLt
  have h1 : (finProdFinEquiv (j, i)).val / 1536 = j.val := by
    show (i.val + 1536 * j.val) / 1536 = j.val
    omega
  have h2 : (finProdFinEquiv (j, i)).val % 1536 = i.val := by
    show (i.val + 1536 * j.val) % 1536 = i.val
    omega
  rw [h1, h2]

/-! ## The marked positions -/

section Stages
variable (adj : FVec Ideal S1536x1536 .f32)

/-- Entry `(j, i)` of the matrix, row and column read modulo 1536. -/
def entry (j i : ℕ) : Ideal .f32 :=
  adj (ix2 (⟨j % 1536, Nat.mod_lt _ (by norm_num)⟩ : Fin 1536) (⟨i % 1536, Nat.mod_lt _ (by norm_num)⟩ : Fin 1536))

/-- Entry `(j, i)` is nonzero. -/
def A (j i : ℕ) : Prop := entry adj j i ≠ 0

instance ADec (j i : ℕ) : Decidable (A adj j i) := Classical.propDecidable _

/-- Flat position `p` is marked: its entry is nonzero. -/
def b (p : ℕ) : Prop := A adj (p / 1536) (p % 1536)

instance bDec : DecidablePred (b adj) := fun p => ADec adj (p / 1536) (p % 1536)

theorem entry_fin (j i : Fin 1536) : entry adj j.val i.val = adj (ix2 j i) := by
  have hj : (⟨j.val % 1536, Nat.mod_lt _ (by norm_num)⟩ : Fin 1536) = j := Fin.ext (Nat.mod_eq_of_lt j.isLt)
  have hi : (⟨i.val % 1536, Nat.mod_lt _ (by norm_num)⟩ : Fin 1536) = i := Fin.ext (Nat.mod_eq_of_lt i.isLt)
  unfold entry
  rw [hj, hi]

/-! ## The mask -/

/-- The mask's bit is set where the entry is nonzero. -/
theorem mask2_iff (k : S1536x1536.Idx) : RefTerm.mask2 adj k = 1#1 ↔ adj k ≠ 0 := by
  show Ideal.cmp .une (adj k) (Ideal.ofBits .f32 0x00000000#32) = 1#1 ↔ _
  rw [Ideal.ofBits_zero_f32]
  unfold Ideal.cmp
  simp only [ofBool_eq_one_iff, decide_eq_true_eq]

/-- The mask as a list of words reads 1 at a marked position and 0 elsewhere. -/
theorem maskE_toNat (p : Fin 2359296) : (RefTerm.maskE adj (ix1 p)).toNat = if b adj p.val then 1 else 0 := by
  have hp := p.isLt
  have hk : RefTerm.maskE adj (ix1 p)
      = (RefTerm.mask2 adj (ix2 (⟨p.val / 1536 % 1536, Nat.mod_lt _ (by norm_num)⟩ : Fin 1536)
          (⟨p.val % 1536 % 1536, Nat.mod_lt _ (by norm_num)⟩ : Fin 1536))).setWidth 32 := by
    unfold RefTerm.maskE
    rw [extui_apply]
    congr 1
    refine shapeCast_apply _ _ _ _ ?_
    rw [Shape.rowMajor_val_two, Shape.rowMajor_val_one]
    show p.val / 1536 % 1536 * 1536 + p.val % 1536 % 1536 = p.val
    omega
  rw [hk, toNat_setWidth_bit]
  by_cases h : b adj p.val
  · rw [if_pos h, if_pos ((mask2_iff adj _).2 h)]
  · rw [if_neg h, if_neg (fun hc => h ((mask2_iff adj _).1 hc))]

/-! ## The running count -/

theorem cs1_toNat (p : Fin 2359296) : (RefTerm.cs1 adj (ix1 p)).toNat = Enum.cnt (b adj) p.val := by
  have hp := p.isLt
  have hsum : (∑ q : Fin 2359296, if q.val ≤ p.val then (RefTerm.maskE adj (ix1 q)).toNat else 0)
      = Enum.cnt (b adj) p.val :=
    calc (∑ q : Fin 2359296, if q.val ≤ p.val then (RefTerm.maskE adj (ix1 q)).toNat else 0)
        = ∑ q : Fin 2359296, if q.val ≤ p.val then (fun q => if b adj q then 1 else 0) q.val else 0 :=
          Finset.sum_congr rfl (fun q _ => by rw [maskE_toNat])
      _ = ∑ q ∈ Finset.range (p.val + 1), if b adj q then 1 else 0 := sum_fin_le (fun q => if b adj q then 1 else 0) p
      _ = Enum.cnt (b adj) p.val := (Finset.card_filter _ _).symm
  unfold RefTerm.cs1
  rw [HostRead.cumsumE_toNat, hsum]
  have := Enum.cnt_le (b adj) p.val
  omega

theorem cs1_le (p : Fin 2359296) : (RefTerm.cs1 adj (ix1 p)).toNat ≤ 2359296 := by
  have hp := p.isLt
  have := Enum.cnt_le (b adj) p.val
  rw [cs1_toNat]
  omega

/-! ## The histogram's indices and the histogram -/

theorem binIdx_toInt (e : Fin 2359296) : (RefTerm.binIdx adj (ix2 e 0)).toInt = (Enum.cnt (b adj) e.val : ℤ) := by
  have hs : (RefTerm.cs1 adj (ix1 e)).toNat < 2 ^ 31 := by have := cs1_le adj e; omega
  have hb : RefTerm.binIdx adj (ix2 e 0) = RefTerm.cs1 adj (ix1 e) := by
    unfold RefTerm.binIdx
    rw [broadcastInDim_apply _ _ _ _ (ix1 e) (fun a => by match a with | ⟨0, _⟩ => rfl)]
    show Scalar.select (IntOp.cmpi .slt (IntOp.maxsi 0#32 (RefTerm.cs1 adj (ix1 e))) 0#32)
        (IntOp.addi (IntOp.maxsi 0#32 (RefTerm.cs1 adj (ix1 e))) 2359296#32) (IntOp.maxsi 0#32 (RefTerm.cs1 adj (ix1 e))) = _
    rw [maxsi_zero_small hs, cmpi_slt_zero_small hs, select_zero]
  rw [hb, toInt_eq_toNat_of_lt hs, cs1_toNat]

theorem hist_le (k : ℕ) : Enum.hist 2359296 (b adj) k ≤ 2359296 := by
  unfold Enum.hist
  exact (Finset.card_filter_le _ _).trans (by rw [Finset.card_range])

theorem bincount_toNat (k : Fin 2359296) : (RefTerm.bincount adj (ix1 k)).toNat = Enum.hist 2359296 (b adj) k.val := by
  have hsum : (∑ e : Fin 2359296, if (RefTerm.binIdx adj (ix2 e 0)).toInt = (k.val : ℤ) then (RefTerm.splatE 1#32 (ix1 e)).toNat else 0)
      = Enum.hist 2359296 (b adj) k.val :=
    calc (∑ e : Fin 2359296, if (RefTerm.binIdx adj (ix2 e 0)).toInt = (k.val : ℤ) then (RefTerm.splatE 1#32 (ix1 e)).toNat else 0)
        = ∑ e : Fin 2359296, (fun e => if Enum.cnt (b adj) e = k.val then 1 else 0) e.val :=
          Finset.sum_congr rfl (fun e _ => by
            rw [binIdx_toInt]
            show (if ((Enum.cnt (b adj) e.val : ℕ) : ℤ) = (k.val : ℤ) then 1 else 0) = if Enum.cnt (b adj) e.val = k.val then 1 else 0
            simp only [Nat.cast_inj])
      _ = ∑ e ∈ Finset.range 2359296, if Enum.cnt (b adj) e = k.val then 1 else 0 := Fin.sum_univ_eq_sum_range (fun e => if Enum.cnt (b adj) e = k.val then 1 else 0) 2359296
      _ = Enum.hist 2359296 (b adj) k.val := (Finset.card_filter _ _).symm
  unfold RefTerm.bincount
  rw [HostRead.scatterI_toNat, hsum]
  show (0 + Enum.hist 2359296 (b adj) k.val) % 2 ^ 32 = _
  have := hist_le adj k.val
  omega

/-! ## The running sum of the histogram: the e-th marked position -/

theorem flat_toNat (e : Fin 2359296) : (RefTerm.flat adj (ix1 e)).toNat = Enum.pos 2359296 (b adj) e.val := by
  have hsum : (∑ q : Fin 2359296, if q.val ≤ e.val then (RefTerm.bincount adj (ix1 q)).toNat else 0)
      = Enum.pos 2359296 (b adj) e.val :=
    calc (∑ q : Fin 2359296, if q.val ≤ e.val then (RefTerm.bincount adj (ix1 q)).toNat else 0)
        = ∑ q : Fin 2359296, if q.val ≤ e.val then (Enum.hist 2359296 (b adj)) q.val else 0 :=
          Finset.sum_congr rfl (fun q _ => by rw [bincount_toNat])
      _ = ∑ q ∈ Finset.range (e.val + 1), Enum.hist 2359296 (b adj) q := sum_fin_le (Enum.hist 2359296 (b adj)) e
      _ = Enum.pos 2359296 (b adj) e.val := (Enum.pos_eq_sum_hist 2359296 (b adj) e.val).symm
  unfold RefTerm.flat
  rw [HostRead.cumsumE_toNat, hsum]
  have := Enum.pos_le 2359296 (b adj) e.val
  omega

/-! ## Its row and column -/

theorem srcRaw_toNat (e : Fin 2359296) :
    (RefTerm.srcRaw adj (ix1 e)).toNat = Enum.pos 2359296 (b adj) e.val / 1536 % 1536 := by
  have hf := flat_toNat adj e
  have hle := Enum.pos_le 2359296 (b adj) e.val
  have h1 : (RefTerm.flat adj (ix1 e)).toNat < 2 ^ 31 := by omega
  have hc0 : 0 < (1536#32 : BitVec 32).toNat := by decide
  have hc : (1536#32 : BitVec 32).toNat < 2 ^ 31 := by decide
  have h2 : (fdW (RefTerm.flat adj (ix1 e)) 1536#32).toNat = Enum.pos 2359296 (b adj) e.val / 1536 := by
    rw [fdW_toNat h1 hc0 hc, hf]; rfl
  show (rmW (fdW (RefTerm.flat adj (ix1 e)) 1536#32) 1536#32).toNat = _
  rw [rmW_toNat (by rw [h2]; omega) hc0 hc, h2]
  rfl

theorem dstRaw_toNat (e : Fin 2359296) :
    (RefTerm.dstRaw adj (ix1 e)).toNat = Enum.pos 2359296 (b adj) e.val % 1536 := by
  have hf := flat_toNat adj e
  have hle := Enum.pos_le 2359296 (b adj) e.val
  have h1 : (RefTerm.flat adj (ix1 e)).toNat < 2 ^ 31 := by omega
  have hc0 : 0 < (1536#32 : BitVec 32).toNat := by decide
  have hc : (1536#32 : BitVec 32).toNat < 2 ^ 31 := by decide
  have h2 : (fdW (RefTerm.flat adj (ix1 e)) 1#32).toNat = Enum.pos 2359296 (b adj) e.val := by
    rw [fdW_toNat h1 (by decide) (by decide), hf]; exact Nat.div_one _
  show (rmW (fdW (RefTerm.flat adj (ix1 e)) 1#32) 1536#32).toNat = _
  rw [rmW_toNat (by rw [h2]; omega) hc0 hc, h2]
  rfl

/-! ## The number of marked positions, and the fill -/

theorem total_toNat (j : S_.Idx) : (RefTerm.total adj j).toNat = Enum.total 2359296 (b adj) := by
  have hsum : ∑ i : S1536x1536.Idx, (extui 32 (RefTerm.mask2 adj) natLt_1_32 i).toNat = Enum.total 2359296 (b adj) :=
    calc ∑ i : S1536x1536.Idx, (extui 32 (RefTerm.mask2 adj) natLt_1_32 i).toNat
        = ∑ j : Fin 1536, ∑ i : Fin 1536, (fun j i => if A adj j i then 1 else 0) j.val i.val := by
          rw [sum_idx2]
          refine Finset.sum_congr rfl (fun j _ => Finset.sum_congr rfl (fun i _ => ?_))
          rw [extui_apply, toNat_setWidth_bit]
          show _ = if A adj j.val i.val then 1 else 0
          have he := entry_fin adj j i
          by_cases h : A adj j.val i.val
          · rw [if_pos h, if_pos ((mask2_iff adj _).2 (by rw [← he]; exact h))]
          · rw [if_neg h, if_neg (fun hc => h (by have := (mask2_iff adj _).1 hc; rw [← he] at this; exact this))]
      _ = ∑ p ∈ Finset.range 2359296, if b adj p then 1 else 0 := (sum_grid (fun j i => if A adj j i then 1 else 0)).symm
      _ = Enum.total 2359296 (b adj) := (Finset.card_filter _ _).symm
  have huniv : (Finset.univ.filter fun i : S1536x1536.Idx => reducesTo_S1536x1536_S_d0_1.drop i = j) = Finset.univ :=
    Finset.filter_true_of_mem (fun i _ => funext fun a => a.elim0)
  have hT := Enum.total_le 2359296 (b adj)
  unfold RefTerm.total
  rw [Host.reduce_eq_fold, huniv]
  show (Finset.fold IntOp.addi 0#32 (extui 32 (RefTerm.mask2 adj) natLt_1_32) Finset.univ).toNat = _
  rw [toNat_fold_addi _ _ (by rw [hsum]; omega), hsum]

theorem isFill_iff (e : Fin 2359296) : RefTerm.isFill adj (ix1 e) = 1#1 ↔ Enum.total 2359296 (b adj) ≤ e.val := by
  have he := e.isLt
  have hT := Enum.total_le 2359296 (b adj)
  have ht : ∀ j, (RefTerm.total adj j).toNat = Enum.total 2359296 (b adj) := total_toNat adj
  unfold RefTerm.isFill
  generalize RefTerm.total adj = T at ht
  show IntOp.cmpi .sge (BitVec.ofNat 32 e.val) (T _) = 1#1 ↔ _
  rw [sge_iff_toNat (by rw [BitVec.toNat_ofNat]; omega) (by rw [ht]; omega), ht, BitVec.toNat_ofNat,
    Nat.mod_eq_of_lt (by omega)]

theorem nzSrc_toNat (e : Fin 2359296) : (RefTerm.nzSrc adj (ix1 e)).toNat
    = if Enum.total 2359296 (b adj) ≤ e.val then 1536 else Enum.pos 2359296 (b adj) e.val / 1536 % 1536 := by
  show (Scalar.select (RefTerm.isFill adj (ix1 e)) 1536#32 (RefTerm.srcRaw adj (ix1 e))).toNat = _
  by_cases h : Enum.total 2359296 (b adj) ≤ e.val
  · rw [if_pos h, (isFill_iff adj e).2 h, select_one]; rfl
  · rw [if_neg h, eq_zero_of_ne_one (fun hc => h ((isFill_iff adj e).1 hc)), select_zero, srcRaw_toNat]

theorem nzDst_toNat (e : Fin 2359296) : (RefTerm.nzDst adj (ix1 e)).toNat
    = if Enum.total 2359296 (b adj) ≤ e.val then 1536 else Enum.pos 2359296 (b adj) e.val % 1536 := by
  show (Scalar.select (RefTerm.isFill adj (ix1 e)) 1536#32 (RefTerm.dstRaw adj (ix1 e))).toNat = _
  by_cases h : Enum.total 2359296 (b adj) ≤ e.val
  · rw [if_pos h, (isFill_iff adj e).2 h, select_one]; rfl
  · rw [if_neg h, eq_zero_of_ne_one (fun hc => h ((isFill_iff adj e).1 hc)), select_zero, dstRaw_toNat]

end Stages

/-! ## The edge list -/

theorem nz_isEdgeList (adj : FVec Ideal S1536x1536 .f32) :
    IsEdgeList (fun j i => adj (ix2 j i) ≠ 0) (RefTerm.nzSrc adj) (RefTerm.nzDst adj) := by
  have hT := Enum.total_le 2359296 (b adj)
  refine ⟨fun e => ?_, fun e => ?_, fun e h => ?_, fun φ => ?_⟩
  · obtain ⟨p, rfl⟩ : ∃ p : Fin 2359296, e = ix1 p := ⟨e 0, eq_ix1 e⟩
    rw [nzSrc_toNat]
    split_ifs <;> omega
  · obtain ⟨p, rfl⟩ : ∃ p : Fin 2359296, e = ix1 p := ⟨e 0, eq_ix1 e⟩
    rw [nzDst_toNat]
    split_ifs <;> omega
  · obtain ⟨p, rfl⟩ : ∃ p : Fin 2359296, e = ix1 p := ⟨e 0, eq_ix1 e⟩
    rw [nzDst_toNat] at h
    rw [nzSrc_toNat]
    split_ifs at h ⊢ <;> omega
  · calc (∑ e : S2359296.Idx, if (RefTerm.nzDst adj e).toNat < 1536 then φ (RefTerm.nzSrc adj e).toNat (RefTerm.nzDst adj e).toNat else 0)
        = ∑ e : S2359296.Idx, if (e 0).val < Enum.total 2359296 (b adj)
            then φ (Enum.pos 2359296 (b adj) (e 0).val / 1536 % 1536) (Enum.pos 2359296 (b adj) (e 0).val % 1536) else 0 := by
          refine Finset.sum_congr rfl (fun e _ => ?_)
          obtain ⟨p, rfl⟩ : ∃ p : Fin 2359296, e = ix1 p := ⟨e 0, eq_ix1 e⟩
          show _ = if p.val < Enum.total 2359296 (b adj)
            then φ (Enum.pos 2359296 (b adj) p.val / 1536 % 1536) (Enum.pos 2359296 (b adj) p.val % 1536) else 0
          rw [nzDst_toNat, nzSrc_toNat]
          by_cases h : Enum.total 2359296 (b adj) ≤ p.val
          · simp only [if_pos h, Nat.lt_irrefl, ↓reduceIte]
            exact (if_neg (by omega)).symm
          · simp only [if_neg h]
            rw [if_pos (Nat.mod_lt _ (by norm_num)), if_pos (by omega)]
      _ = ∑ e ∈ Finset.range 2359296, if e < Enum.total 2359296 (b adj)
            then φ (Enum.pos 2359296 (b adj) e / 1536 % 1536) (Enum.pos 2359296 (b adj) e % 1536) else 0 :=
          sum_idx_eq_range (fun n => if n < Enum.total 2359296 (b adj)
            then φ (Enum.pos 2359296 (b adj) n / 1536 % 1536) (Enum.pos 2359296 (b adj) n % 1536) else 0)
      _ = ∑ e ∈ Finset.range (Enum.total 2359296 (b adj)),
            φ (Enum.pos 2359296 (b adj) e / 1536 % 1536) (Enum.pos 2359296 (b adj) e % 1536) := by
          rw [← Finset.sum_filter]
          refine Finset.sum_congr ?_ (fun _ _ => rfl)
          ext n
          simp only [Finset.mem_filter, Finset.mem_range]
          omega
      _ = ∑ p ∈ (Finset.range 2359296).filter (b adj), φ (p / 1536 % 1536) (p % 1536) :=
          Enum.sum_pos 2359296 (b adj) (fun p => φ (p / 1536 % 1536) (p % 1536))
      _ = ∑ p ∈ Finset.range 2359296, (fun j i => if A adj j i then φ (j % 1536) i else 0) (p / 1536) (p % 1536) :=
          Finset.sum_filter (b adj) (fun p => φ (p / 1536 % 1536) (p % 1536))
      _ = ∑ j : Fin 1536, ∑ i : Fin 1536, (fun j i => if A adj j i then φ (j % 1536) i else 0) j.val i.val :=
          sum_grid (fun j i => if A adj j i then φ (j % 1536) i else 0)
      _ = _ := by
          refine Finset.sum_congr rfl (fun j _ => Finset.sum_congr rfl (fun i _ => ?_))
          have he := entry_fin adj j i
          show (if A adj j.val i.val then φ (j.val % 1536) i.val else 0) = if adj (ix2 j i) ≠ 0 then φ j.val i.val else 0
          rw [Nat.mod_eq_of_lt j.isLt]
          by_cases h : A adj j.val i.val
          · rw [if_pos h, if_pos (by rw [← he]; exact h)]
          · rw [if_neg h, if_neg (fun hc => h (by rw [← he] at hc; exact hc))]

end Cert.ReferenceIdeal.Nonzero

end
-- ==== Proof.RefValue.lean ====
/-
  The reference's term at the exact values is the edge form of the three layers.
-/
import proofs.«135375_g42752104464586_cont_sun_m_355_15_alg».proof.Proof.RefLayer
import proofs.«135375_g42752104464586_cont_sun_m_355_15_alg».proof.Proof.Nonzero

noncomputable section

namespace Cert.ReferenceIdeal.RefValue

open Cert.ReferenceIdeal Cert.ReferenceIdeal.Gen Idealize.ShloMosaic Idealize.ShloMosaic.ValueIdx Cert.Sage

theorem refOut_eq (x : FVec Ideal S1536x64 .f32) (adj : FVec Ideal S1536x1536 .f32) (Wl0 : FVec Ideal S64x64 .f32) (b0 : FVec Ideal S64 .f32)
    (Wr0 : FVec Ideal S64x64 .f32) (Wl1 : FVec Ideal S64x64 .f32) (b1 : FVec Ideal S64 .f32) (Wr1 : FVec Ideal S64x64 .f32)
    (Wl2 : FVec Ideal S64x64 .f32) (b2 : FVec Ideal S64 .f32) (Wr2 : FVec Ideal S64x64 .f32) :
    RefTerm.refOut (F := Ideal) x adj Wl0 b0 Wr0 Wl1 b1 Wr1 Wl2 b2 Wr2
      = ofMat (outR (mat adj) (mat x) (mat Wl0) (vec b0) (mat Wr0) (mat Wl1) (vec b1) (mat Wr1) (mat Wl2) (vec b2) (mat Wr2)) := by
  have hE := Nonzero.nz_isEdgeList adj
  unfold RefTerm.refOut outR
  rw [RefLayer.refLayer_eq adj _ _ hE, RefLayer.refRelu_eq, RefLayer.refLayer_eq adj _ _ hE, RefLayer.refRelu_eq,
    RefLayer.refLayer_eq adj _ _ hE]
  simp only [mat_ofMat]

end Cert.ReferenceIdeal.RefValue

end
-- ==== Proof.Bridge.lean ====
/-
  On an adjacency matrix of zeros and ones the dense form and the edge form of the layers are one function.
-/
import proofs.«135375_g42752104464586_cont_sun_m_355_15_alg».proof.Proof.Spec

noncomputable section

namespace Cert.Sage

open Idealize.ShloMosaic

/-- Termwise x * 1 = x and x * 0 = 0 for every extended real: the weighted sum is the sum over the nonzero entries. -/
theorem aggK_eq_aggR (adj : Mat 1536 1536) (h01 : ∀ j i, adj j i = 0 ∨ adj j i = 1) (h : Mat 1536 64) (i : Fin 1536)
    (k : Fin 64) : aggK adj h i k = aggR adj h i k := by
  unfold aggK aggR
  refine Finset.sum_congr rfl (fun j _ => ?_)
  rcases h01 j i with h0 | h1
  · rw [h0, mul_zero, if_neg (by simp)]
  · rw [h1, mul_one, if_pos (by simp)]

/-- A column of zeros and ones sums to the number of its nonzero entries. -/
theorem degK_eq_degR (adj : Mat 1536 1536) (h01 : ∀ j i, adj j i = 0 ∨ adj j i = 1) (i : Fin 1536) :
    degK adj i = degR adj i := by
  unfold degK degR
  refine Finset.sum_congr rfl (fun j _ => ?_)
  rcases h01 j i with h0 | h1
  · rw [h0, if_neg (by simp)]
  · rw [h1, if_pos (by simp)]

/-- A finite sum of zeros and ones is a natural number. -/
theorem sum_boole_nat (adj : Mat 1536 1536) (i : Fin 1536) (s : Finset (Fin 1536)) :
    ∃ n : ℕ, (∑ j ∈ s, (if adj j i ≠ 0 then (1 : EReal) else 0)) = ((n : ℝ) : EReal) := by
  induction s using Finset.induction_on with
  | empty => exact ⟨0, by simp⟩
  | insert a s ha ih =>
    obtain ⟨n, hn⟩ := ih
    rw [Finset.sum_insert ha, hn]
    by_cases hc : adj a i ≠ 0
    · refine ⟨n + 1, ?_⟩
      rw [if_pos hc, add_comm, Nat.cast_add, Nat.cast_one, EReal.coe_add, EReal.coe_one]
    · exact ⟨n, by rw [if_neg hc, zero_add]⟩

/-- The edge-form degree is a natural number. -/
theorem degR_nat (adj : Mat 1536 1536) (i : Fin 1536) : ∃ n : ℕ, degR adj i = ((n : ℝ) : EReal) :=
  sum_boole_nat adj i Finset.univ

theorem layerK_eq_layerR (adj : Mat 1536 1536) (h01 : ∀ j i, adj j i = 0 ∨ adj j i = 1) (h : Mat 1536 64) (Wl : Mat 64 64)
    (b : Fin 64 → EReal) (Wr : Mat 64 64) : layerK adj h Wl b Wr = layerR adj h Wl b Wr := by
  funext i o
  unfold layerK layerR
  obtain ⟨n, hn⟩ := degR_nat adj i
  -- the clamped degree is a real number at least one
  have hD : max (degR adj i) 1 = ((max (n : ℝ) 1 : ℝ) : EReal) := by
    rw [hn, ← EReal.coe_one]
    exact (EReal.coe_strictMono.monotone.map_max).symm
  have hpos : max (n : ℝ) 1 ≠ 0 := by
    have h1 : (1 : ℝ) ≤ max (n : ℝ) 1 := le_max_right _ _
    intro h0
    rw [h0] at h1
    exact absurd h1 (by norm_num)
  rw [degK_eq_degR adj h01 i, max_comm (1 : EReal) (degR adj i), hD]
  simp only [aggK_eq_aggR adj h01, Ideal.div_coe hpos, one_mul]
  -- only factors commuted and the bias moved across the second sum
  have e1 : ∀ k, Wl k o * (aggR adj h i k * ((1 / max (n : ℝ) 1 : ℝ) : EReal))
      = aggR adj h i k * ((1 / max (n : ℝ) 1 : ℝ) : EReal) * Wl k o := fun k => mul_comm _ _
  have e2 : ∀ k, Wr k o * h i k = h i k * Wr k o := fun k => mul_comm _ _
  simp only [e1, e2]
  rw [add_right_comm]

theorem outK_eq_outR (adj : Mat 1536 1536) (h01 : ∀ j i, adj j i = 0 ∨ adj j i = 1) (x : Mat 1536 64) (Wl0 : Mat 64 64)
    (b0 : Fin 64 → EReal) (Wr0 : Mat 64 64) (Wl1 : Mat 64 64) (b1 : Fin 64 → EReal) (Wr1 : Mat 64 64) (Wl2 : Mat 64 64)
    (b2 : Fin 64 → EReal) (Wr2 : Mat 64 64) :
    outK adj x Wl0 b0 Wr0 Wl1 b1 Wr1 Wl2 b2 Wr2 = outR adj x Wl0 b0 Wr0 Wl1 b1 Wr1 Wl2 b2 Wr2 := by
  unfold outK outR
  rw [layerK_eq_layerR adj h01, layerK_eq_layerR adj h01, layerK_eq_layerR adj h01]

end Cert.Sage

end
-- ==== Proof.PreDecode.lean ====
/-
  What the precondition says of the adjacency matrix: every entry is the real zero or the real one.
-/
import proofs.«135375_g42752104464586_cont_sun_m_355_15_alg».proof.Proof.Gen.Pre_finite_inputs
import proofs.«135375_g42752104464586_cont_sun_m_355_15_alg».proof.Proof.Spec
import Idealize.ShloMosaic.Lib.ReduceAll
import Idealize.ShloMosaic.Lib.StableHlo.Predicate
import Idealize.ShloMosaic.PureOps.Ideal.Laws

noncomputable section

namespace Cert.Proof.PreDecode

open Idealize.ShloMosaic Idealize.ShloMosaic.ValueIdx Cert.Pre_finite_inputs Cert.Pre_finite_inputs.Gen

/-- The rank-0 shape has one index. -/
instance subsingleton_scalar_idx : Subsingleton S_.Idx := ⟨fun a b => funext fun d => d.elim0⟩

/-- The pattern of `1.0` denotes the extended real one. -/
theorem ofBits_one_f32 : Ideal.ofBits .f32 0x3F800000#32 = 1 := by
  simp [Ideal.ofBits, Ideal.ieee, -EReal.coe_mul]; norm_num

/-- An ordered-equal comparison of extended reals is the bit 1 exactly when they are equal. -/
theorem cmp_oeq_eq_one {x y : EReal} : Ideal.cmp .oeq x y = 1#1 ↔ x = y := by
  unfold Ideal.cmp
  rw [StableHlo.Predicate.ofBool_eq_one_iff]
  simp

theorem adj01 (a0 : FVec Ideal S1536x64 .f32) (a1 : FVec Ideal S1536x1536 .f32) (a2 : FVec Ideal S64x64 .f32)
    (a3 : FVec Ideal S64 .f32) (a4 : FVec Ideal S64x64 .f32) (a5 : FVec Ideal S64x64 .f32) (a6 : FVec Ideal S64 .f32)
    (a7 : FVec Ideal S64x64 .f32) (a8 : FVec Ideal S64x64 .f32) (a9 : FVec Ideal S64 .f32) (a10 : FVec Ideal S64x64 .f32)
    (h : Cert.Pre_finite_inputs.fn (F := Ideal) a0 a1 a2 a3 a4 a5 a6 a7 a8 a9 a10 = fun _ => 1#1) :
    ∀ j i : Fin 1536, Cert.Sage.mat a1 j i = 0 ∨ Cert.Sage.mat a1 j i = 1 := by
  intro j i
  have h0 := congrFun h ValueIdx.ix0
  -- the predicate is a conjunction whose last conjunct is the all-reduction over the matrix
  have h1 : Host.reduce IntOp.andi
      (ori (cmpf .oeq a1 (broadcastInDim S1536x1536 ![] Facts.bcast_S_S1536x1536 (constant S_ .f32 0x00000000#32)))
           (cmpf .oeq a1 (broadcastInDim S1536x1536 ![] Facts.bcast_S_S1536x1536 (constant S_ .f32 0x3F800000#32))))
      (constantI S_ 1 1#1) Facts.reducesTo_S1536x1536_S_d0_1 Facts.h_S_ ValueIdx.ix0 = 1#1 :=
    (IntOp.andi_eq_one.1 h0).2
  have h2 := Host.reduce_andi_all _ _ _ _ _ h1 (ix2 j i)
  have h3 : Ideal.cmp .oeq (a1 (ix2 j i)) (Ideal.ofBits .f32 0x00000000#32) = 1#1
      ∨ Ideal.cmp .oeq (a1 (ix2 j i)) (Ideal.ofBits .f32 0x3F800000#32) = 1#1 := IntOp.ori_eq_one.1 h2
  rw [cmp_oeq_eq_one, cmp_oeq_eq_one, Ideal.ofBits_zero_f32, ofBits_one_f32] at h3
  exact h3

end Cert.Proof.PreDecode

end
-- ==== Proof.lean ====
/-
  The certificate of a fused three-layer GraphSAGE kernel against its edge-list reference.

  The kernel reads the adjacency matrix as numbers: per layer it multiplies the (transposed) features into the matrix,
  scales by the reciprocal of the clipped column sums, and applies the two weight matrices and the bias on the matrix
  unit. The reference reads only WHERE the matrix is nonzero: it lists the nonzero entries (a running count, its
  histogram, a running sum of the histogram, quotient and remainder by the row length), gathers the source rows,
  sums them into their destinations, divides by the clipped number of edges per destination, and applies the weights.
  Under the precondition — every input finite and every adjacency entry zero or one — the two are one function over the
  extended reals: a 0/1 weight selects (`x · 1 = x`, `x · 0 = 0`), a 0/1 column's sum counts its nonzero entries, and a
  quotient by a nonzero real is the product with its reciprocal.

  * `Spec`: the two forms, program-free. `Bridge`: they agree on a 0/1 matrix. `PreDecode`: the precondition says the
    matrix is 0/1.
  * Kernel side: `KPayload` (the body's store is the dense form of its loads), `KernelValue` (the run, blocks to array).
  * Reference side: `RefTerm` (the program's term), `RefOps` (its operations as lists), `RefRunBase` / `RefRunA` /
    `RefRunB` / `RefRunM` / `RefRun` (the run: the edge list's value, the layers' values, the program is its list, the
    assembly), `HostRead` (integer folds at an index),
    `LibEnum` (enumeration by counting), `Nonzero` (the edge list enumerates the nonzero entries), `RefLayer` and
    `RefValue` (the term is the edge form).
  The two kernel programs' frames are the generated ones; the reference's frame is its run with the result dropped; the
  idealization rewrote nothing, so `preserves` is trivial.
-/
import proofs.«135375_g42752104464586_cont_sun_m_355_15_alg».proof.Defs
import proofs.«135375_g42752104464586_cont_sun_m_355_15_alg».proof.Proof.Gen.Kernel
import proofs.«135375_g42752104464586_cont_sun_m_355_15_alg».proof.Proof.Gen.Kernel.Frame
import proofs.«135375_g42752104464586_cont_sun_m_355_15_alg».proof.Proof.Gen.KernelIdeal
import proofs.«135375_g42752104464586_cont_sun_m_355_15_alg».proof.Proof.Gen.KernelIdeal.Frame
import proofs.«135375_g42752104464586_cont_sun_m_355_15_alg».proof.Proof.Gen.ReferenceIdeal
import proofs.«135375_g42752104464586_cont_sun_m_355_15_alg».proof.Proof.Gen.Pre_finite_inputs
import proofs.«135375_g42752104464586_cont_sun_m_355_15_alg».proof.Proof.KernelValue
import proofs.«135375_g42752104464586_cont_sun_m_355_15_alg».proof.Proof.RefRun
import proofs.«135375_g42752104464586_cont_sun_m_355_15_alg».proof.Proof.RefValue
import proofs.«135375_g42752104464586_cont_sun_m_355_15_alg».proof.Proof.Bridge
import proofs.«135375_g42752104464586_cont_sun_m_355_15_alg».proof.Proof.PreDecode
import Idealize.ShloMosaic.Adequacy
import Idealize.ShloMosaic.Init

noncomputable section

namespace Cert.Proof

open Idealize.ShloMosaic Idealize.SL.Sem Cert.Sage

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both programs end at the dense form of the three layers of the kernel's arguments: the kernel by its run, the
    reference by its run, its term read as the edge form, and the two forms' agreement on the 0/1 adjacency the
    precondition grants. -/
theorem algebraic : Cert.algebraic_KernelIdeal_ReferenceIdeal := by
  intro m ρ m' ρ' hpre hagree
  refine ⟨_, Cert.KernelIdeal.KVal.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9, h10⟩ := hagree c
  rw [h0, h1, h2, h3, h4, h5, h6, h7, h8, h9, h10, Cert.ReferenceIdeal.RefValue.refOut_eq]
  exact congrArg ofMat (outK_eq_outR _ (Cert.Proof.PreDecode.adj01 _ _ _ _ _ _ _ _ _ _ _ (hpre c)) _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
